-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x512 : Shape := ⟨2, ![2048, 512]⟩
abbrev S512x256 : Shape := ⟨2, ![512, 256]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S2048x512 .f32) (main_arg1 : FVec F S512x256 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  main_v8
-- ==== Kernel.lean ====
abbrev S2048x512 : Shape := ⟨2, ![2048, 512]⟩
abbrev S512x256 : Shape := ⟨2, ![512, 256]⟩
abbrev S256x512 : Shape := ⟨2, ![256, 512]⟩
abbrev S128x512 : Shape := ⟨2, ![128, 512]⟩
abbrev S2048x128 : Shape := ⟨2, ![2048, 128]⟩
abbrev S128x128 : Shape := ⟨2, ![128, 128]⟩
abbrev S128x1x128 : Shape := ⟨3, ![128, 1, 128]⟩
abbrev S1x128x128 : Shape := ⟨3, ![1, 128, 128]⟩
abbrev S128x128x128 : Shape := ⟨3, ![128, 128, 128]⟩
abbrev S2048x256 : Shape := ⟨2, ![2048, 256]⟩

abbrev nBuf : Space → Nat
  | .hbm => 8
  | .vmem => 14
  | .smem => 0
  | _ => 0

abbrev bufTy : (tb : Table) → Fin (tcTables nBuf tb) → BufTy
  | .hbm, ⟨0, _⟩ => ⟨S2048x512, .f32⟩
  | .hbm, ⟨1, _⟩ => ⟨S512x256, .f32⟩
  | .hbm, ⟨2, _⟩ => ⟨S256x512, .f32⟩
  | .hbm, ⟨3, _⟩ => ⟨S128x512, .f32⟩
  | .hbm, ⟨4, _⟩ => ⟨S128x512, .f32⟩
  | .hbm, ⟨5, _⟩ => ⟨S2048x128, .f32⟩
  | .hbm, ⟨6, _⟩ => ⟨S2048x128, .f32⟩
  | .hbm, ⟨7, _⟩ => ⟨S2048x256, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 4], ![false, false]⟩

def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_8 : BitVec 32 := 0#32
  let v19 : BitVec 1 := Scalar.cmpi .ne v18 c0_i32_8
  v19

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S512x256_S256x512_1_0 : S512x256.Transposes [1, 0] S256x512
  slices_S256x512_S128x512_0_0 : S256x512.Slices ![0, 0] S128x512
  slices_S256x512_S128x512_128_0 : S256x512.Slices ![128, 0] S128x512
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  concatenates_S2048x128_S2048x128_S2048x256_d1 : Shape.Concatenates [S2048x128, S2048x128] S2048x256 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S2048x512.size a
  hwx0_0 : ∀ i : grid0.Coords, EltTy.bits .f32 = 32 ∨ (Rect.block (s := S2048x512) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x512.size a
  hwx0_1 : ∀ i : grid0.Coords, EltTy.bits .f32 = 32 ∨ (Rect.block (s := S128x512) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S2048x128.size a
  hwx0_2 : ∀ i : grid0.Coords, EltTy.bits .f32 = 32 ∨ (Rect.block (s := S2048x128) S128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x128.size a ≤ S2048x512.size a
  hwx1_0 : ∀ i : grid1.Coords, EltTy.bits .f32 = 32 ∨ (Rect.block (s := S2048x512) S128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x512.size a
  hwx1_1 : ∀ i : grid1.Coords, EltTy.bits .f32 = 32 ∨ (Rect.block (s := S128x512) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S2048x128.size a
  hwx1_2 : ∀ i : grid1.Coords, EltTy.bits .f32 = 32 ∨ (Rect.block (s := S2048x128) S128x128.size (cc1_transform_2 i) (hinb1_2 i)).WholeWords (EltTy.packing .f32)

variable [Facts₀]

abbrev win0_0 : Pipeline.Window sig grid0 :=
  Pipeline.Window.ofSpec (Memref.whole main_arg0) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S2048x512 : Shape := ⟨2, ![2048, 512]⟩
abbrev S512x256 : Shape := ⟨2, ![512, 256]⟩
abbrev S2048x512x1 : Shape := ⟨3, ![2048, 512, 1]⟩
abbrev S512x128 : Shape := ⟨2, ![512, 128]⟩
abbrev S1x512x128 : Shape := ⟨3, ![1, 512, 128]⟩
abbrev S2048x512x128 : Shape := ⟨3, ![2048, 512, 128]⟩
abbrev S_ : Shape := ⟨0, ![]⟩
abbrev S2048x128 : Shape := ⟨2, ![2048, 128]⟩
abbrev S2048x256 : Shape := ⟨2, ![2048, 256]⟩

abbrev nBuf : Space → Nat
  | .hbm => 19
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S512x256, .f32⟩
  | .hbm, ⟨2, _⟩ => ⟨S2048x512x1, .f32⟩
  | .hbm, ⟨3, _⟩ => ⟨S512x128, .f32⟩
  | .hbm, ⟨4, _⟩ => ⟨S1x512x128, .f32⟩
  | .hbm, ⟨5, _⟩ => ⟨S2048x512x128, .f32⟩
  | .hbm, ⟨6, _⟩ => ⟨S2048x512x128, .f32⟩
  | .hbm, ⟨7, _⟩ => ⟨S2048x512x128, .f32⟩
  | .hbm, ⟨8, _⟩ => ⟨S2048x512x1, .f32⟩
  | .hbm, ⟨9, _⟩ => ⟨S512x128, .f32⟩
  | .hbm, ⟨10, _⟩ => ⟨S1x512x128, .f32⟩
  | .hbm, ⟨11, _⟩ => ⟨S2048x512x128, .f32⟩
  | .hbm, ⟨12, _⟩ => ⟨S2048x512x128, .f32⟩
  | .hbm, ⟨13, _⟩ => ⟨S2048x512x128, .f32⟩
  | .hbm, ⟨14, _⟩ => ⟨S_, .f32⟩
  | .hbm, ⟨15, _⟩ => ⟨S2048x128, .f32⟩
  | .hbm, ⟨16, _⟩ => ⟨S_, .f32⟩
  | .hbm, ⟨17, _⟩ => ⟨S2048x128, .f32⟩
  | .hbm, ⟨18, _⟩ => ⟨S2048x256, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]

class Facts₀ : Prop where
  bcast_S2048x512_S2048x512x1_0_1 : S2048x512.BroadcastsInDim S2048x512x1 (![0, 1] : Fin 2 → Fin S2048x512x1.rank)
  slices_S512x256_S512x128_0_0 : S512x256.Slices ![0, 0] S512x128
  bcast_S512x128_S1x512x128_1_2 : S512x128.BroadcastsInDim S1x512x128 (![1, 2] : Fin 2 → Fin S1x512x128.rank)
  bcast_S2048x512x1_S2048x512x128_0_1_2 : S2048x512x1.BroadcastsInDim S2048x512x128 (![0, 1, 2] : Fin 3 → Fin S2048x512x128.rank)
  bcast_S1x512x128_S2048x512x128_0_1_2 : S1x512x128.BroadcastsInDim S2048x512x128 (![0, 1, 2] : Fin 3 → Fin S2048x512x128.rank)
  slices_S512x256_S512x128_0_128 : S512x256.Slices ![0, 128] S512x128
  reducesTo_S2048x512x128_S2048x128_d1 : S2048x512x128.ReducesTo [1] S2048x128
  h_S_ : 0 < S_.numel
  concatenates_S2048x128_S2048x128_S2048x256_d1 : Shape.Concatenates [S2048x128, S2048x128] S2048x256 1

variable [Facts₀]

class Facts : Prop extends Facts₀ where

variable [Facts]
-- ==== Proof.Kernel.Shared0.lean ====
/-
  Region 0 (the max half's pallas_call), what its three control cases share.

  The grid is 16 row tiles by 4 feature tiles, walked row-major, so point t works on row tile t / 4 and feature tile
  t % 4. The body resets its accumulator when the feature tile is 0, always joins the tile's extremum into it, and copies
  it into the output block when the feature tile is 3. Hence three cases by t % 4: 0 (reset, no output), 1 or 2
  (neither), 3 (output). The output window is idle, and not written back, exactly at the points of the first two.

  Everything is stated at a parameter V, the contents of the core's buffers when the region is entered.
-/
import proofs.«157227_j70145405878420_1_alg».proof.Proof.Gen.Kernel.Launch
import proofs.«157227_j70145405878420_1_alg».proof.Proof.Gen.Kernel.Skeleton
import proofs.«157227_j70145405878420_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the point's x block, fetched there or not. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- The w window's staging buffer holds the point's block of the transposed w, fetched there or not. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-! ## The body's two conditions, decided over the grid -/

/-- "The feature tile is the first": the reset's condition. -/
abbrev condR0_0 (i : grid0.Coords) : Prop := (Scalar.cmpi .ne (Scalar.extui (Scalar.cmpi .eq (BitVec.ofNat 32 (i 1).val) 0#32)) 0#32) = 1#1
theorem hcondR0_0 : ∀ t : Fin cfg0.N, condR0_0 (grid0.coords t) ↔ t.val % 4 = 0 :=
  (by decide +kernel : ∀ t : Fin grid0.N, condR0_0 (grid0.coords t) ↔ t.val % 4 = 0)

/-- "The feature tile is the last": the output store's condition. -/
abbrev condR0_1 (i : grid0.Coords) : Prop := k0_cond2 i = 1#1
theorem hcondR0_1 : ∀ t : Fin cfg0.N, condR0_1 (grid0.coords t) ↔ t.val % 4 = 3 :=
  (by decide +kernel : ∀ t : Fin grid0.N, condR0_1 (grid0.coords t) ↔ t.val % 4 = 3)

/-! ## Where the windows are idle -/

theorem liveAtR0_0 : ∀ t : Fin cfg0.N, cfg0.idle 0 (grid0.coords t) = false := by decide +kernel
theorem liveAtR0_1 : ∀ t : Fin cfg0.N, cfg0.idle 1 (grid0.coords t) = false := by decide +kernel
theorem idleAtR0_2_A : ∀ t : Fin cfg0.N, condR0_0 (grid0.coords t) → ¬condR0_1 (grid0.coords t) → cfg0.idle 2 (grid0.coords t) = true := by decide +kernel
theorem noFlushR0_2_A : ∀ t : Fin cfg0.N, condR0_0 (grid0.coords t) → ¬condR0_1 (grid0.coords t) → (cfg0.win 2).flush t = false := by decide +kernel
theorem idleAtR0_2_B : ∀ t : Fin cfg0.N, ¬condR0_0 (grid0.coords t) → ¬condR0_1 (grid0.coords t) → cfg0.idle 2 (grid0.coords t) = true := by decide +kernel
theorem noFlushR0_2_B : ∀ t : Fin cfg0.N, ¬condR0_0 (grid0.coords t) → ¬condR0_1 (grid0.coords t) → (cfg0.win 2).flush t = false := by decide +kernel
theorem liveAtR0_2_C : ∀ t : Fin cfg0.N, ¬condR0_0 (grid0.coords t) → condR0_1 (grid0.coords t) → cfg0.idle 2 (grid0.coords t) = false := by decide +kernel

/-! ## The memrefs the body is called with -/

/-- One staging buffer of the output window, through which its contents are stated. -/
abbrev VOR0_2 : View sig .tc .vmem S128x128 .f32 := (Memref.whole cc0_stg2_0 : Memref sig .tc .vmem S128x128 .f32).view
abbrev msR0_0 (t : Fin cfg0.N) : Memref sig .tc .vmem S128x128 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S128x128 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S128x128 .f32 := win0_2.stage (cfg0.slots t 2)
abbrev hsR0_2 (t : Fin cfg0.N) : (msR0_2 t).IsWhole := hstage0_2 ((cfg0.slots t 2).cast nbuf0_2)
/-- The accumulator: a whole scoped buffer of the kernel's own. -/
abbrev scMR0_0 : Memref sig .tc .vmem S128x128 .f32 := Memref.whole cc0_scratch0
abbrev VSR0_0 : View sig .tc .vmem S128x128 .f32 := scMR0_0.view

end Cert.Kernel.Fr

end
-- ==== Proof.Kernel.Rest0.lean ====
/-
  Region 0's share of the core's scoped buffers: the accumulator it carries between points, and the buffers it never
  touches (the other region's staging buffers and accumulator), which ride along at any contents.
-/
import proofs.«157227_j70145405878420_1_alg».proof.Proof.Kernel.Shared0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers region 0 never touches, each whole at some contents. -/
def otherR0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The scoped buffers no window of region 0 stages are its accumulator and those. -/
theorem restR0_open (c : Dev nD) :
    (Pipeline.scopedRest (Ix := Unit) (Name := ℕ) (U := UR sig nD τ) (Lvl := ℕ) (Val := Elt F) spec0 c : sProp 𝕄)
      ⊢ iprop((∃ d, owns (c : Thread nD τ) scMR0_0 fullShare d) ∗ otherR0 c) := by
  rw [scopedRest0_eq]; unfold otherR0; simp only [scMR0_0, owns_whole]
  iintro ⟨HS, H1, H2, H3, H4, H5, H6, H7⟩
  isplitl [HS]; · iexact HS
  isplitl [H1]; · iexact H1
  isplitl [H2]; · iexact H2
  isplitl [H3]; · iexact H3
  isplitl [H4]; · iexact H4
  isplitl [H5]; · iexact H5
  isplitl [H6]; · iexact H6
  iexact H7

theorem restR0_close (c : Dev nD) :
    iprop((∃ d, owns (c : Thread nD τ) scMR0_0 fullShare d) ∗ otherR0 c)
      ⊢ (Pipeline.scopedRest (Ix := Unit) (Name := ℕ) (U := UR sig nD τ) (Lvl := ℕ) (Val := Elt F) spec0 c : sProp 𝕄) := by
  rw [scopedRest0_eq]; unfold otherR0; simp only [scMR0_0, owns_whole]
  iintro ⟨HS, H1, H2, H3, H4, H5, H6, H7⟩
  isplitl [HS]; · iexact HS
  isplitl [H1]; · iexact H1
  isplitl [H2]; · iexact H2
  isplitl [H3]; · iexact H3
  isplitl [H4]; · iexact H4
  isplitl [H5]; · iexact H5
  isplitl [H6]; · iexact H6
  iexact H7

end Cert.Kernel.Fr

end
-- ==== Proof.Kernel.Run0A.lean ====
/-
  Region 0's body run through once, in the case "first feature tile": the accumulator, at anything, is reset and then joined with the
  tile's extremum; the output block is left as found.
  The pieces each buffer ends with are found by the run and kept as its witness.
-/
import proofs.«157227_j70145405878420_1_alg».proof.Proof.Kernel.Shared0

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR0_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 : Vec F S128x128 .f32) (x1 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Kernel.Run0B.lean ====
/-
  Region 0's body run through once, in the case "a middle feature tile": the accumulator, at what the point before left, is joined with
  the tile's extremum; the output block is left as found.
  The pieces each buffer ends with are found by the run and kept as its witness.
-/
import proofs.«157227_j70145405878420_1_alg».proof.Proof.Kernel.Run0A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR0_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 : Vec F S128x128 .f32) (x1 : Vec F S128x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Kernel.Run0C.lean ====
/-
  Region 0's body run through once, in the case "last feature tile": the accumulator, at what the point before left, is joined with the
  tile's extremum and then copied into the output block, which is found at anything.
  The pieces each buffer ends with are found by the run and kept as its witness.
-/
import proofs.«157227_j70145405878420_1_alg».proof.Proof.Kernel.Run0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR0_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.Kernel.Region0.lean ====
/-
  Region 0 as a pipeline with its proof data: what each case of the body leaves in the output block and in the
  accumulator, the contents of both after every grid point (by recursion on the point: a point that is not a first
  feature tile starts from what the point before left in the accumulator), the region's invariant (the accumulator at
  those contents, the untouched scoped buffers, the generator register), and the body's obligation at every point.
-/
import proofs.«157227_j70145405878420_1_alg».proof.Proof.Kernel.Rest0
import proofs.«157227_j70145405878420_1_alg».proof.Proof.Kernel.Run0C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First feature tile: the output block is not stored into (a placeholder nothing reads). -/
def outR0_A_2 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 : Vec F S128x128 .f32) (x1 : Vec F S128x128 .f32) : Vec F S128x128 .f32 :=
  VOR0_2.read (Elt F) (VOR0_2.writes (Elt F) VOR0_2.junk (kernelRunR0_A c i arg2 harg2 arg3 harg3 arg4 harg4 arg5 harg5 hc0 hc1 x0 x1).1)

/-- First feature tile: the stores into the accumulator cover it. -/
theorem scoverR0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 : Vec F S128x128 .f32) (x1 : Vec F S128x128 .f32) (y : S128x128.Idx) :
    ∃ pc ∈ (kernelRunR0_A c i arg2 harg2 arg3 harg3 arg4 harg4 arg5 harg5 hc0 hc1 x0 x1).2.1, y ∈ pc.1.set :=
  View.cover_of_tiledL (kernelRunR0_A c i arg2 harg2 arg3 harg3 arg4 harg4 arg5 harg5 hc0 hc1 x0 x1).2.1 S128x128.size (by sl_kernel_rfl) y

/-- First feature tile: what the accumulator holds afterwards. -/
def soutR0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 : Vec F S128x128 .f32) (x1 : Vec F S128x128 .f32) : Vec F S128x128 .f32 :=
  VSR0_0.read (Elt F) (VSR0_0.writes (Elt F) VSR0_0.junk (kernelRunR0_A c i arg2 harg2 arg3 harg3 arg4 harg4 arg5 harg5 hc0 hc1 x0 x1).2.1)

/-- A middle feature tile: the output block is not stored into (a placeholder nothing reads). -/
def outR0_B_2 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 : Vec F S128x128 .f32) (x1 : Vec F S128x128 .f32) (xs0 : Vec F S128x128 .f32) : Vec F S128x128 .f32 :=
  VOR0_2.read (Elt F) (VOR0_2.writes (Elt F) VOR0_2.junk (kernelRunR0_B c i arg2 harg2 arg3 harg3 arg4 harg4 arg5 harg5 hc0 hc1 x0 x1 xs0).1)

theorem scoverR0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 : Vec F S128x128 .f32) (x1 : Vec F S128x128 .f32) (xs0 : Vec F S128x128 .f32) (y : S128x128.Idx) :
    ∃ pc ∈ (kernelRunR0_B c i arg2 harg2 arg3 harg3 arg4 harg4 arg5 harg5 hc0 hc1 x0 x1 xs0).2.1, y ∈ pc.1.set :=
  View.cover_of_tiledL (kernelRunR0_B c i arg2 harg2 arg3 harg3 arg4 harg4 arg5 harg5 hc0 hc1 x0 x1 xs0).2.1 S128x128.size (by sl_kernel_rfl) y

/-- A middle feature tile: what the accumulator holds afterwards, from what it held before (xs0). -/
def soutR0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 : Vec F S128x128 .f32) (x1 : Vec F S128x128 .f32) (xs0 : Vec F S128x128 .f32) : Vec F S128x128 .f32 :=
  VSR0_0.read (Elt F) (VSR0_0.writes (Elt F) VSR0_0.junk (kernelRunR0_B c i arg2 harg2 arg3 harg3 arg4 harg4 arg5 harg5 hc0 hc1 x0 x1 xs0).2.1)

/-- Last feature tile: the one store into the output block covers it. -/
theorem coverR0_C_2 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) (y : S128x128.Idx) :
    ∃ pc ∈ (kernelRunR0_C c i arg2 harg2 arg3 harg3 arg4 harg4 arg5 harg5 hc0 hc1 x0 x1 xs0).1, y ∈ pc.1.set :=
  View.cover_of_tiledL (kernelRunR0_C c i arg2 harg2 arg3 harg3 arg4 harg4 arg5 harg5 hc0 hc1 x0 x1 xs0).1 S128x128.size (by sl_kernel_rfl) y

/-- Last feature tile: what the output block holds afterwards. -/
def outR0_C_2 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) : Vec F S128x128 .f32 :=
  VOR0_2.read (Elt F) (VOR0_2.writes (Elt F) VOR0_2.junk (kernelRunR0_C c i arg2 harg2 arg3 harg3 arg4 harg4 arg5 harg5 hc0 hc1 x0 x1 xs0).1)

theorem scoverR0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) (y : S128x128.Idx) :
    ∃ pc ∈ (kernelRunR0_C c i arg2 harg2 arg3 harg3 arg4 harg4 arg5 harg5 hc0 hc1 x0 x1 xs0).2.1, y ∈ pc.1.set :=
  View.cover_of_tiledL (kernelRunR0_C c i arg2 harg2 arg3 harg3 arg4 harg4 arg5 harg5 hc0 hc1 x0 x1 xs0).2.1 S128x128.size (by sl_kernel_rfl) y

/-- Last feature tile: what the accumulator holds afterwards. -/
def soutR0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) : Vec F S128x128 .f32 :=
  VSR0_0.read (Elt F) (VSR0_0.writes (Elt F) VSR0_0.junk (kernelRunR0_C c i arg2 harg2 arg3 harg3 arg4 harg4 arg5 harg5 hc0 hc1 x0 x1 xs0).2.1)

/-! ## The contents after each point -/

/-- The output block (first component) and the accumulator (second) after the body at position n. -/
def outsAtR0 (c : Dev nD) : (n : ℕ) → n < cfg0.N → Vec F S128x128 .f32 × Vec F S128x128 .f32
  | 0, hn => (outR0_A_2 c (grid0.coords ⟨0, hn⟩) (msR0_0 ⟨0, hn⟩) (hsR0_0 ⟨0, hn⟩) (msR0_1 ⟨0, hn⟩) (hsR0_1 ⟨0, hn⟩) (msR0_2 ⟨0, hn⟩) (hsR0_2 ⟨0, hn⟩) scMR0_0 (Memref.isWhole_whole _) ((hcondR0_0 ⟨0, hn⟩).mpr (Nat.zero_mod _)) (fun h => (fun h => by (try dsimp only at h); omega) ((hcondR0_1 ⟨0, hn⟩).mp h)) (iblkR0 V c 0 ⟨0, hn⟩) (iblkR0 V c 1 ⟨0, hn⟩), soutR0_A_0 c (grid0.coords ⟨0, hn⟩) (msR0_0 ⟨0, hn⟩) (hsR0_0 ⟨0, hn⟩) (msR0_1 ⟨0, hn⟩) (hsR0_1 ⟨0, hn⟩) (msR0_2 ⟨0, hn⟩) (hsR0_2 ⟨0, hn⟩) scMR0_0 (Memref.isWhole_whole _) ((hcondR0_0 ⟨0, hn⟩).mpr (Nat.zero_mod _)) (fun h => (fun h => by (try dsimp only at h); omega) ((hcondR0_1 ⟨0, hn⟩).mp h)) (iblkR0 V c 0 ⟨0, hn⟩) (iblkR0 V c 1 ⟨0, hn⟩))
  | n + 1, hn =>
    if h0 : (n + 1) % 4 = 0 then
      if h1 : (n + 1) % 4 = 3 then
        False.elim (by omega)
      else
        (outR0_A_2 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) ((hcondR0_0 ⟨n + 1, hn⟩).mpr h0) (fun h => h1 ((hcondR0_1 ⟨n + 1, hn⟩).mp h)) (iblkR0 V c 0 ⟨n + 1, hn⟩) (iblkR0 V c 1 ⟨n + 1, hn⟩), soutR0_A_0 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) ((hcondR0_0 ⟨n + 1, hn⟩).mpr h0) (fun h => h1 ((hcondR0_1 ⟨n + 1, hn⟩).mp h)) (iblkR0 V c 0 ⟨n + 1, hn⟩) (iblkR0 V c 1 ⟨n + 1, hn⟩))
    else
      if h1 : (n + 1) % 4 = 3 then
        (outR0_C_2 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) (fun h => h0 ((hcondR0_0 ⟨n + 1, hn⟩).mp h)) ((hcondR0_1 ⟨n + 1, hn⟩).mpr h1) (iblkR0 V c 0 ⟨n + 1, hn⟩) (iblkR0 V c 1 ⟨n + 1, hn⟩) (outsAtR0 c n (Nat.lt_of_succ_lt hn)).2, soutR0_C_0 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) (fun h => h0 ((hcondR0_0 ⟨n + 1, hn⟩).mp h)) ((hcondR0_1 ⟨n + 1, hn⟩).mpr h1) (iblkR0 V c 0 ⟨n + 1, hn⟩) (iblkR0 V c 1 ⟨n + 1, hn⟩) (outsAtR0 c n (Nat.lt_of_succ_lt hn)).2)
      else
        (outR0_B_2 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) (fun h => h0 ((hcondR0_0 ⟨n + 1, hn⟩).mp h)) (fun h => h1 ((hcondR0_1 ⟨n + 1, hn⟩).mp h)) (iblkR0 V c 0 ⟨n + 1, hn⟩) (iblkR0 V c 1 ⟨n + 1, hn⟩) (outsAtR0 c n (Nat.lt_of_succ_lt hn)).2, soutR0_B_0 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) (fun h => h0 ((hcondR0_0 ⟨n + 1, hn⟩).mp h)) (fun h => h1 ((hcondR0_1 ⟨n + 1, hn⟩).mp h)) (iblkR0 V c 0 ⟨n + 1, hn⟩) (iblkR0 V c 1 ⟨n + 1, hn⟩) (outsAtR0 c n (Nat.lt_of_succ_lt hn)).2)

theorem outsAtR0_A (c : Dev nD) (t : Fin cfg0.N) (h0 : t.val % 4 = 0) (h1 : ¬t.val % 4 = 3) :
    outsAtR0 V c t.val t.isLt = (outR0_A_2 c (grid0.coords t) (msR0_0 t) (hsR0_0 t) (msR0_1 t) (hsR0_1 t) (msR0_2 t) (hsR0_2 t) scMR0_0 (Memref.isWhole_whole _) ((hcondR0_0 t).mpr h0) (fun h => h1 ((hcondR0_1 t).mp h)) (iblkR0 V c 0 t) (iblkR0 V c 1 t), soutR0_A_0 c (grid0.coords t) (msR0_0 t) (hsR0_0 t) (msR0_1 t) (hsR0_1 t) (msR0_2 t) (hsR0_2 t) scMR0_0 (Memref.isWhole_whole _) ((hcondR0_0 t).mpr h0) (fun h => h1 ((hcondR0_1 t).mp h)) (iblkR0 V c 0 t) (iblkR0 V c 1 t)) := by
  obtain ⟨n, hn⟩ := t
  cases n with
  | zero => exact rfl
  | succ n => exact (dif_pos h0).trans ((dif_neg h1).trans rfl)

theorem outsAtR0_B (c : Dev nD) (t : Fin cfg0.N) (h0 : ¬t.val % 4 = 0) (h1 : ¬t.val % 4 = 3) :
    outsAtR0 V c t.val t.isLt = (outR0_B_2 c (grid0.coords t) (msR0_0 t) (hsR0_0 t) (msR0_1 t) (hsR0_1 t) (msR0_2 t) (hsR0_2 t) scMR0_0 (Memref.isWhole_whole _) (fun h => h0 ((hcondR0_0 t).mp h)) (fun h => h1 ((hcondR0_1 t).mp h)) (iblkR0 V c 0 t) (iblkR0 V c 1 t) (outsAtR0 V c (t.val - 1) (Nat.lt_of_le_of_lt (Nat.sub_le _ _) t.isLt)).2, soutR0_B_0 c (grid0.coords t) (msR0_0 t) (hsR0_0 t) (msR0_1 t) (hsR0_1 t) (msR0_2 t) (hsR0_2 t) scMR0_0 (Memref.isWhole_whole _) (fun h => h0 ((hcondR0_0 t).mp h)) (fun h => h1 ((hcondR0_1 t).mp h)) (iblkR0 V c 0 t) (iblkR0 V c 1 t) (outsAtR0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAtR0_C (c : Dev nD) (t : Fin cfg0.N) (h0 : ¬t.val % 4 = 0) (h1 : t.val % 4 = 3) :
    outsAtR0 V c t.val t.isLt = (outR0_C_2 c (grid0.coords t) (msR0_0 t) (hsR0_0 t) (msR0_1 t) (hsR0_1 t) (msR0_2 t) (hsR0_2 t) scMR0_0 (Memref.isWhole_whole _) (fun h => h0 ((hcondR0_0 t).mp h)) ((hcondR0_1 t).mpr h1) (iblkR0 V c 0 t) (iblkR0 V c 1 t) (outsAtR0 V c (t.val - 1) (Nat.lt_of_le_of_lt (Nat.sub_le _ _) t.isLt)).2, soutR0_C_0 c (grid0.coords t) (msR0_0 t) (hsR0_0 t) (msR0_1 t) (hsR0_1 t) (msR0_2 t) (hsR0_2 t) scMR0_0 (Memref.isWhole_whole _) (fun h => h0 ((hcondR0_0 t).mp h)) ((hcondR0_1 t).mpr h1) (iblkR0 V c 0 t) (iblkR0 V c 1 t) (outsAtR0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: the accumulator at what the point before left (at anything before the first point), the scoped
    buffers the region never touches, the generator register at some state. -/
def PhiSR0 (c : Dev nD) : (n : ℕ) → n ≤ cfg0.N → sProp 𝕄
  | 0, _ => iprop(iprop((∃ d, owns (c : Thread nD τ) scMR0_0 fullShare d) ∗ otherR0 c) ∗ (∃ r, prngReg c r))
  | n + 1, hn => iprop(iprop(owns (c : Thread nD τ) scMR0_0 fullShare ((outsAtR0 V c n hn).2) ∗ otherR0 c) ∗ (∃ r, prngReg c r))

theorem PhiSR0_zero (c : Dev nD) (n : ℕ) (h : n ≤ cfg0.N) (hz : n = 0) :
    PhiSR0 V c n h = iprop(iprop((∃ d, owns (c : Thread nD τ) scMR0_0 fullShare d) ∗ otherR0 c) ∗ (∃ r, prngReg c r)) := by
  subst hz; rfl

theorem PhiSR0_succ (c : Dev nD) (n : ℕ) (hn : n < cfg0.N) :
    PhiSR0 V c (n + 1) hn = iprop(iprop(owns (c : Thread nD τ) scMR0_0 fullShare ((outsAtR0 V c n hn).2) ∗ otherR0 c) ∗ (∃ r, prngReg c r)) := rfl

theorem PhiSR0_pos (c : Dev nD) (n : ℕ) (h : n ≤ cfg0.N) (hz : n ≠ 0) :
    PhiSR0 V c n h = iprop(iprop(owns (c : Thread nD τ) scMR0_0 fullShare ((outsAtR0 V c (n - 1) (by omega)).2) ∗ otherR0 c) ∗ (∃ r, prngReg c r)) := by
  cases n with
  | zero => exact absurd rfl hz
  | succ n => rfl

/-! ## The proof data -/

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = (outsAtR0 V c t.val t.isLt).1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

set_option maxHeartbeats 4800000 in
/-- The body at any point: the closed forms say which case the point is in; the invariant hands the run the accumulator
    at what the point before left (at anything at the first point) and takes it back at this point's contents. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1]
  rw [show (datR0 V c).owesAt () t.succ = (datR0 V c).owesAt () t.castSucc from rfl]
  rw [show (datR0 V c).Φ t.succ = PhiSR0 V c (t.val + 1) t.isLt from rfl, PhiSR0_succ]
  have hN : t.val < 64 := lt_of_lt_of_eq t.isLt (show cfg0.N = 64 from N_0)
  rw [show (datR0 V c).leavesExact 0 t = owns (c : Thread nD τ) (msR0_0 t) fullShare ((datR0 V c).after 0 t) from by
    unfold Dat.leavesExact; rw [liveAtR0_0 t], afterR0_0]
  rw [show (datR0 V c).leavesExact 1 t = owns (c : Thread nD τ) (msR0_1 t) fullShare ((datR0 V c).after 1 t) from by
    unfold Dat.leavesExact; rw [liveAtR0_1 t], afterR0_1]
  by_cases h0 : t.val % 4 = 0
  · by_cases h1 : t.val % 4 = 3
    · exfalso; omega
    · rw [Dat.leavesExact_idle (datR0 V c) 2 t (idleAtR0_2_A t ((hcondR0_0 t).mpr h0) (fun h => h1 ((hcondR0_1 t).mp h))) (noFlushR0_2_A t ((hcondR0_0 t).mpr h0) (fun h => h1 ((hcondR0_1 t).mp h)))]
      rw [outsAtR0_A V c t h0 h1]
      unfold soutR0_A_0; (try dsimp only)
      by_cases hz : t.val = 0
      · rw [PhiSR0_castSucc V c t, PhiSR0_zero V c _ _ hz]
        iintro ⟨⟨⟨HS0, Hoth⟩, Hg⟩, Ho, ⟨%d0, H0⟩, ⟨%d1, H1⟩, ⟨%d2, H2⟩⟩
        iapply ((kernelRunR0_A c (grid0.coords t) _ _ _ _ _ _ _ _ ((hcondR0_0 t).mpr h0) (fun h => h1 ((hcondR0_1 t).mp h)) (iblkR0 V c 0 t) (iblkR0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverR0_A_0 c _ _ _ _ _ _ _ _ _ _ _ _ _)
            iexact Hoth
          iexact Hg
        isplitl [Ho]; · iexact Ho
        isplitl [H0]; · iexact H0
        isplitl [H1]; · iexact H1
        iexists _; iexact H2
      · rw [PhiSR0_castSucc V c t, PhiSR0_pos V c _ _ hz]
        iintro ⟨⟨⟨HS0, Hoth⟩, Hg⟩, Ho, ⟨%d0, H0⟩, ⟨%d1, H1⟩, ⟨%d2, H2⟩⟩
        iapply ((kernelRunR0_A c (grid0.coords t) _ _ _ _ _ _ _ _ ((hcondR0_0 t).mpr h0) (fun h => h1 ((hcondR0_1 t).mp h)) (iblkR0 V c 0 t) (iblkR0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverR0_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (datR0 V c).leavesExact 2 t = owns (c : Thread nD τ) (msR0_2 t) fullShare ((datR0 V c).after 2 t) from by
        unfold Dat.leavesExact; rw [liveAtR0_2_C t (fun h => h0 ((hcondR0_0 t).mp h)) ((hcondR0_1 t).mpr h1)], afterR0_2]
      rw [outsAtR0_C V c t h0 h1]
      unfold outR0_C_2 soutR0_C_0; (try dsimp only)
      rw [PhiSR0_castSucc V c t, PhiSR0_pos V c _ _ hz]
      iintro ⟨⟨⟨HS0, Hoth⟩, Hg⟩, Ho, ⟨%d0, H0⟩, ⟨%d1, H1⟩, ⟨%d2, H2⟩⟩
      iapply ((kernelRunR0_C c (grid0.coords t) _ _ _ _ _ _ _ _ (fun h => h0 ((hcondR0_0 t).mp h)) ((hcondR0_1 t).mpr h1) (iblkR0 V c 0 t) (iblkR0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverR0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverR0_C_2 c _ _ _ _ _ _ _ _ _ _ _ _ _ _)
    · rw [Dat.leavesExact_idle (datR0 V c) 2 t (idleAtR0_2_B t (fun h => h0 ((hcondR0_0 t).mp h)) (fun h => h1 ((hcondR0_1 t).mp h))) (noFlushR0_2_B t (fun h => h0 ((hcondR0_0 t).mp h)) (fun h => h1 ((hcondR0_1 t).mp h)))]
      rw [outsAtR0_B V c t h0 h1]
      unfold soutR0_B_0; (try dsimp only)
      rw [PhiSR0_castSucc V c t, PhiSR0_pos V c _ _ hz]
      iintro ⟨⟨⟨HS0, Hoth⟩, Hg⟩, Ho, ⟨%d0, H0⟩, ⟨%d1, H1⟩, ⟨%d2, H2⟩⟩
      iapply ((kernelRunR0_B c (grid0.coords t) _ _ _ _ _ _ _ _ (fun h => h0 ((hcondR0_0 t).mp h)) (fun h => h1 ((hcondR0_1 t).mp h)) (iblkR0 V c 0 t) (iblkR0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverR0_B_0 c _ _ _ _ _ _ _ _ _ _ _ _ _ _)
          iexact Hoth
        iexact Hg
      isplitl [Ho]; · iexact Ho
      isplitl [H0]; · iexact H0
      isplitl [H1]; · iexact H1
      iexists _; iexact H2

theorem body_obligationR0 (c : Dev nD) : BodyObligation (datR0 (F := F) V c) (defs₀ (F := F)) Variants.none () Set.univ := fun t => by
  rw [bigSep_W0, bigSep_W0]
  exact sound_bodyR0 V c t

/-! ## Into the invariant and out of it -/

/-- What the region's entry hands over (the generator register, the scoped buffers no window stages) is the invariant
    before the first point. -/
theorem PhiR0_in (c : Dev nD) :
    iprop((∃ r, prngReg c r) ∗ (Pipeline.scopedRest (Ix := Unit) (Name := ℕ) (U := UR sig nD τ) (Lvl := ℕ) (Val := Elt F) spec0 c : sProp 𝕄))
      ⊢ (datR0 V c).Φ 0 := by
  rw [show (datR0 V c).Φ 0 = PhiSR0 V c 0 (Nat.zero_le _) from rfl, PhiSR0_zero V c 0 _ rfl]
  iintro ⟨Hp, Hr⟩
  ihave Hr' := (restR0_open c) $$ Hr
  isplitl [Hr']; · iexact Hr'
  iexact Hp

/-- After the last point the invariant gives them back: the accumulator's contents are forgotten. -/
theorem PhiR0_out (c : Dev nD) :
    (datR0 V c).Φ (Fin.last cfg0.N)
      ⊢ iprop((∃ r, prngReg c r) ∗ (Pipeline.scopedRest (Ix := Unit) (Name := ℕ) (U := UR sig nD τ) (Lvl := ℕ) (Val := Elt F) spec0 c : sProp 𝕄)) := by
  rw [show (datR0 V c).Φ (Fin.last cfg0.N) = PhiSR0 V c (Fin.last cfg0.N).val (Nat.le_of_lt_succ (Fin.last cfg0.N).isLt) from rfl,
    PhiSR0_pos V c _ _ (by rw [Fin.val_last]; have : cfg0.N = 64 := N_0; omega)]
  iintro ⟨⟨HS0, Hoth⟩, Hg⟩
  isplitl [Hg]; · iexact Hg
  iapply (restR0_close c)
  isplitl [HS0]; · iexists _; iexact HS0
  iexact Hoth

end Cert.Kernel.Fr

end
-- ==== Proof.Kernel.Shared1.lean ====
/-
  Region 1 (the min half's pallas_call), what its three control cases share.

  The grid is 16 row tiles by 4 feature tiles, walked row-major, so point t works on row tile t / 4 and feature tile
  t % 4. The body resets its accumulator when the feature tile is 0, always joins the tile's extremum into it, and copies
  it into the output block when the feature tile is 3. Hence three cases by t % 4: 0 (reset, no output), 1 or 2
  (neither), 3 (output). The output window is idle, and not written back, exactly at the points of the first two.

  Everything is stated at a parameter V, the contents of the core's buffers when the region is entered.
-/
import proofs.«157227_j70145405878420_1_alg».proof.Proof.Gen.Kernel.Launch
import proofs.«157227_j70145405878420_1_alg».proof.Proof.Gen.Kernel.Skeleton
import proofs.«157227_j70145405878420_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds the point's x block, fetched there or not. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- The w window's staging buffer holds the point's block of the transposed w, fetched there or not. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-! ## The body's two conditions, decided over the grid -/

/-- "The feature tile is the first": the reset's condition. -/
abbrev condR1_0 (i : grid1.Coords) : Prop := (Scalar.cmpi .ne (Scalar.extui (Scalar.cmpi .eq (BitVec.ofNat 32 (i 1).val) 0#32)) 0#32) = 1#1
theorem hcondR1_0 : ∀ t : Fin cfg1.N, condR1_0 (grid1.coords t) ↔ t.val % 4 = 0 :=
  (by decide +kernel : ∀ t : Fin grid1.N, condR1_0 (grid1.coords t) ↔ t.val % 4 = 0)

/-- "The feature tile is the last": the output store's condition. -/
abbrev condR1_1 (i : grid1.Coords) : Prop := k1_cond2 i = 1#1
theorem hcondR1_1 : ∀ t : Fin cfg1.N, condR1_1 (grid1.coords t) ↔ t.val % 4 = 3 :=
  (by decide +kernel : ∀ t : Fin grid1.N, condR1_1 (grid1.coords t) ↔ t.val % 4 = 3)

/-! ## Where the windows are idle -/

theorem liveAtR1_0 : ∀ t : Fin cfg1.N, cfg1.idle 0 (grid1.coords t) = false := by decide +kernel
theorem liveAtR1_1 : ∀ t : Fin cfg1.N, cfg1.idle 1 (grid1.coords t) = false := by decide +kernel
theorem idleAtR1_2_A : ∀ t : Fin cfg1.N, condR1_0 (grid1.coords t) → ¬condR1_1 (grid1.coords t) → cfg1.idle 2 (grid1.coords t) = true := by decide +kernel
theorem noFlushR1_2_A : ∀ t : Fin cfg1.N, condR1_0 (grid1.coords t) → ¬condR1_1 (grid1.coords t) → (cfg1.win 2).flush t = false := by decide +kernel
theorem idleAtR1_2_B : ∀ t : Fin cfg1.N, ¬condR1_0 (grid1.coords t) → ¬condR1_1 (grid1.coords t) → cfg1.idle 2 (grid1.coords t) = true := by decide +kernel
theorem noFlushR1_2_B : ∀ t : Fin cfg1.N, ¬condR1_0 (grid1.coords t) → ¬condR1_1 (grid1.coords t) → (cfg1.win 2).flush t = false := by decide +kernel
theorem liveAtR1_2_C : ∀ t : Fin cfg1.N, ¬condR1_0 (grid1.coords t) → condR1_1 (grid1.coords t) → cfg1.idle 2 (grid1.coords t) = false := by decide +kernel

/-! ## The memrefs the body is called with -/

/-- One staging buffer of the output window, through which its contents are stated. -/
abbrev VOR1_2 : View sig .tc .vmem S128x128 .f32 := (Memref.whole cc1_stg2_0 : Memref sig .tc .vmem S128x128 .f32).view
abbrev msR1_0 (t : Fin cfg1.N) : Memref sig .tc .vmem S128x128 .f32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S128x128 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S128x128 .f32 := win1_2.stage (cfg1.slots t 2)
abbrev hsR1_2 (t : Fin cfg1.N) : (msR1_2 t).IsWhole := hstage1_2 ((cfg1.slots t 2).cast nbuf1_2)
/-- The accumulator: a whole scoped buffer of the kernel's own. -/
abbrev scMR1_0 : Memref sig .tc .vmem S128x128 .f32 := Memref.whole cc1_scratch0
abbrev VSR1_0 : View sig .tc .vmem S128x128 .f32 := scMR1_0.view

end Cert.Kernel.Fr

end
-- ==== Proof.Kernel.Rest1.lean ====
/-
  Region 1's share of the core's scoped buffers: the accumulator it carries between points, and the buffers it never
  touches (the other region's staging buffers and accumulator), which ride along at any contents.
-/
import proofs.«157227_j70145405878420_1_alg».proof.Proof.Kernel.Shared1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers region 1 never touches, each whole at some contents. -/
def otherR1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The scoped buffers no window of region 1 stages are those and its accumulator. -/
theorem restR1_open (c : Dev nD) :
    (Pipeline.scopedRest (Ix := Unit) (Name := ℕ) (U := UR sig nD τ) (Lvl := ℕ) (Val := Elt F) spec1 c : sProp 𝕄)
      ⊢ iprop((∃ d, owns (c : Thread nD τ) scMR1_0 fullShare d) ∗ otherR1 c) := by
  rw [scopedRest1_eq]; unfold otherR1; simp only [scMR1_0, owns_whole]
  iintro ⟨H1, H2, H3, H4, H5, H6, H7, HS⟩
  isplitl [HS]; · iexact HS
  isplitl [H1]; · iexact H1
  isplitl [H2]; · iexact H2
  isplitl [H3]; · iexact H3
  isplitl [H4]; · iexact H4
  isplitl [H5]; · iexact H5
  isplitl [H6]; · iexact H6
  iexact H7

theorem restR1_close (c : Dev nD) :
    iprop((∃ d, owns (c : Thread nD τ) scMR1_0 fullShare d) ∗ otherR1 c)
      ⊢ (Pipeline.scopedRest (Ix := Unit) (Name := ℕ) (U := UR sig nD τ) (Lvl := ℕ) (Val := Elt F) spec1 c : sProp 𝕄) := by
  rw [scopedRest1_eq]; unfold otherR1; simp only [scMR1_0, owns_whole]
  iintro ⟨HS, H1, H2, H3, H4, H5, H6, H7⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

end Cert.Kernel.Fr

end
-- ==== Proof.Kernel.Run1A.lean ====
/-
  Region 1's body run through once, in the case "first feature tile": the accumulator, at anything, is reset and then joined with the
  tile's extremum; the output block is left as found.
  The pieces each buffer ends with are found by the run and kept as its witness.
-/
import proofs.«157227_j70145405878420_1_alg».proof.Proof.Kernel.Shared1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 : Vec F S128x128 .f32) (x1 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pool_kernel i arg2 harg2 arg3 harg3 arg4 harg4 arg5 harg5) K } := by
  refine ⟨[], ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Kernel.Run1B.lean ====
/-
  Region 1's body run through once, in the case "a middle feature tile": the accumulator, at what the point before left, is joined with
  the tile's extremum; the output block is left as found.
  The pieces each buffer ends with are found by the run and kept as its witness.
-/
import proofs.«157227_j70145405878420_1_alg».proof.Proof.Kernel.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 : Vec F S128x128 .f32) (x1 : Vec F S128x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pool_kernel i arg2 harg2 arg3 harg3 arg4 harg4 arg5 harg5) K } := by
  refine ⟨[], ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Fr

end
-- ==== Proof.Kernel.Run1C.lean ====
/-
  Region 1's body run through once, in the case "last feature tile": the accumulator, at what the point before left, is joined with the
  tile's extremum and then copied into the output block, which is found at anything.
  The pieces each buffer ends with are found by the run and kept as its witness.
-/
import proofs.«157227_j70145405878420_1_alg».proof.Proof.Kernel.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pool_kernel i arg2 harg2 arg3 harg3 arg4 harg4 arg5 harg5) K } := by
  refine ⟨?_, ?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Fr

end
-- ==== Proof.Kernel.Region1.lean ====
/-
  Region 1 as a pipeline with its proof data: what each case of the body leaves in the output block and in the
  accumulator, the contents of both after every grid point (by recursion on the point: a point that is not a first
  feature tile starts from what the point before left in the accumulator), the region's invariant (the accumulator at
  those contents, the untouched scoped buffers, the generator register), and the body's obligation at every point.
-/
import proofs.«157227_j70145405878420_1_alg».proof.Proof.Kernel.Rest1
import proofs.«157227_j70145405878420_1_alg».proof.Proof.Kernel.Run1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First feature tile: the output block is not stored into (a placeholder nothing reads). -/
def outR1_A_2 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 : Vec F S128x128 .f32) (x1 : Vec F S128x128 .f32) : Vec F S128x128 .f32 :=
  VOR1_2.read (Elt F) (VOR1_2.writes (Elt F) VOR1_2.junk (kernelRunR1_A c i arg2 harg2 arg3 harg3 arg4 harg4 arg5 harg5 hc0 hc1 x0 x1).1)

/-- First feature tile: the stores into the accumulator cover it. -/
theorem scoverR1_A_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 : Vec F S128x128 .f32) (x1 : Vec F S128x128 .f32) (y : S128x128.Idx) :
    ∃ pc ∈ (kernelRunR1_A c i arg2 harg2 arg3 harg3 arg4 harg4 arg5 harg5 hc0 hc1 x0 x1).2.1, y ∈ pc.1.set :=
  View.cover_of_tiledL (kernelRunR1_A c i arg2 harg2 arg3 harg3 arg4 harg4 arg5 harg5 hc0 hc1 x0 x1).2.1 S128x128.size (by sl_kernel_rfl) y

/-- First feature tile: what the accumulator holds afterwards. -/
def soutR1_A_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 : Vec F S128x128 .f32) (x1 : Vec F S128x128 .f32) : Vec F S128x128 .f32 :=
  VSR1_0.read (Elt F) (VSR1_0.writes (Elt F) VSR1_0.junk (kernelRunR1_A c i arg2 harg2 arg3 harg3 arg4 harg4 arg5 harg5 hc0 hc1 x0 x1).2.1)

/-- A middle feature tile: the output block is not stored into (a placeholder nothing reads). -/
def outR1_B_2 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 : Vec F S128x128 .f32) (x1 : Vec F S128x128 .f32) (xs0 : Vec F S128x128 .f32) : Vec F S128x128 .f32 :=
  VOR1_2.read (Elt F) (VOR1_2.writes (Elt F) VOR1_2.junk (kernelRunR1_B c i arg2 harg2 arg3 harg3 arg4 harg4 arg5 harg5 hc0 hc1 x0 x1 xs0).1)

theorem scoverR1_B_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 : Vec F S128x128 .f32) (x1 : Vec F S128x128 .f32) (xs0 : Vec F S128x128 .f32) (y : S128x128.Idx) :
    ∃ pc ∈ (kernelRunR1_B c i arg2 harg2 arg3 harg3 arg4 harg4 arg5 harg5 hc0 hc1 x0 x1 xs0).2.1, y ∈ pc.1.set :=
  View.cover_of_tiledL (kernelRunR1_B c i arg2 harg2 arg3 harg3 arg4 harg4 arg5 harg5 hc0 hc1 x0 x1 xs0).2.1 S128x128.size (by sl_kernel_rfl) y

/-- A middle feature tile: what the accumulator holds afterwards, from what it held before (xs0). -/
def soutR1_B_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 : Vec F S128x128 .f32) (x1 : Vec F S128x128 .f32) (xs0 : Vec F S128x128 .f32) : Vec F S128x128 .f32 :=
  VSR1_0.read (Elt F) (VSR1_0.writes (Elt F) VSR1_0.junk (kernelRunR1_B c i arg2 harg2 arg3 harg3 arg4 harg4 arg5 harg5 hc0 hc1 x0 x1 xs0).2.1)

/-- Last feature tile: the one store into the output block covers it. -/
theorem coverR1_C_2 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) (y : S128x128.Idx) :
    ∃ pc ∈ (kernelRunR1_C c i arg2 harg2 arg3 harg3 arg4 harg4 arg5 harg5 hc0 hc1 x0 x1 xs0).1, y ∈ pc.1.set :=
  View.cover_of_tiledL (kernelRunR1_C c i arg2 harg2 arg3 harg3 arg4 harg4 arg5 harg5 hc0 hc1 x0 x1 xs0).1 S128x128.size (by sl_kernel_rfl) y

/-- Last feature tile: what the output block holds afterwards. -/
def outR1_C_2 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) : Vec F S128x128 .f32 :=
  VOR1_2.read (Elt F) (VOR1_2.writes (Elt F) VOR1_2.junk (kernelRunR1_C c i arg2 harg2 arg3 harg3 arg4 harg4 arg5 harg5 hc0 hc1 x0 x1 xs0).1)

theorem scoverR1_C_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) (y : S128x128.Idx) :
    ∃ pc ∈ (kernelRunR1_C c i arg2 harg2 arg3 harg3 arg4 harg4 arg5 harg5 hc0 hc1 x0 x1 xs0).2.1, y ∈ pc.1.set :=
  View.cover_of_tiledL (kernelRunR1_C c i arg2 harg2 arg3 harg3 arg4 harg4 arg5 harg5 hc0 hc1 x0 x1 xs0).2.1 S128x128.size (by sl_kernel_rfl) y

/-- Last feature tile: what the accumulator holds afterwards. -/
def soutR1_C_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) : Vec F S128x128 .f32 :=
  VSR1_0.read (Elt F) (VSR1_0.writes (Elt F) VSR1_0.junk (kernelRunR1_C c i arg2 harg2 arg3 harg3 arg4 harg4 arg5 harg5 hc0 hc1 x0 x1 xs0).2.1)

/-! ## The contents after each point -/

/-- The output block (first component) and the accumulator (second) after the body at position n. -/
def outsAtR1 (c : Dev nD) : (n : ℕ) → n < cfg1.N → Vec F S128x128 .f32 × Vec F S128x128 .f32
  | 0, hn => (outR1_A_2 c (grid1.coords ⟨0, hn⟩) (msR1_0 ⟨0, hn⟩) (hsR1_0 ⟨0, hn⟩) (msR1_1 ⟨0, hn⟩) (hsR1_1 ⟨0, hn⟩) (msR1_2 ⟨0, hn⟩) (hsR1_2 ⟨0, hn⟩) scMR1_0 (Memref.isWhole_whole _) ((hcondR1_0 ⟨0, hn⟩).mpr (Nat.zero_mod _)) (fun h => (fun h => by (try dsimp only at h); omega) ((hcondR1_1 ⟨0, hn⟩).mp h)) (iblkR1 V c 0 ⟨0, hn⟩) (iblkR1 V c 1 ⟨0, hn⟩), soutR1_A_0 c (grid1.coords ⟨0, hn⟩) (msR1_0 ⟨0, hn⟩) (hsR1_0 ⟨0, hn⟩) (msR1_1 ⟨0, hn⟩) (hsR1_1 ⟨0, hn⟩) (msR1_2 ⟨0, hn⟩) (hsR1_2 ⟨0, hn⟩) scMR1_0 (Memref.isWhole_whole _) ((hcondR1_0 ⟨0, hn⟩).mpr (Nat.zero_mod _)) (fun h => (fun h => by (try dsimp only at h); omega) ((hcondR1_1 ⟨0, hn⟩).mp h)) (iblkR1 V c 0 ⟨0, hn⟩) (iblkR1 V c 1 ⟨0, hn⟩))
  | n + 1, hn =>
    if h0 : (n + 1) % 4 = 0 then
      if h1 : (n + 1) % 4 = 3 then
        False.elim (by omega)
      else
        (outR1_A_2 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) ((hcondR1_0 ⟨n + 1, hn⟩).mpr h0) (fun h => h1 ((hcondR1_1 ⟨n + 1, hn⟩).mp h)) (iblkR1 V c 0 ⟨n + 1, hn⟩) (iblkR1 V c 1 ⟨n + 1, hn⟩), soutR1_A_0 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) ((hcondR1_0 ⟨n + 1, hn⟩).mpr h0) (fun h => h1 ((hcondR1_1 ⟨n + 1, hn⟩).mp h)) (iblkR1 V c 0 ⟨n + 1, hn⟩) (iblkR1 V c 1 ⟨n + 1, hn⟩))
    else
      if h1 : (n + 1) % 4 = 3 then
        (outR1_C_2 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) (fun h => h0 ((hcondR1_0 ⟨n + 1, hn⟩).mp h)) ((hcondR1_1 ⟨n + 1, hn⟩).mpr h1) (iblkR1 V c 0 ⟨n + 1, hn⟩) (iblkR1 V c 1 ⟨n + 1, hn⟩) (outsAtR1 c n (Nat.lt_of_succ_lt hn)).2, soutR1_C_0 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) (fun h => h0 ((hcondR1_0 ⟨n + 1, hn⟩).mp h)) ((hcondR1_1 ⟨n + 1, hn⟩).mpr h1) (iblkR1 V c 0 ⟨n + 1, hn⟩) (iblkR1 V c 1 ⟨n + 1, hn⟩) (outsAtR1 c n (Nat.lt_of_succ_lt hn)).2)
      else
        (outR1_B_2 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) (fun h => h0 ((hcondR1_0 ⟨n + 1, hn⟩).mp h)) (fun h => h1 ((hcondR1_1 ⟨n + 1, hn⟩).mp h)) (iblkR1 V c 0 ⟨n + 1, hn⟩) (iblkR1 V c 1 ⟨n + 1, hn⟩) (outsAtR1 c n (Nat.lt_of_succ_lt hn)).2, soutR1_B_0 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) (fun h => h0 ((hcondR1_0 ⟨n + 1, hn⟩).mp h)) (fun h => h1 ((hcondR1_1 ⟨n + 1, hn⟩).mp h)) (iblkR1 V c 0 ⟨n + 1, hn⟩) (iblkR1 V c 1 ⟨n + 1, hn⟩) (outsAtR1 c n (Nat.lt_of_succ_lt hn)).2)

theorem outsAtR1_A (c : Dev nD) (t : Fin cfg1.N) (h0 : t.val % 4 = 0) (h1 : ¬t.val % 4 = 3) :
    outsAtR1 V c t.val t.isLt = (outR1_A_2 c (grid1.coords t) (msR1_0 t) (hsR1_0 t) (msR1_1 t) (hsR1_1 t) (msR1_2 t) (hsR1_2 t) scMR1_0 (Memref.isWhole_whole _) ((hcondR1_0 t).mpr h0) (fun h => h1 ((hcondR1_1 t).mp h)) (iblkR1 V c 0 t) (iblkR1 V c 1 t), soutR1_A_0 c (grid1.coords t) (msR1_0 t) (hsR1_0 t) (msR1_1 t) (hsR1_1 t) (msR1_2 t) (hsR1_2 t) scMR1_0 (Memref.isWhole_whole _) ((hcondR1_0 t).mpr h0) (fun h => h1 ((hcondR1_1 t).mp h)) (iblkR1 V c 0 t) (iblkR1 V c 1 t)) := by
  obtain ⟨n, hn⟩ := t
  cases n with
  | zero => exact rfl
  | succ n => exact (dif_pos h0).trans ((dif_neg h1).trans rfl)

theorem outsAtR1_B (c : Dev nD) (t : Fin cfg1.N) (h0 : ¬t.val % 4 = 0) (h1 : ¬t.val % 4 = 3) :
    outsAtR1 V c t.val t.isLt = (outR1_B_2 c (grid1.coords t) (msR1_0 t) (hsR1_0 t) (msR1_1 t) (hsR1_1 t) (msR1_2 t) (hsR1_2 t) scMR1_0 (Memref.isWhole_whole _) (fun h => h0 ((hcondR1_0 t).mp h)) (fun h => h1 ((hcondR1_1 t).mp h)) (iblkR1 V c 0 t) (iblkR1 V c 1 t) (outsAtR1 V c (t.val - 1) (Nat.lt_of_le_of_lt (Nat.sub_le _ _) t.isLt)).2, soutR1_B_0 c (grid1.coords t) (msR1_0 t) (hsR1_0 t) (msR1_1 t) (hsR1_1 t) (msR1_2 t) (hsR1_2 t) scMR1_0 (Memref.isWhole_whole _) (fun h => h0 ((hcondR1_0 t).mp h)) (fun h => h1 ((hcondR1_1 t).mp h)) (iblkR1 V c 0 t) (iblkR1 V c 1 t) (outsAtR1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAtR1_C (c : Dev nD) (t : Fin cfg1.N) (h0 : ¬t.val % 4 = 0) (h1 : t.val % 4 = 3) :
    outsAtR1 V c t.val t.isLt = (outR1_C_2 c (grid1.coords t) (msR1_0 t) (hsR1_0 t) (msR1_1 t) (hsR1_1 t) (msR1_2 t) (hsR1_2 t) scMR1_0 (Memref.isWhole_whole _) (fun h => h0 ((hcondR1_0 t).mp h)) ((hcondR1_1 t).mpr h1) (iblkR1 V c 0 t) (iblkR1 V c 1 t) (outsAtR1 V c (t.val - 1) (Nat.lt_of_le_of_lt (Nat.sub_le _ _) t.isLt)).2, soutR1_C_0 c (grid1.coords t) (msR1_0 t) (hsR1_0 t) (msR1_1 t) (hsR1_1 t) (msR1_2 t) (hsR1_2 t) scMR1_0 (Memref.isWhole_whole _) (fun h => h0 ((hcondR1_0 t).mp h)) ((hcondR1_1 t).mpr h1) (iblkR1 V c 0 t) (iblkR1 V c 1 t) (outsAtR1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: the accumulator at what the point before left (at anything before the first point), the scoped
    buffers the region never touches, the generator register at some state. -/
def PhiSR1 (c : Dev nD) : (n : ℕ) → n ≤ cfg1.N → sProp 𝕄
  | 0, _ => iprop(iprop((∃ d, owns (c : Thread nD τ) scMR1_0 fullShare d) ∗ otherR1 c) ∗ (∃ r, prngReg c r))
  | n + 1, hn => iprop(iprop(owns (c : Thread nD τ) scMR1_0 fullShare ((outsAtR1 V c n hn).2) ∗ otherR1 c) ∗ (∃ r, prngReg c r))

theorem PhiSR1_zero (c : Dev nD) (n : ℕ) (h : n ≤ cfg1.N) (hz : n = 0) :
    PhiSR1 V c n h = iprop(iprop((∃ d, owns (c : Thread nD τ) scMR1_0 fullShare d) ∗ otherR1 c) ∗ (∃ r, prngReg c r)) := by
  subst hz; rfl

theorem PhiSR1_succ (c : Dev nD) (n : ℕ) (hn : n < cfg1.N) :
    PhiSR1 V c (n + 1) hn = iprop(iprop(owns (c : Thread nD τ) scMR1_0 fullShare ((outsAtR1 V c n hn).2) ∗ otherR1 c) ∗ (∃ r, prngReg c r)) := rfl

theorem PhiSR1_pos (c : Dev nD) (n : ℕ) (h : n ≤ cfg1.N) (hz : n ≠ 0) :
    PhiSR1 V c n h = iprop(iprop(owns (c : Thread nD τ) scMR1_0 fullShare ((outsAtR1 V c (n - 1) (by omega)).2) ∗ otherR1 c) ∗ (∃ r, prngReg c r)) := by
  cases n with
  | zero => exact absurd rfl hz
  | succ n => rfl

/-! ## The proof data -/

def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = (outsAtR1 V c t.val t.isLt).1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d

/-! ## The body obligation -/

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t)

set_option maxHeartbeats 4800000 in
/-- The body at any point: the closed forms say which case the point is in; the invariant hands the run the accumulator
    at what the point before left (at anything at the first point) and takes it back at this point's contents. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1]
  rw [show (datR1 V c).owesAt () t.succ = (datR1 V c).owesAt () t.castSucc from rfl]
  rw [show (datR1 V c).Φ t.succ = PhiSR1 V c (t.val + 1) t.isLt from rfl, PhiSR1_succ]
  have hN : t.val < 64 := lt_of_lt_of_eq t.isLt (show cfg1.N = 64 from N_1)
  rw [show (datR1 V c).leavesExact 0 t = owns (c : Thread nD τ) (msR1_0 t) fullShare ((datR1 V c).after 0 t) from by
    unfold Dat.leavesExact; rw [liveAtR1_0 t], afterR1_0]
  rw [show (datR1 V c).leavesExact 1 t = owns (c : Thread nD τ) (msR1_1 t) fullShare ((datR1 V c).after 1 t) from by
    unfold Dat.leavesExact; rw [liveAtR1_1 t], afterR1_1]
  by_cases h0 : t.val % 4 = 0
  · by_cases h1 : t.val % 4 = 3
    · exfalso; omega
    · rw [Dat.leavesExact_idle (datR1 V c) 2 t (idleAtR1_2_A t ((hcondR1_0 t).mpr h0) (fun h => h1 ((hcondR1_1 t).mp h))) (noFlushR1_2_A t ((hcondR1_0 t).mpr h0) (fun h => h1 ((hcondR1_1 t).mp h)))]
      rw [outsAtR1_A V c t h0 h1]
      unfold soutR1_A_0; (try dsimp only)
      by_cases hz : t.val = 0
      · rw [PhiSR1_castSucc V c t, PhiSR1_zero V c _ _ hz]
        iintro ⟨⟨⟨HS0, Hoth⟩, Hg⟩, Ho, ⟨%d0, H0⟩, ⟨%d1, H1⟩, ⟨%d2, H2⟩⟩
        iapply ((kernelRunR1_A c (grid1.coords t) _ _ _ _ _ _ _ _ ((hcondR1_0 t).mpr h0) (fun h => h1 ((hcondR1_1 t).mp h)) (iblkR1 V c 0 t) (iblkR1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverR1_A_0 c _ _ _ _ _ _ _ _ _ _ _ _ _)
            iexact Hoth
          iexact Hg
        isplitl [Ho]; · iexact Ho
        isplitl [H0]; · iexact H0
        isplitl [H1]; · iexact H1
        iexists _; iexact H2
      · rw [PhiSR1_castSucc V c t, PhiSR1_pos V c _ _ hz]
        iintro ⟨⟨⟨HS0, Hoth⟩, Hg⟩, Ho, ⟨%d0, H0⟩, ⟨%d1, H1⟩, ⟨%d2, H2⟩⟩
        iapply ((kernelRunR1_A c (grid1.coords t) _ _ _ _ _ _ _ _ ((hcondR1_0 t).mpr h0) (fun h => h1 ((hcondR1_1 t).mp h)) (iblkR1 V c 0 t) (iblkR1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverR1_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (datR1 V c).leavesExact 2 t = owns (c : Thread nD τ) (msR1_2 t) fullShare ((datR1 V c).after 2 t) from by
        unfold Dat.leavesExact; rw [liveAtR1_2_C t (fun h => h0 ((hcondR1_0 t).mp h)) ((hcondR1_1 t).mpr h1)], afterR1_2]
      rw [outsAtR1_C V c t h0 h1]
      unfold outR1_C_2 soutR1_C_0; (try dsimp only)
      rw [PhiSR1_castSucc V c t, PhiSR1_pos V c _ _ hz]
      iintro ⟨⟨⟨HS0, Hoth⟩, Hg⟩, Ho, ⟨%d0, H0⟩, ⟨%d1, H1⟩, ⟨%d2, H2⟩⟩
      iapply ((kernelRunR1_C c (grid1.coords t) _ _ _ _ _ _ _ _ (fun h => h0 ((hcondR1_0 t).mp h)) ((hcondR1_1 t).mpr h1) (iblkR1 V c 0 t) (iblkR1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverR1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverR1_C_2 c _ _ _ _ _ _ _ _ _ _ _ _ _ _)
    · rw [Dat.leavesExact_idle (datR1 V c) 2 t (idleAtR1_2_B t (fun h => h0 ((hcondR1_0 t).mp h)) (fun h => h1 ((hcondR1_1 t).mp h))) (noFlushR1_2_B t (fun h => h0 ((hcondR1_0 t).mp h)) (fun h => h1 ((hcondR1_1 t).mp h)))]
      rw [outsAtR1_B V c t h0 h1]
      unfold soutR1_B_0; (try dsimp only)
      rw [PhiSR1_castSucc V c t, PhiSR1_pos V c _ _ hz]
      iintro ⟨⟨⟨HS0, Hoth⟩, Hg⟩, Ho, ⟨%d0, H0⟩, ⟨%d1, H1⟩, ⟨%d2, H2⟩⟩
      iapply ((kernelRunR1_B c (grid1.coords t) _ _ _ _ _ _ _ _ (fun h => h0 ((hcondR1_0 t).mp h)) (fun h => h1 ((hcondR1_1 t).mp h)) (iblkR1 V c 0 t) (iblkR1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverR1_B_0 c _ _ _ _ _ _ _ _ _ _ _ _ _ _)
          iexact Hoth
        iexact Hg
      isplitl [Ho]; · iexact Ho
      isplitl [H0]; · iexact H0
      isplitl [H1]; · iexact H1
      iexists _; iexact H2

theorem body_obligationR1 (c : Dev nD) : BodyObligation (datR1 (F := F) V c) (defs₀ (F := F)) Variants.none () Set.univ := fun t => by
  rw [bigSep_W1, bigSep_W1]
  exact sound_bodyR1 V c t

/-! ## Into the invariant and out of it -/

/-- What the region's entry hands over (the generator register, the scoped buffers no window stages) is the invariant
    before the first point. -/
theorem PhiR1_in (c : Dev nD) :
    iprop((∃ r, prngReg c r) ∗ (Pipeline.scopedRest (Ix := Unit) (Name := ℕ) (U := UR sig nD τ) (Lvl := ℕ) (Val := Elt F) spec1 c : sProp 𝕄))
      ⊢ (datR1 V c).Φ 0 := by
  rw [show (datR1 V c).Φ 0 = PhiSR1 V c 0 (Nat.zero_le _) from rfl, PhiSR1_zero V c 0 _ rfl]
  iintro ⟨Hp, Hr⟩
  ihave Hr' := (restR1_open c) $$ Hr
  isplitl [Hr']; · iexact Hr'
  iexact Hp

/-- After the last point the invariant gives them back: the accumulator's contents are forgotten. -/
theorem PhiR1_out (c : Dev nD) :
    (datR1 V c).Φ (Fin.last cfg1.N)
      ⊢ iprop((∃ r, prngReg c r) ∗ (Pipeline.scopedRest (Ix := Unit) (Name := ℕ) (U := UR sig nD τ) (Lvl := ℕ) (Val := Elt F) spec1 c : sProp 𝕄)) := by
  rw [show (datR1 V c).Φ (Fin.last cfg1.N) = PhiSR1 V c (Fin.last cfg1.N).val (Nat.le_of_lt_succ (Fin.last cfg1.N).isLt) from rfl,
    PhiSR1_pos V c _ _ (by rw [Fin.val_last]; have : cfg1.N = 64 := N_1; omega)]
  iintro ⟨⟨HS0, Hoth⟩, Hg⟩
  isplitl [Hg]; · iexact Hg
  iapply (restR1_close c)
  isplitl [HS0]; · iexists _; iexact HS0
  iexact Hoth

end Cert.Kernel.Fr

end
-- ==== Proof.Kernel.Launch.lean ====
/-
  The whole program as a run of four segments: the host stretch that transposes w and cuts it in two, the max half's
  region, the min half's region, and the host stretch that joins the two results.

  The contents of the core's unscoped buffers at each boundary are a fold from the launch memory: a host stretch
  applies its operations; a region leaves its arrays at what its write-backs leave and every other buffer as it was.
  The run's post says that every unscoped buffer ends at the last boundary's contents, from which both the frame claim
  (the arguments end as launched) and the value of the result are read.
-/
import proofs.«157227_j70145405878420_1_alg».proof.Proof.Kernel.Region0
import proofs.«157227_j70145405878420_1_alg».proof.Proof.Kernel.Region1

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the first host stretch (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (datR0 (V1 m) c).arrAt w cfg0.N
theorem W2_arr (c : Dev nD) (w : Fin cfg0.W) :
    W2 m c (Proc.devRef .tc (Pipeline.arrRef spec0 w)) = (datR0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (datR0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (no host operation stands between the two regions). -/
def W3 (c : Dev nD) : Valuation τ sig (Elt F) :=
  Pipeline.withArrays spec1 c (W2 m c) fun w => (datR1 (V2 m) c).arrAt w cfg1.N
theorem W3_arr (c : Dev nD) (w : Fin cfg1.W) :
    W3 m c (Proc.devRef .tc (Pipeline.arrRef spec1 w)) = (datR1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (datR1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: the end. -/
abbrev W4 (c : Dev nD) : Valuation τ sig (Elt F) := StableHlo.after hostOps2 (W3 m c)

/-! ## The arguments end as launched -/

/-- x is an input window's array of both regions and no host operation writes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := (W3_arr m c 0).trans (((datR1 (V2 m) c).arrAt_in 0 rfl _).trans (A_eqR1 (V2 m) c 0))
    _ = W1 m c (Proc.devRef .tc main_arg0) := (W2_arr m c 0).trans (((datR0 (V1 m) c).arrAt_in 0 rfl _).trans (A_eqR0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- w is no window's array of either region and no host operation writes it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => datR0 (V1 m) c
  | ⟨1, _⟩ => fun c => datR1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the generator register and the owes: every unscoped buffer at the end's contents. -/
abbrev Tₙ (c : Dev nD) : sProp 𝕄 := StableHlo.held (c : Thread nD τ) (Pipeline.ucRefs τ sig) (W4 m c)

/-! ## The regions as segments -/

set_option backward.isDefEq.respectTransparency.types false in
/-- Region 0 over the thread state: entered with every unscoped buffer at the boundary's contents, left with the
    region's arrays at what its write-backs leave and every other buffer as entered; the generator register and the
    scoped buffers no window stages go into the invariant and come back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (datR0 (V1 m) c).Φ 0 from rfl]
    iintro ⟨Hp, -, Hr⟩
    iapply (PhiR0_in (V1 m) c)
    isplitl [Hp]; · iexact Hp
    iexact Hr
  hout c := by
    rw [Pipeline.ownSems0_none, show (pdats m 0 c).Φ (Fin.last _) = (datR0 (V1 m) c).Φ (Fin.last cfg0.N) from rfl]
    iintro H
    ihave H' := (PhiR0_out (V1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered; the generator register and the
    scoped buffers no window stages go into the invariant and come back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (datR1 (V2 m) c).Φ 0 from rfl]
    iintro ⟨Hp, -, Hr⟩
    iapply (PhiR1_in (V2 m) c)
    isplitl [Hp]; · iexact Hp
    iexact Hr
  hout c := by
    rw [Pipeline.ownSems0_none, show (pdats m 1 c).Φ (Fin.last _) = (datR1 (V2 m) c).Φ (Fin.last cfg1.N) from rfl]
    iintro H
    ihave H' := (PhiR1_out (V2 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold Tₙ StableHlo.held
      imodintro
      iapply (pointsTo_read_all (Pipeline.ucRefs τ sig) (fun b => (((c : Thread nD τ)).1, b)) (W4 m c) s')
      isplitl [Hh] <;> iassumption)
    (hQ := fun s h c => h c)

/-- The frame claim at any instance: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

end Cert.Kernel.Fr

end
-- ==== Proof.KernelIdeal.Shared0.lean ====
/-
  Region 0 (the max half's pallas_call), what its three control cases share.

  The grid is 16 row tiles by 4 feature tiles, walked row-major, so point t works on row tile t / 4 and feature tile
  t % 4. The body resets its accumulator when the feature tile is 0, always joins the tile's extremum into it, and copies
  it into the output block when the feature tile is 3. Hence three cases by t % 4: 0 (reset, no output), 1 or 2
  (neither), 3 (output). The output window is idle, and not written back, exactly at the points of the first two.

  Everything is stated at a parameter V, the contents of the core's buffers when the region is entered.
-/
import proofs.«157227_j70145405878420_1_alg».proof.Proof.Gen.KernelIdeal.Launch
import proofs.«157227_j70145405878420_1_alg».proof.Proof.Gen.KernelIdeal.Skeleton
import proofs.«157227_j70145405878420_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblkR0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The x window's staging buffer holds the point's x block, fetched there or not. -/
theorem beforeR0_0_of {c : Dev nD} (dat : Dat τ (Elt F) Unit ℕ (UR sig nD τ) ℕ cfg0 c) (hA : dat.A 0 = V c (Pipeline.arrRef spec0 0))
    (hafter : ∀ t, dat.after 0 t = iblkR0 V c 0 t) (t : Fin cfg0.N) (d) : dat.before 0 t d = iblkR0 V c 0 t :=
  (dat.before_in_eq_fetched 0 rfl (fun _ => rfl) (fun _ _ _ => rfl) (fun t => by rw [hafter]; unfold Dat.blockOf iblkR0; rw [hA]; try rfl) t d).trans
    (by unfold Dat.fetched Dat.blockOf iblkR0; rw [hA]; try rfl)

/-- The w window's staging buffer holds the point's block of the transposed w, fetched there or not. -/
theorem beforeR0_1_of {c : Dev nD} (dat : Dat τ (Elt F) Unit ℕ (UR sig nD τ) ℕ cfg0 c) (hA : dat.A 1 = V c (Pipeline.arrRef spec0 1))
    (hafter : ∀ t, dat.after 1 t = iblkR0 V c 1 t) (t : Fin cfg0.N) (d) : dat.before 1 t d = iblkR0 V c 1 t :=
  (dat.before_in_eq_fetched 1 rfl (fun _ => rfl) (fun _ _ _ => rfl) (fun t => by rw [hafter]; unfold Dat.blockOf iblkR0; rw [hA]; try rfl) t d).trans
    (by unfold Dat.fetched Dat.blockOf iblkR0; rw [hA]; try rfl)

/-! ## The body's two conditions, decided over the grid -/

/-- "The feature tile is the first": the reset's condition. -/
abbrev condR0_0 (i : grid0.Coords) : Prop := (Scalar.cmpi .ne (Scalar.extui (Scalar.cmpi .eq (BitVec.ofNat 32 (i 1).val) 0#32)) 0#32) = 1#1
theorem hcondR0_0 : ∀ t : Fin cfg0.N, condR0_0 (grid0.coords t) ↔ t.val % 4 = 0 :=
  (by decide +kernel : ∀ t : Fin grid0.N, condR0_0 (grid0.coords t) ↔ t.val % 4 = 0)

/-- "The feature tile is the last": the output store's condition. -/
abbrev condR0_1 (i : grid0.Coords) : Prop := k0_cond2 i = 1#1
theorem hcondR0_1 : ∀ t : Fin cfg0.N, condR0_1 (grid0.coords t) ↔ t.val % 4 = 3 :=
  (by decide +kernel : ∀ t : Fin grid0.N, condR0_1 (grid0.coords t) ↔ t.val % 4 = 3)

/-! ## Where the windows are idle -/

theorem liveAtR0_0 : ∀ t : Fin cfg0.N, cfg0.idle 0 (grid0.coords t) = false := by decide +kernel
theorem liveAtR0_1 : ∀ t : Fin cfg0.N, cfg0.idle 1 (grid0.coords t) = false := by decide +kernel
theorem idleAtR0_2_A : ∀ t : Fin cfg0.N, condR0_0 (grid0.coords t) → ¬condR0_1 (grid0.coords t) → cfg0.idle 2 (grid0.coords t) = true := by decide +kernel
theorem noFlushR0_2_A : ∀ t : Fin cfg0.N, condR0_0 (grid0.coords t) → ¬condR0_1 (grid0.coords t) → (cfg0.win 2).flush t = false := by decide +kernel
theorem idleAtR0_2_B : ∀ t : Fin cfg0.N, ¬condR0_0 (grid0.coords t) → ¬condR0_1 (grid0.coords t) → cfg0.idle 2 (grid0.coords t) = true := by decide +kernel
theorem noFlushR0_2_B : ∀ t : Fin cfg0.N, ¬condR0_0 (grid0.coords t) → ¬condR0_1 (grid0.coords t) → (cfg0.win 2).flush t = false := by decide +kernel
theorem liveAtR0_2_C : ∀ t : Fin cfg0.N, ¬condR0_0 (grid0.coords t) → condR0_1 (grid0.coords t) → cfg0.idle 2 (grid0.coords t) = false := by decide +kernel

/-! ## The memrefs the body is called with -/

/-- One staging buffer of the output window, through which its contents are stated. -/
abbrev VOR0_2 : View sig .tc .vmem S128x128 .f32 := (Memref.whole cc0_stg2_0 : Memref sig .tc .vmem S128x128 .f32).view
abbrev msR0_0 (t : Fin cfg0.N) : Memref sig .tc .vmem S128x128 .f32 := win0_0.stage (cfg0.slots t 0)
abbrev hsR0_0 (t : Fin cfg0.N) : (msR0_0 t).IsWhole := hstage0_0 ((cfg0.slots t 0).cast nbuf0_0)
abbrev msR0_1 (t : Fin cfg0.N) : Memref sig .tc .vmem S128x128 .f32 := win0_1.stage (cfg0.slots t 1)
abbrev hsR0_1 (t : Fin cfg0.N) : (msR0_1 t).IsWhole := hstage0_1 ((cfg0.slots t 1).cast nbuf0_1)
abbrev msR0_2 (t : Fin cfg0.N) : Memref sig .tc .vmem S128x128 .f32 := win0_2.stage (cfg0.slots t 2)
abbrev hsR0_2 (t : Fin cfg0.N) : (msR0_2 t).IsWhole := hstage0_2 ((cfg0.slots t 2).cast nbuf0_2)
/-- The accumulator: a whole scoped buffer of the kernel's own. -/
abbrev scMR0_0 : Memref sig .tc .vmem S128x128 .f32 := Memref.whole cc0_scratch0
abbrev VSR0_0 : View sig .tc .vmem S128x128 .f32 := scMR0_0.view

end Cert.KernelIdeal.Fr

end
-- ==== Proof.KernelIdeal.Rest0.lean ====
/-
  Region 0's share of the core's scoped buffers: the accumulator it carries between points, and the buffers it never
  touches (the other region's staging buffers and accumulator), which ride along at any contents.
-/
import proofs.«157227_j70145405878420_1_alg».proof.Proof.KernelIdeal.Shared0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers region 0 never touches, each whole at some contents. -/
def otherR0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg2_1), ((c : Thread nD τ).loc cc1_stg2_1) ↦{fullShare} f)
    ∗ (∃ f : Buf (Elt F) ((c : Thread nD τ).loc cc1_scratch0), ((c : Thread nD τ).loc cc1_scratch0) ↦{fullShare} f))

/-- The scoped buffers no window of region 0 stages are its accumulator and those. -/
theorem restR0_open (c : Dev nD) :
    (Pipeline.scopedRest (Ix := Unit) (Name := ℕ) (U := UR sig nD τ) (Lvl := ℕ) (Val := Elt F) spec0 c : sProp 𝕄)
      ⊢ iprop((∃ d, owns (c : Thread nD τ) scMR0_0 fullShare d) ∗ otherR0 c) := by
  rw [scopedRest0_eq]; unfold otherR0; simp only [scMR0_0, owns_whole]
  iintro ⟨HS, H1, H2, H3, H4, H5, H6, H7⟩
  isplitl [HS]; · iexact HS
  isplitl [H1]; · iexact H1
  isplitl [H2]; · iexact H2
  isplitl [H3]; · iexact H3
  isplitl [H4]; · iexact H4
  isplitl [H5]; · iexact H5
  isplitl [H6]; · iexact H6
  iexact H7

theorem restR0_close (c : Dev nD) :
    iprop((∃ d, owns (c : Thread nD τ) scMR0_0 fullShare d) ∗ otherR0 c)
      ⊢ (Pipeline.scopedRest (Ix := Unit) (Name := ℕ) (U := UR sig nD τ) (Lvl := ℕ) (Val := Elt F) spec0 c : sProp 𝕄) := by
  rw [scopedRest0_eq]; unfold otherR0; simp only [scMR0_0, owns_whole]
  iintro ⟨HS, H1, H2, H3, H4, H5, H6, H7⟩
  isplitl [HS]; · iexact HS
  isplitl [H1]; · iexact H1
  isplitl [H2]; · iexact H2
  isplitl [H3]; · iexact H3
  isplitl [H4]; · iexact H4
  isplitl [H5]; · iexact H5
  isplitl [H6]; · iexact H6
  iexact H7

end Cert.KernelIdeal.Fr

end
-- ==== Proof.KernelIdeal.Run0A.lean ====
/-
  Region 0's body run through once, in the case "first feature tile": the accumulator, at anything, is reset and then joined with the
  tile's extremum; the output block is left as found.
  The pieces each buffer ends with are found by the run and kept as its witness.
-/
import proofs.«157227_j70145405878420_1_alg».proof.Proof.KernelIdeal.Shared0

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR0_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 : Vec F S128x128 .f32) (x1 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdeal.Run0B.lean ====
/-
  Region 0's body run through once, in the case "a middle feature tile": the accumulator, at what the point before left, is joined with
  the tile's extremum; the output block is left as found.
  The pieces each buffer ends with are found by the run and kept as its witness.
-/
import proofs.«157227_j70145405878420_1_alg».proof.Proof.KernelIdeal.Run0A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR0_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 : Vec F S128x128 .f32) (x1 : Vec F S128x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨[], ?_, fun xi2 E K => ?run⟩
  case run =>
    simp only [cc0__pool_kernel_eq_skeleton]; unfold cc0__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdeal.Run0C.lean ====
/-
  Region 0's body run through once, in the case "last feature tile": the accumulator, at what the point before left, is joined with the
  tile's extremum and then copied into the output block, which is found at anything.
  The pieces each buffer ends with are found by the run and kept as its witness.
-/
import proofs.«157227_j70145405878420_1_alg».proof.Proof.KernelIdeal.Run0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR0_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__pool_kernel i arg2 harg2 arg3 harg3 arg4 harg4 arg5 harg5) K } := by
  refine ⟨?_, ?_, fun E K => ?run⟩
  case run =>
    simp only [cc0__pool_kernel_eq_skeleton]; unfold cc0__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KernelIdeal.Region0.lean ====
/-
  Region 0 as a pipeline with its proof data: what each case of the body leaves in the output block and in the
  accumulator, the contents of both after every grid point (by recursion on the point: a point that is not a first
  feature tile starts from what the point before left in the accumulator), the region's invariant (the accumulator at
  those contents, the untouched scoped buffers, the generator register), and the body's obligation at every point.
-/
import proofs.«157227_j70145405878420_1_alg».proof.Proof.KernelIdeal.Rest0
import proofs.«157227_j70145405878420_1_alg».proof.Proof.KernelIdeal.Run0C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First feature tile: the output block is not stored into (a placeholder nothing reads). -/
def outR0_A_2 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 : Vec F S128x128 .f32) (x1 : Vec F S128x128 .f32) : Vec F S128x128 .f32 :=
  VOR0_2.read (Elt F) (VOR0_2.writes (Elt F) VOR0_2.junk (kernelRunR0_A c i arg2 harg2 arg3 harg3 arg4 harg4 arg5 harg5 hc0 hc1 x0 x1).1)

/-- First feature tile: the stores into the accumulator cover it. -/
theorem scoverR0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 : Vec F S128x128 .f32) (x1 : Vec F S128x128 .f32) (y : S128x128.Idx) :
    ∃ pc ∈ (kernelRunR0_A c i arg2 harg2 arg3 harg3 arg4 harg4 arg5 harg5 hc0 hc1 x0 x1).2.1, y ∈ pc.1.set :=
  View.cover_of_tiledL (kernelRunR0_A c i arg2 harg2 arg3 harg3 arg4 harg4 arg5 harg5 hc0 hc1 x0 x1).2.1 S128x128.size (by sl_kernel_rfl) y

/-- First feature tile: what the accumulator holds afterwards. -/
def soutR0_A_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 : Vec F S128x128 .f32) (x1 : Vec F S128x128 .f32) : Vec F S128x128 .f32 :=
  VSR0_0.read (Elt F) (VSR0_0.writes (Elt F) VSR0_0.junk (kernelRunR0_A c i arg2 harg2 arg3 harg3 arg4 harg4 arg5 harg5 hc0 hc1 x0 x1).2.1)

/-- A middle feature tile: the output block is not stored into (a placeholder nothing reads). -/
def outR0_B_2 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 : Vec F S128x128 .f32) (x1 : Vec F S128x128 .f32) (xs0 : Vec F S128x128 .f32) : Vec F S128x128 .f32 :=
  VOR0_2.read (Elt F) (VOR0_2.writes (Elt F) VOR0_2.junk (kernelRunR0_B c i arg2 harg2 arg3 harg3 arg4 harg4 arg5 harg5 hc0 hc1 x0 x1 xs0).1)

theorem scoverR0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 : Vec F S128x128 .f32) (x1 : Vec F S128x128 .f32) (xs0 : Vec F S128x128 .f32) (y : S128x128.Idx) :
    ∃ pc ∈ (kernelRunR0_B c i arg2 harg2 arg3 harg3 arg4 harg4 arg5 harg5 hc0 hc1 x0 x1 xs0).2.1, y ∈ pc.1.set :=
  View.cover_of_tiledL (kernelRunR0_B c i arg2 harg2 arg3 harg3 arg4 harg4 arg5 harg5 hc0 hc1 x0 x1 xs0).2.1 S128x128.size (by sl_kernel_rfl) y

/-- A middle feature tile: what the accumulator holds afterwards, from what it held before (xs0). -/
def soutR0_B_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 : Vec F S128x128 .f32) (x1 : Vec F S128x128 .f32) (xs0 : Vec F S128x128 .f32) : Vec F S128x128 .f32 :=
  VSR0_0.read (Elt F) (VSR0_0.writes (Elt F) VSR0_0.junk (kernelRunR0_B c i arg2 harg2 arg3 harg3 arg4 harg4 arg5 harg5 hc0 hc1 x0 x1 xs0).2.1)

/-- Last feature tile: the one store into the output block covers it. -/
theorem coverR0_C_2 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) (y : S128x128.Idx) :
    ∃ pc ∈ (kernelRunR0_C c i arg2 harg2 arg3 harg3 arg4 harg4 arg5 harg5 hc0 hc1 x0 x1 xs0).1, y ∈ pc.1.set :=
  View.cover_of_tiledL (kernelRunR0_C c i arg2 harg2 arg3 harg3 arg4 harg4 arg5 harg5 hc0 hc1 x0 x1 xs0).1 S128x128.size (by sl_kernel_rfl) y

/-- Last feature tile: what the output block holds afterwards. -/
def outR0_C_2 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) : Vec F S128x128 .f32 :=
  VOR0_2.read (Elt F) (VOR0_2.writes (Elt F) VOR0_2.junk (kernelRunR0_C c i arg2 harg2 arg3 harg3 arg4 harg4 arg5 harg5 hc0 hc1 x0 x1 xs0).1)

theorem scoverR0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) (y : S128x128.Idx) :
    ∃ pc ∈ (kernelRunR0_C c i arg2 harg2 arg3 harg3 arg4 harg4 arg5 harg5 hc0 hc1 x0 x1 xs0).2.1, y ∈ pc.1.set :=
  View.cover_of_tiledL (kernelRunR0_C c i arg2 harg2 arg3 harg3 arg4 harg4 arg5 harg5 hc0 hc1 x0 x1 xs0).2.1 S128x128.size (by sl_kernel_rfl) y

/-- Last feature tile: what the accumulator holds afterwards. -/
def soutR0_C_0 (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 : Vec F S128x128 .f32) (x1 : Vec F S128x128 .f32) (xs0 : Vec F S128x128 .f32) : Vec F S128x128 .f32 :=
  VSR0_0.read (Elt F) (VSR0_0.writes (Elt F) VSR0_0.junk (kernelRunR0_C c i arg2 harg2 arg3 harg3 arg4 harg4 arg5 harg5 hc0 hc1 x0 x1 xs0).2.1)

/-! ## The contents after each point -/

/-- The output block (first component) and the accumulator (second) after the body at position n. -/
def outsAtR0 (c : Dev nD) : (n : ℕ) → n < cfg0.N → Vec F S128x128 .f32 × Vec F S128x128 .f32
  | 0, hn => (outR0_A_2 c (grid0.coords ⟨0, hn⟩) (msR0_0 ⟨0, hn⟩) (hsR0_0 ⟨0, hn⟩) (msR0_1 ⟨0, hn⟩) (hsR0_1 ⟨0, hn⟩) (msR0_2 ⟨0, hn⟩) (hsR0_2 ⟨0, hn⟩) scMR0_0 (Memref.isWhole_whole _) ((hcondR0_0 ⟨0, hn⟩).mpr (Nat.zero_mod _)) (fun h => (fun h => by (try dsimp only at h); omega) ((hcondR0_1 ⟨0, hn⟩).mp h)) (iblkR0 V c 0 ⟨0, hn⟩) (iblkR0 V c 1 ⟨0, hn⟩), soutR0_A_0 c (grid0.coords ⟨0, hn⟩) (msR0_0 ⟨0, hn⟩) (hsR0_0 ⟨0, hn⟩) (msR0_1 ⟨0, hn⟩) (hsR0_1 ⟨0, hn⟩) (msR0_2 ⟨0, hn⟩) (hsR0_2 ⟨0, hn⟩) scMR0_0 (Memref.isWhole_whole _) ((hcondR0_0 ⟨0, hn⟩).mpr (Nat.zero_mod _)) (fun h => (fun h => by (try dsimp only at h); omega) ((hcondR0_1 ⟨0, hn⟩).mp h)) (iblkR0 V c 0 ⟨0, hn⟩) (iblkR0 V c 1 ⟨0, hn⟩))
  | n + 1, hn =>
    if h0 : (n + 1) % 4 = 0 then
      if h1 : (n + 1) % 4 = 3 then
        False.elim (by omega)
      else
        (outR0_A_2 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) ((hcondR0_0 ⟨n + 1, hn⟩).mpr h0) (fun h => h1 ((hcondR0_1 ⟨n + 1, hn⟩).mp h)) (iblkR0 V c 0 ⟨n + 1, hn⟩) (iblkR0 V c 1 ⟨n + 1, hn⟩), soutR0_A_0 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) ((hcondR0_0 ⟨n + 1, hn⟩).mpr h0) (fun h => h1 ((hcondR0_1 ⟨n + 1, hn⟩).mp h)) (iblkR0 V c 0 ⟨n + 1, hn⟩) (iblkR0 V c 1 ⟨n + 1, hn⟩))
    else
      if h1 : (n + 1) % 4 = 3 then
        (outR0_C_2 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) (fun h => h0 ((hcondR0_0 ⟨n + 1, hn⟩).mp h)) ((hcondR0_1 ⟨n + 1, hn⟩).mpr h1) (iblkR0 V c 0 ⟨n + 1, hn⟩) (iblkR0 V c 1 ⟨n + 1, hn⟩) (outsAtR0 c n (Nat.lt_of_succ_lt hn)).2, soutR0_C_0 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) (fun h => h0 ((hcondR0_0 ⟨n + 1, hn⟩).mp h)) ((hcondR0_1 ⟨n + 1, hn⟩).mpr h1) (iblkR0 V c 0 ⟨n + 1, hn⟩) (iblkR0 V c 1 ⟨n + 1, hn⟩) (outsAtR0 c n (Nat.lt_of_succ_lt hn)).2)
      else
        (outR0_B_2 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) (fun h => h0 ((hcondR0_0 ⟨n + 1, hn⟩).mp h)) (fun h => h1 ((hcondR0_1 ⟨n + 1, hn⟩).mp h)) (iblkR0 V c 0 ⟨n + 1, hn⟩) (iblkR0 V c 1 ⟨n + 1, hn⟩) (outsAtR0 c n (Nat.lt_of_succ_lt hn)).2, soutR0_B_0 c (grid0.coords ⟨n + 1, hn⟩) (msR0_0 ⟨n + 1, hn⟩) (hsR0_0 ⟨n + 1, hn⟩) (msR0_1 ⟨n + 1, hn⟩) (hsR0_1 ⟨n + 1, hn⟩) (msR0_2 ⟨n + 1, hn⟩) (hsR0_2 ⟨n + 1, hn⟩) scMR0_0 (Memref.isWhole_whole _) (fun h => h0 ((hcondR0_0 ⟨n + 1, hn⟩).mp h)) (fun h => h1 ((hcondR0_1 ⟨n + 1, hn⟩).mp h)) (iblkR0 V c 0 ⟨n + 1, hn⟩) (iblkR0 V c 1 ⟨n + 1, hn⟩) (outsAtR0 c n (Nat.lt_of_succ_lt hn)).2)

theorem outsAtR0_A (c : Dev nD) (t : Fin cfg0.N) (h0 : t.val % 4 = 0) (h1 : ¬t.val % 4 = 3) :
    outsAtR0 V c t.val t.isLt = (outR0_A_2 c (grid0.coords t) (msR0_0 t) (hsR0_0 t) (msR0_1 t) (hsR0_1 t) (msR0_2 t) (hsR0_2 t) scMR0_0 (Memref.isWhole_whole _) ((hcondR0_0 t).mpr h0) (fun h => h1 ((hcondR0_1 t).mp h)) (iblkR0 V c 0 t) (iblkR0 V c 1 t), soutR0_A_0 c (grid0.coords t) (msR0_0 t) (hsR0_0 t) (msR0_1 t) (hsR0_1 t) (msR0_2 t) (hsR0_2 t) scMR0_0 (Memref.isWhole_whole _) ((hcondR0_0 t).mpr h0) (fun h => h1 ((hcondR0_1 t).mp h)) (iblkR0 V c 0 t) (iblkR0 V c 1 t)) := by
  obtain ⟨n, hn⟩ := t
  cases n with
  | zero => exact rfl
  | succ n => exact (dif_pos h0).trans ((dif_neg h1).trans rfl)

theorem outsAtR0_B (c : Dev nD) (t : Fin cfg0.N) (h0 : ¬t.val % 4 = 0) (h1 : ¬t.val % 4 = 3) :
    outsAtR0 V c t.val t.isLt = (outR0_B_2 c (grid0.coords t) (msR0_0 t) (hsR0_0 t) (msR0_1 t) (hsR0_1 t) (msR0_2 t) (hsR0_2 t) scMR0_0 (Memref.isWhole_whole _) (fun h => h0 ((hcondR0_0 t).mp h)) (fun h => h1 ((hcondR0_1 t).mp h)) (iblkR0 V c 0 t) (iblkR0 V c 1 t) (outsAtR0 V c (t.val - 1) (Nat.lt_of_le_of_lt (Nat.sub_le _ _) t.isLt)).2, soutR0_B_0 c (grid0.coords t) (msR0_0 t) (hsR0_0 t) (msR0_1 t) (hsR0_1 t) (msR0_2 t) (hsR0_2 t) scMR0_0 (Memref.isWhole_whole _) (fun h => h0 ((hcondR0_0 t).mp h)) (fun h => h1 ((hcondR0_1 t).mp h)) (iblkR0 V c 0 t) (iblkR0 V c 1 t) (outsAtR0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAtR0_C (c : Dev nD) (t : Fin cfg0.N) (h0 : ¬t.val % 4 = 0) (h1 : t.val % 4 = 3) :
    outsAtR0 V c t.val t.isLt = (outR0_C_2 c (grid0.coords t) (msR0_0 t) (hsR0_0 t) (msR0_1 t) (hsR0_1 t) (msR0_2 t) (hsR0_2 t) scMR0_0 (Memref.isWhole_whole _) (fun h => h0 ((hcondR0_0 t).mp h)) ((hcondR0_1 t).mpr h1) (iblkR0 V c 0 t) (iblkR0 V c 1 t) (outsAtR0 V c (t.val - 1) (Nat.lt_of_le_of_lt (Nat.sub_le _ _) t.isLt)).2, soutR0_C_0 c (grid0.coords t) (msR0_0 t) (hsR0_0 t) (msR0_1 t) (hsR0_1 t) (msR0_2 t) (hsR0_2 t) scMR0_0 (Memref.isWhole_whole _) (fun h => h0 ((hcondR0_0 t).mp h)) ((hcondR0_1 t).mpr h1) (iblkR0 V c 0 t) (iblkR0 V c 1 t) (outsAtR0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: the accumulator at what the point before left (at anything before the first point), the scoped
    buffers the region never touches, the generator register at some state. -/
def PhiSR0 (c : Dev nD) : (n : ℕ) → n ≤ cfg0.N → sProp 𝕄
  | 0, _ => iprop(iprop((∃ d, owns (c : Thread nD τ) scMR0_0 fullShare d) ∗ otherR0 c) ∗ (∃ r, prngReg c r))
  | n + 1, hn => iprop(iprop(owns (c : Thread nD τ) scMR0_0 fullShare ((outsAtR0 V c n hn).2) ∗ otherR0 c) ∗ (∃ r, prngReg c r))

theorem PhiSR0_zero (c : Dev nD) (n : ℕ) (h : n ≤ cfg0.N) (hz : n = 0) :
    PhiSR0 V c n h = iprop(iprop((∃ d, owns (c : Thread nD τ) scMR0_0 fullShare d) ∗ otherR0 c) ∗ (∃ r, prngReg c r)) := by
  subst hz; rfl

theorem PhiSR0_succ (c : Dev nD) (n : ℕ) (hn : n < cfg0.N) :
    PhiSR0 V c (n + 1) hn = iprop(iprop(owns (c : Thread nD τ) scMR0_0 fullShare ((outsAtR0 V c n hn).2) ∗ otherR0 c) ∗ (∃ r, prngReg c r)) := rfl

theorem PhiSR0_pos (c : Dev nD) (n : ℕ) (h : n ≤ cfg0.N) (hz : n ≠ 0) :
    PhiSR0 V c n h = iprop(iprop(owns (c : Thread nD τ) scMR0_0 fullShare ((outsAtR0 V c (n - 1) (by omega)).2) ∗ otherR0 c) ∗ (∃ r, prngReg c r)) := by
  cases n with
  | zero => exact absurd rfl hz
  | succ n => rfl

/-! ## The proof data -/

def datR0 (c : Dev nD) : Dat τ (Elt F) Unit ℕ (UR sig nD τ) ℕ cfg0 c where
  A w := V c (Pipeline.arrRef spec0 w)
  after w t := match w with
    | ⟨0, _⟩ => iblkR0 V c 0 t
    | ⟨1, _⟩ => iblkR0 V c 1 t
    | ⟨2, _⟩ => (outsAtR0 V c t.val t.isLt).1
  Φ t := PhiSR0 V c t.val (Nat.le_of_lt_succ t.isLt)
  q _ := fullShare
  owed _ := 0

theorem A_eqR0 (c : Dev nD) (w : Fin cfg0.W) : (datR0 V c).A w = V c (Pipeline.arrRef spec0 w) := by
  dsimp only [datR0]

theorem PhiSR0_castSucc (c : Dev nD) (t : Fin cfg0.N) :
    (datR0 V c).Φ t.castSucc = PhiSR0 V c t.val (Nat.le_of_lt t.isLt) := by
  dsimp only [datR0]; simp only [Fin.coe_castSucc]

theorem afterR0_0 (c : Dev nD) (t : Fin cfg0.N) : (datR0 V c).after 0 t = iblkR0 V c 0 t := by dsimp only [datR0]
theorem afterR0_1 (c : Dev nD) (t : Fin cfg0.N) : (datR0 V c).after 1 t = iblkR0 V c 1 t := by dsimp only [datR0]
theorem afterR0_2 (c : Dev nD) (t : Fin cfg0.N) : (datR0 V c).after 2 t = (outsAtR0 V c t.val t.isLt).1 := by dsimp only [datR0]

theorem beforeR0_0 (c : Dev nD) (t : Fin cfg0.N) (d) : (datR0 V c).before 0 t d = iblkR0 V c 0 t :=
  beforeR0_0_of V (datR0 V c) (A_eqR0 V c 0) (afterR0_0 V c) t d
theorem beforeR0_1 (c : Dev nD) (t : Fin cfg0.N) (d) : (datR0 V c).before 1 t d = iblkR0 V c 1 t :=
  beforeR0_1_of V (datR0 V c) (A_eqR0 V c 1) (afterR0_1 V c) t d

/-! ## The body obligation -/

def bodyPreR0 (c : Dev nD) (t : Fin cfg0.N) : sProp 𝕄 :=
  iprop((datR0 V c).Φ t.castSucc ∗ (datR0 V c).owesAt () t.castSucc
    ∗ (∃ d, owns (c : Thread nD τ) (msR0_0 t) fullShare ((datR0 V c).before 0 t d))
    ∗ (∃ d, owns (c : Thread nD τ) (msR0_1 t) fullShare ((datR0 V c).before 1 t d))
    ∗ (∃ d, owns (c : Thread nD τ) (msR0_2 t) fullShare ((datR0 V c).before 2 t d)))

def bodyPostR0 (c : Dev nD) (t : Fin cfg0.N) : sProp 𝕄 :=
  iprop((datR0 V c).Φ t.succ ∗ (datR0 V c).owesAt () t.succ
    ∗ (datR0 V c).leavesExact 0 t
    ∗ (datR0 V c).leavesExact 1 t
    ∗ (datR0 V c).leavesExact 2 t)

set_option maxHeartbeats 4800000 in
/-- The body at any point: the closed forms say which case the point is in; the invariant hands the run the accumulator
    at what the point before left (at anything at the first point) and takes it back at this point's contents. -/
theorem sound_bodyR0 (c : Dev nD) (t : Fin cfg0.N) :
    bodyPreR0 V c t ⊢ wp frame (wpE (defs₀ (F := F)) Variants.none c none) Set.univ (bodyAt0 t) (fun _ => bodyPostR0 V c t) := by
  unfold bodyPreR0 bodyPostR0 bodyAt0
  simp only [beforeR0_0, beforeR0_1]
  rw [show (datR0 V c).owesAt () t.succ = (datR0 V c).owesAt () t.castSucc from rfl]
  rw [show (datR0 V c).Φ t.succ = PhiSR0 V c (t.val + 1) t.isLt from rfl, PhiSR0_succ]
  have hN : t.val < 64 := lt_of_lt_of_eq t.isLt (show cfg0.N = 64 from N_0)
  rw [show (datR0 V c).leavesExact 0 t = owns (c : Thread nD τ) (msR0_0 t) fullShare ((datR0 V c).after 0 t) from by
    unfold Dat.leavesExact; rw [liveAtR0_0 t], afterR0_0]
  rw [show (datR0 V c).leavesExact 1 t = owns (c : Thread nD τ) (msR0_1 t) fullShare ((datR0 V c).after 1 t) from by
    unfold Dat.leavesExact; rw [liveAtR0_1 t], afterR0_1]
  by_cases h0 : t.val % 4 = 0
  · by_cases h1 : t.val % 4 = 3
    · exfalso; omega
    · rw [Dat.leavesExact_idle (datR0 V c) 2 t (idleAtR0_2_A t ((hcondR0_0 t).mpr h0) (fun h => h1 ((hcondR0_1 t).mp h))) (noFlushR0_2_A t ((hcondR0_0 t).mpr h0) (fun h => h1 ((hcondR0_1 t).mp h)))]
      rw [outsAtR0_A V c t h0 h1]
      unfold soutR0_A_0; (try dsimp only)
      by_cases hz : t.val = 0
      · rw [PhiSR0_castSucc V c t, PhiSR0_zero V c _ _ hz]
        iintro ⟨⟨⟨HS0, Hoth⟩, Hg⟩, Ho, ⟨%d0, H0⟩, ⟨%d1, H1⟩, ⟨%d2, H2⟩⟩
        iapply ((kernelRunR0_A c (grid0.coords t) _ _ _ _ _ _ _ _ ((hcondR0_0 t).mpr h0) (fun h => h1 ((hcondR0_1 t).mp h)) (iblkR0 V c 0 t) (iblkR0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverR0_A_0 c _ _ _ _ _ _ _ _ _ _ _ _ _)
            iexact Hoth
          iexact Hg
        isplitl [Ho]; · iexact Ho
        isplitl [H0]; · iexact H0
        isplitl [H1]; · iexact H1
        iexists _; iexact H2
      · rw [PhiSR0_castSucc V c t, PhiSR0_pos V c _ _ hz]
        iintro ⟨⟨⟨HS0, Hoth⟩, Hg⟩, Ho, ⟨%d0, H0⟩, ⟨%d1, H1⟩, ⟨%d2, H2⟩⟩
        iapply ((kernelRunR0_A c (grid0.coords t) _ _ _ _ _ _ _ _ ((hcondR0_0 t).mpr h0) (fun h => h1 ((hcondR0_1 t).mp h)) (iblkR0 V c 0 t) (iblkR0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverR0_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (datR0 V c).leavesExact 2 t = owns (c : Thread nD τ) (msR0_2 t) fullShare ((datR0 V c).after 2 t) from by
        unfold Dat.leavesExact; rw [liveAtR0_2_C t (fun h => h0 ((hcondR0_0 t).mp h)) ((hcondR0_1 t).mpr h1)], afterR0_2]
      rw [outsAtR0_C V c t h0 h1]
      unfold outR0_C_2 soutR0_C_0; (try dsimp only)
      rw [PhiSR0_castSucc V c t, PhiSR0_pos V c _ _ hz]
      iintro ⟨⟨⟨HS0, Hoth⟩, Hg⟩, Ho, ⟨%d0, H0⟩, ⟨%d1, H1⟩, ⟨%d2, H2⟩⟩
      iapply ((kernelRunR0_C c (grid0.coords t) _ _ _ _ _ _ _ _ (fun h => h0 ((hcondR0_0 t).mp h)) ((hcondR0_1 t).mpr h1) (iblkR0 V c 0 t) (iblkR0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverR0_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverR0_C_2 c _ _ _ _ _ _ _ _ _ _ _ _ _ _)
    · rw [Dat.leavesExact_idle (datR0 V c) 2 t (idleAtR0_2_B t (fun h => h0 ((hcondR0_0 t).mp h)) (fun h => h1 ((hcondR0_1 t).mp h))) (noFlushR0_2_B t (fun h => h0 ((hcondR0_0 t).mp h)) (fun h => h1 ((hcondR0_1 t).mp h)))]
      rw [outsAtR0_B V c t h0 h1]
      unfold soutR0_B_0; (try dsimp only)
      rw [PhiSR0_castSucc V c t, PhiSR0_pos V c _ _ hz]
      iintro ⟨⟨⟨HS0, Hoth⟩, Hg⟩, Ho, ⟨%d0, H0⟩, ⟨%d1, H1⟩, ⟨%d2, H2⟩⟩
      iapply ((kernelRunR0_B c (grid0.coords t) _ _ _ _ _ _ _ _ (fun h => h0 ((hcondR0_0 t).mp h)) (fun h => h1 ((hcondR0_1 t).mp h)) (iblkR0 V c 0 t) (iblkR0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverR0_B_0 c _ _ _ _ _ _ _ _ _ _ _ _ _ _)
          iexact Hoth
        iexact Hg
      isplitl [Ho]; · iexact Ho
      isplitl [H0]; · iexact H0
      isplitl [H1]; · iexact H1
      iexists _; iexact H2

theorem body_obligationR0 (c : Dev nD) : BodyObligation (datR0 (F := F) V c) (defs₀ (F := F)) Variants.none () Set.univ := fun t => by
  rw [bigSep_W0, bigSep_W0]
  exact sound_bodyR0 V c t

/-! ## Into the invariant and out of it -/

/-- What the region's entry hands over (the generator register, the scoped buffers no window stages) is the invariant
    before the first point. -/
theorem PhiR0_in (c : Dev nD) :
    iprop((∃ r, prngReg c r) ∗ (Pipeline.scopedRest (Ix := Unit) (Name := ℕ) (U := UR sig nD τ) (Lvl := ℕ) (Val := Elt F) spec0 c : sProp 𝕄))
      ⊢ (datR0 V c).Φ 0 := by
  rw [show (datR0 V c).Φ 0 = PhiSR0 V c 0 (Nat.zero_le _) from rfl, PhiSR0_zero V c 0 _ rfl]
  iintro ⟨Hp, Hr⟩
  ihave Hr' := (restR0_open c) $$ Hr
  isplitl [Hr']; · iexact Hr'
  iexact Hp

/-- After the last point the invariant gives them back: the accumulator's contents are forgotten. -/
theorem PhiR0_out (c : Dev nD) :
    (datR0 V c).Φ (Fin.last cfg0.N)
      ⊢ iprop((∃ r, prngReg c r) ∗ (Pipeline.scopedRest (Ix := Unit) (Name := ℕ) (U := UR sig nD τ) (Lvl := ℕ) (Val := Elt F) spec0 c : sProp 𝕄)) := by
  rw [show (datR0 V c).Φ (Fin.last cfg0.N) = PhiSR0 V c (Fin.last cfg0.N).val (Nat.le_of_lt_succ (Fin.last cfg0.N).isLt) from rfl,
    PhiSR0_pos V c _ _ (by rw [Fin.val_last]; have : cfg0.N = 64 := N_0; omega)]
  iintro ⟨⟨HS0, Hoth⟩, Hg⟩
  isplitl [Hg]; · iexact Hg
  iapply (restR0_close c)
  isplitl [HS0]; · iexists _; iexact HS0
  iexact Hoth

end Cert.KernelIdeal.Fr

end
-- ==== Proof.KernelIdeal.Shared1.lean ====
/-
  Region 1 (the min half's pallas_call), what its three control cases share.

  The grid is 16 row tiles by 4 feature tiles, walked row-major, so point t works on row tile t / 4 and feature tile
  t % 4. The body resets its accumulator when the feature tile is 0, always joins the tile's extremum into it, and copies
  it into the output block when the feature tile is 3. Hence three cases by t % 4: 0 (reset, no output), 1 or 2
  (neither), 3 (output). The output window is idle, and not written back, exactly at the points of the first two.

  Everything is stated at a parameter V, the contents of the core's buffers when the region is entered.
-/
import proofs.«157227_j70145405878420_1_alg».proof.Proof.Gen.KernelIdeal.Launch
import proofs.«157227_j70145405878420_1_alg».proof.Proof.Gen.KernelIdeal.Skeleton
import proofs.«157227_j70145405878420_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblkR1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The x window's staging buffer holds the point's x block, fetched there or not. -/
theorem beforeR1_0_of {c : Dev nD} (dat : Dat τ (Elt F) Unit ℕ (UR sig nD τ) ℕ cfg1 c) (hA : dat.A 0 = V c (Pipeline.arrRef spec1 0))
    (hafter : ∀ t, dat.after 0 t = iblkR1 V c 0 t) (t : Fin cfg1.N) (d) : dat.before 0 t d = iblkR1 V c 0 t :=
  (dat.before_in_eq_fetched 0 rfl (fun _ => rfl) (fun _ _ _ => rfl) (fun t => by rw [hafter]; unfold Dat.blockOf iblkR1; rw [hA]; try rfl) t d).trans
    (by unfold Dat.fetched Dat.blockOf iblkR1; rw [hA]; try rfl)

/-- The w window's staging buffer holds the point's block of the transposed w, fetched there or not. -/
theorem beforeR1_1_of {c : Dev nD} (dat : Dat τ (Elt F) Unit ℕ (UR sig nD τ) ℕ cfg1 c) (hA : dat.A 1 = V c (Pipeline.arrRef spec1 1))
    (hafter : ∀ t, dat.after 1 t = iblkR1 V c 1 t) (t : Fin cfg1.N) (d) : dat.before 1 t d = iblkR1 V c 1 t :=
  (dat.before_in_eq_fetched 1 rfl (fun _ => rfl) (fun _ _ _ => rfl) (fun t => by rw [hafter]; unfold Dat.blockOf iblkR1; rw [hA]; try rfl) t d).trans
    (by unfold Dat.fetched Dat.blockOf iblkR1; rw [hA]; try rfl)

/-! ## The body's two conditions, decided over the grid -/

/-- "The feature tile is the first": the reset's condition. -/
abbrev condR1_0 (i : grid1.Coords) : Prop := (Scalar.cmpi .ne (Scalar.extui (Scalar.cmpi .eq (BitVec.ofNat 32 (i 1).val) 0#32)) 0#32) = 1#1
theorem hcondR1_0 : ∀ t : Fin cfg1.N, condR1_0 (grid1.coords t) ↔ t.val % 4 = 0 :=
  (by decide +kernel : ∀ t : Fin grid1.N, condR1_0 (grid1.coords t) ↔ t.val % 4 = 0)

/-- "The feature tile is the last": the output store's condition. -/
abbrev condR1_1 (i : grid1.Coords) : Prop := k1_cond2 i = 1#1
theorem hcondR1_1 : ∀ t : Fin cfg1.N, condR1_1 (grid1.coords t) ↔ t.val % 4 = 3 :=
  (by decide +kernel : ∀ t : Fin grid1.N, condR1_1 (grid1.coords t) ↔ t.val % 4 = 3)

/-! ## Where the windows are idle -/

theorem liveAtR1_0 : ∀ t : Fin cfg1.N, cfg1.idle 0 (grid1.coords t) = false := by decide +kernel
theorem liveAtR1_1 : ∀ t : Fin cfg1.N, cfg1.idle 1 (grid1.coords t) = false := by decide +kernel
theorem idleAtR1_2_A : ∀ t : Fin cfg1.N, condR1_0 (grid1.coords t) → ¬condR1_1 (grid1.coords t) → cfg1.idle 2 (grid1.coords t) = true := by decide +kernel
theorem noFlushR1_2_A : ∀ t : Fin cfg1.N, condR1_0 (grid1.coords t) → ¬condR1_1 (grid1.coords t) → (cfg1.win 2).flush t = false := by decide +kernel
theorem idleAtR1_2_B : ∀ t : Fin cfg1.N, ¬condR1_0 (grid1.coords t) → ¬condR1_1 (grid1.coords t) → cfg1.idle 2 (grid1.coords t) = true := by decide +kernel
theorem noFlushR1_2_B : ∀ t : Fin cfg1.N, ¬condR1_0 (grid1.coords t) → ¬condR1_1 (grid1.coords t) → (cfg1.win 2).flush t = false := by decide +kernel
theorem liveAtR1_2_C : ∀ t : Fin cfg1.N, ¬condR1_0 (grid1.coords t) → condR1_1 (grid1.coords t) → cfg1.idle 2 (grid1.coords t) = false := by decide +kernel

/-! ## The memrefs the body is called with -/

/-- One staging buffer of the output window, through which its contents are stated. -/
abbrev VOR1_2 : View sig .tc .vmem S128x128 .f32 := (Memref.whole cc1_stg2_0 : Memref sig .tc .vmem S128x128 .f32).view
abbrev msR1_0 (t : Fin cfg1.N) : Memref sig .tc .vmem S128x128 .f32 := win1_0.stage (cfg1.slots t 0)
abbrev hsR1_0 (t : Fin cfg1.N) : (msR1_0 t).IsWhole := hstage1_0 ((cfg1.slots t 0).cast nbuf1_0)
abbrev msR1_1 (t : Fin cfg1.N) : Memref sig .tc .vmem S128x128 .f32 := win1_1.stage (cfg1.slots t 1)
abbrev hsR1_1 (t : Fin cfg1.N) : (msR1_1 t).IsWhole := hstage1_1 ((cfg1.slots t 1).cast nbuf1_1)
abbrev msR1_2 (t : Fin cfg1.N) : Memref sig .tc .vmem S128x128 .f32 := win1_2.stage (cfg1.slots t 2)
abbrev hsR1_2 (t : Fin cfg1.N) : (msR1_2 t).IsWhole := hstage1_2 ((cfg1.slots t 2).cast nbuf1_2)
/-- The accumulator: a whole scoped buffer of the kernel's own. -/
abbrev scMR1_0 : Memref sig .tc .vmem S128x128 .f32 := Memref.whole cc1_scratch0
abbrev VSR1_0 : View sig .tc .vmem S128x128 .f32 := scMR1_0.view

end Cert.KernelIdeal.Fr

end
-- ==== Proof.KernelIdeal.Rest1.lean ====
/-
  Region 1's share of the core's scoped buffers: the accumulator it carries between points, and the buffers it never
  touches (the other region's staging buffers and accumulator), which ride along at any contents.
-/
import proofs.«157227_j70145405878420_1_alg».proof.Proof.KernelIdeal.Shared1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The scoped buffers region 1 never touches, each whole at some contents. -/
def otherR1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc0_scratch0), ((c : Thread nD τ).loc cc0_scratch0) ↦{fullShare} f))

/-- The scoped buffers no window of region 1 stages are those and its accumulator. -/
theorem restR1_open (c : Dev nD) :
    (Pipeline.scopedRest (Ix := Unit) (Name := ℕ) (U := UR sig nD τ) (Lvl := ℕ) (Val := Elt F) spec1 c : sProp 𝕄)
      ⊢ iprop((∃ d, owns (c : Thread nD τ) scMR1_0 fullShare d) ∗ otherR1 c) := by
  rw [scopedRest1_eq]; unfold otherR1; simp only [scMR1_0, owns_whole]
  iintro ⟨H1, H2, H3, H4, H5, H6, H7, HS⟩
  isplitl [HS]; · iexact HS
  isplitl [H1]; · iexact H1
  isplitl [H2]; · iexact H2
  isplitl [H3]; · iexact H3
  isplitl [H4]; · iexact H4
  isplitl [H5]; · iexact H5
  isplitl [H6]; · iexact H6
  iexact H7

theorem restR1_close (c : Dev nD) :
    iprop((∃ d, owns (c : Thread nD τ) scMR1_0 fullShare d) ∗ otherR1 c)
      ⊢ (Pipeline.scopedRest (Ix := Unit) (Name := ℕ) (U := UR sig nD τ) (Lvl := ℕ) (Val := Elt F) spec1 c : sProp 𝕄) := by
  rw [scopedRest1_eq]; unfold otherR1; simp only [scMR1_0, owns_whole]
  iintro ⟨HS, H1, H2, H3, H4, H5, H6, H7⟩
  isplitl [H1]; · iexact H1
  isplitl [H2]; · iexact H2
  isplitl [H3]; · iexact H3
  isplitl [H4]; · iexact H4
  isplitl [H5]; · iexact H5
  isplitl [H6]; · iexact H6
  isplitl [H7]; · iexact H7
  iexact HS

end Cert.KernelIdeal.Fr

end
-- ==== Proof.KernelIdeal.Run1A.lean ====
/-
  Region 1's body run through once, in the case "first feature tile": the accumulator, at anything, is reset and then joined with the
  tile's extremum; the output block is left as found.
  The pieces each buffer ends with are found by the run and kept as its witness.
-/
import proofs.«157227_j70145405878420_1_alg».proof.Proof.KernelIdeal.Shared1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR1_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 : Vec F S128x128 .f32) (x1 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pool_kernel i arg2 harg2 arg3 harg3 arg4 harg4 arg5 harg5) K } := by
  refine ⟨[], ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdeal.Run1B.lean ====
/-
  Region 1's body run through once, in the case "a middle feature tile": the accumulator, at what the point before left, is joined with
  the tile's extremum; the output block is left as found.
  The pieces each buffer ends with are found by the run and kept as its witness.
-/
import proofs.«157227_j70145405878420_1_alg».proof.Proof.KernelIdeal.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR1_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 : Vec F S128x128 .f32) (x1 : Vec F S128x128 .f32) (xs0 : Vec F S128x128 .f32) :
    Σ' (L2 : List (View.Piece (Elt F) S128x128 .f32)), { LS0 : List (View.Piece (Elt F) S128x128 .f32) //
      ∀ (xi2 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc1__pool_kernel i arg2 harg2 arg3 harg3 arg4 harg4 arg5 harg5) K } := by
  refine ⟨[], ?_, fun xi2 E K => ?run⟩
  case run =>
    simp only [cc1__pool_kernel_eq_skeleton]; unfold cc1__pool_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KernelIdeal.Run1C.lean ====
/-
  Region 1's body run through once, in the case "last feature tile": the accumulator, at what the point before left, is joined with the
  tile's extremum and then copied into the output block, which is found at anything.
  The pieces each buffer ends with are found by the run and kept as its witness.
-/
import proofs.«157227_j70145405878420_1_alg».proof.Proof.KernelIdeal.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunR1_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) :
    Σ' (L2 : List (View.Piece (Elt F) S128x128 .f32)), { LS0 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc1__pool_kernel i arg2 harg2 arg3 harg3 arg4 harg4 arg5 harg5) K } := by
  refine ⟨?_, ?_, fun E K => ?run⟩
  case run =>
    simp only [cc1__pool_kernel_eq_skeleton]; unfold cc1__pool_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KernelIdeal.Region1.lean ====
/-
  Region 1 as a pipeline with its proof data: what each case of the body leaves in the output block and in the
  accumulator, the contents of both after every grid point (by recursion on the point: a point that is not a first
  feature tile starts from what the point before left in the accumulator), the region's invariant (the accumulator at
  those contents, the untouched scoped buffers, the generator register), and the body's obligation at every point.
-/
import proofs.«157227_j70145405878420_1_alg».proof.Proof.KernelIdeal.Rest1
import proofs.«157227_j70145405878420_1_alg».proof.Proof.KernelIdeal.Run1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- First feature tile: the output block is not stored into (a placeholder nothing reads). -/
def outR1_A_2 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 : Vec F S128x128 .f32) (x1 : Vec F S128x128 .f32) : Vec F S128x128 .f32 :=
  VOR1_2.read (Elt F) (VOR1_2.writes (Elt F) VOR1_2.junk (kernelRunR1_A c i arg2 harg2 arg3 harg3 arg4 harg4 arg5 harg5 hc0 hc1 x0 x1).1)

/-- First feature tile: the stores into the accumulator cover it. -/
theorem scoverR1_A_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 : Vec F S128x128 .f32) (x1 : Vec F S128x128 .f32) (y : S128x128.Idx) :
    ∃ pc ∈ (kernelRunR1_A c i arg2 harg2 arg3 harg3 arg4 harg4 arg5 harg5 hc0 hc1 x0 x1).2.1, y ∈ pc.1.set :=
  View.cover_of_tiledL (kernelRunR1_A c i arg2 harg2 arg3 harg3 arg4 harg4 arg5 harg5 hc0 hc1 x0 x1).2.1 S128x128.size (by sl_kernel_rfl) y

/-- First feature tile: what the accumulator holds afterwards. -/
def soutR1_A_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 : Vec F S128x128 .f32) (x1 : Vec F S128x128 .f32) : Vec F S128x128 .f32 :=
  VSR1_0.read (Elt F) (VSR1_0.writes (Elt F) VSR1_0.junk (kernelRunR1_A c i arg2 harg2 arg3 harg3 arg4 harg4 arg5 harg5 hc0 hc1 x0 x1).2.1)

/-- A middle feature tile: the output block is not stored into (a placeholder nothing reads). -/
def outR1_B_2 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 : Vec F S128x128 .f32) (x1 : Vec F S128x128 .f32) (xs0 : Vec F S128x128 .f32) : Vec F S128x128 .f32 :=
  VOR1_2.read (Elt F) (VOR1_2.writes (Elt F) VOR1_2.junk (kernelRunR1_B c i arg2 harg2 arg3 harg3 arg4 harg4 arg5 harg5 hc0 hc1 x0 x1 xs0).1)

theorem scoverR1_B_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 : Vec F S128x128 .f32) (x1 : Vec F S128x128 .f32) (xs0 : Vec F S128x128 .f32) (y : S128x128.Idx) :
    ∃ pc ∈ (kernelRunR1_B c i arg2 harg2 arg3 harg3 arg4 harg4 arg5 harg5 hc0 hc1 x0 x1 xs0).2.1, y ∈ pc.1.set :=
  View.cover_of_tiledL (kernelRunR1_B c i arg2 harg2 arg3 harg3 arg4 harg4 arg5 harg5 hc0 hc1 x0 x1 xs0).2.1 S128x128.size (by sl_kernel_rfl) y

/-- A middle feature tile: what the accumulator holds afterwards, from what it held before (xs0). -/
def soutR1_B_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 : Vec F S128x128 .f32) (x1 : Vec F S128x128 .f32) (xs0 : Vec F S128x128 .f32) : Vec F S128x128 .f32 :=
  VSR1_0.read (Elt F) (VSR1_0.writes (Elt F) VSR1_0.junk (kernelRunR1_B c i arg2 harg2 arg3 harg3 arg4 harg4 arg5 harg5 hc0 hc1 x0 x1 xs0).2.1)

/-- Last feature tile: the one store into the output block covers it. -/
theorem coverR1_C_2 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) (y : S128x128.Idx) :
    ∃ pc ∈ (kernelRunR1_C c i arg2 harg2 arg3 harg3 arg4 harg4 arg5 harg5 hc0 hc1 x0 x1 xs0).1, y ∈ pc.1.set :=
  View.cover_of_tiledL (kernelRunR1_C c i arg2 harg2 arg3 harg3 arg4 harg4 arg5 harg5 hc0 hc1 x0 x1 xs0).1 S128x128.size (by sl_kernel_rfl) y

/-- Last feature tile: what the output block holds afterwards. -/
def outR1_C_2 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) : Vec F S128x128 .f32 :=
  VOR1_2.read (Elt F) (VOR1_2.writes (Elt F) VOR1_2.junk (kernelRunR1_C c i arg2 harg2 arg3 harg3 arg4 harg4 arg5 harg5 hc0 hc1 x0 x1 xs0).1)

theorem scoverR1_C_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) (y : S128x128.Idx) :
    ∃ pc ∈ (kernelRunR1_C c i arg2 harg2 arg3 harg3 arg4 harg4 arg5 harg5 hc0 hc1 x0 x1 xs0).2.1, y ∈ pc.1.set :=
  View.cover_of_tiledL (kernelRunR1_C c i arg2 harg2 arg3 harg3 arg4 harg4 arg5 harg5 hc0 hc1 x0 x1 xs0).2.1 S128x128.size (by sl_kernel_rfl) y

/-- Last feature tile: what the accumulator holds afterwards. -/
def soutR1_C_0 (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 : Vec F S128x128 .f32) (x1 : Vec F S128x128 .f32) (xs0 : Vec F S128x128 .f32) : Vec F S128x128 .f32 :=
  VSR1_0.read (Elt F) (VSR1_0.writes (Elt F) VSR1_0.junk (kernelRunR1_C c i arg2 harg2 arg3 harg3 arg4 harg4 arg5 harg5 hc0 hc1 x0 x1 xs0).2.1)

/-! ## The contents after each point -/

/-- The output block (first component) and the accumulator (second) after the body at position n. -/
def outsAtR1 (c : Dev nD) : (n : ℕ) → n < cfg1.N → Vec F S128x128 .f32 × Vec F S128x128 .f32
  | 0, hn => (outR1_A_2 c (grid1.coords ⟨0, hn⟩) (msR1_0 ⟨0, hn⟩) (hsR1_0 ⟨0, hn⟩) (msR1_1 ⟨0, hn⟩) (hsR1_1 ⟨0, hn⟩) (msR1_2 ⟨0, hn⟩) (hsR1_2 ⟨0, hn⟩) scMR1_0 (Memref.isWhole_whole _) ((hcondR1_0 ⟨0, hn⟩).mpr (Nat.zero_mod _)) (fun h => (fun h => by (try dsimp only at h); omega) ((hcondR1_1 ⟨0, hn⟩).mp h)) (iblkR1 V c 0 ⟨0, hn⟩) (iblkR1 V c 1 ⟨0, hn⟩), soutR1_A_0 c (grid1.coords ⟨0, hn⟩) (msR1_0 ⟨0, hn⟩) (hsR1_0 ⟨0, hn⟩) (msR1_1 ⟨0, hn⟩) (hsR1_1 ⟨0, hn⟩) (msR1_2 ⟨0, hn⟩) (hsR1_2 ⟨0, hn⟩) scMR1_0 (Memref.isWhole_whole _) ((hcondR1_0 ⟨0, hn⟩).mpr (Nat.zero_mod _)) (fun h => (fun h => by (try dsimp only at h); omega) ((hcondR1_1 ⟨0, hn⟩).mp h)) (iblkR1 V c 0 ⟨0, hn⟩) (iblkR1 V c 1 ⟨0, hn⟩))
  | n + 1, hn =>
    if h0 : (n + 1) % 4 = 0 then
      if h1 : (n + 1) % 4 = 3 then
        False.elim (by omega)
      else
        (outR1_A_2 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) ((hcondR1_0 ⟨n + 1, hn⟩).mpr h0) (fun h => h1 ((hcondR1_1 ⟨n + 1, hn⟩).mp h)) (iblkR1 V c 0 ⟨n + 1, hn⟩) (iblkR1 V c 1 ⟨n + 1, hn⟩), soutR1_A_0 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) ((hcondR1_0 ⟨n + 1, hn⟩).mpr h0) (fun h => h1 ((hcondR1_1 ⟨n + 1, hn⟩).mp h)) (iblkR1 V c 0 ⟨n + 1, hn⟩) (iblkR1 V c 1 ⟨n + 1, hn⟩))
    else
      if h1 : (n + 1) % 4 = 3 then
        (outR1_C_2 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) (fun h => h0 ((hcondR1_0 ⟨n + 1, hn⟩).mp h)) ((hcondR1_1 ⟨n + 1, hn⟩).mpr h1) (iblkR1 V c 0 ⟨n + 1, hn⟩) (iblkR1 V c 1 ⟨n + 1, hn⟩) (outsAtR1 c n (Nat.lt_of_succ_lt hn)).2, soutR1_C_0 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) (fun h => h0 ((hcondR1_0 ⟨n + 1, hn⟩).mp h)) ((hcondR1_1 ⟨n + 1, hn⟩).mpr h1) (iblkR1 V c 0 ⟨n + 1, hn⟩) (iblkR1 V c 1 ⟨n + 1, hn⟩) (outsAtR1 c n (Nat.lt_of_succ_lt hn)).2)
      else
        (outR1_B_2 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) (fun h => h0 ((hcondR1_0 ⟨n + 1, hn⟩).mp h)) (fun h => h1 ((hcondR1_1 ⟨n + 1, hn⟩).mp h)) (iblkR1 V c 0 ⟨n + 1, hn⟩) (iblkR1 V c 1 ⟨n + 1, hn⟩) (outsAtR1 c n (Nat.lt_of_succ_lt hn)).2, soutR1_B_0 c (grid1.coords ⟨n + 1, hn⟩) (msR1_0 ⟨n + 1, hn⟩) (hsR1_0 ⟨n + 1, hn⟩) (msR1_1 ⟨n + 1, hn⟩) (hsR1_1 ⟨n + 1, hn⟩) (msR1_2 ⟨n + 1, hn⟩) (hsR1_2 ⟨n + 1, hn⟩) scMR1_0 (Memref.isWhole_whole _) (fun h => h0 ((hcondR1_0 ⟨n + 1, hn⟩).mp h)) (fun h => h1 ((hcondR1_1 ⟨n + 1, hn⟩).mp h)) (iblkR1 V c 0 ⟨n + 1, hn⟩) (iblkR1 V c 1 ⟨n + 1, hn⟩) (outsAtR1 c n (Nat.lt_of_succ_lt hn)).2)

theorem outsAtR1_A (c : Dev nD) (t : Fin cfg1.N) (h0 : t.val % 4 = 0) (h1 : ¬t.val % 4 = 3) :
    outsAtR1 V c t.val t.isLt = (outR1_A_2 c (grid1.coords t) (msR1_0 t) (hsR1_0 t) (msR1_1 t) (hsR1_1 t) (msR1_2 t) (hsR1_2 t) scMR1_0 (Memref.isWhole_whole _) ((hcondR1_0 t).mpr h0) (fun h => h1 ((hcondR1_1 t).mp h)) (iblkR1 V c 0 t) (iblkR1 V c 1 t), soutR1_A_0 c (grid1.coords t) (msR1_0 t) (hsR1_0 t) (msR1_1 t) (hsR1_1 t) (msR1_2 t) (hsR1_2 t) scMR1_0 (Memref.isWhole_whole _) ((hcondR1_0 t).mpr h0) (fun h => h1 ((hcondR1_1 t).mp h)) (iblkR1 V c 0 t) (iblkR1 V c 1 t)) := by
  obtain ⟨n, hn⟩ := t
  cases n with
  | zero => exact rfl
  | succ n => exact (dif_pos h0).trans ((dif_neg h1).trans rfl)

theorem outsAtR1_B (c : Dev nD) (t : Fin cfg1.N) (h0 : ¬t.val % 4 = 0) (h1 : ¬t.val % 4 = 3) :
    outsAtR1 V c t.val t.isLt = (outR1_B_2 c (grid1.coords t) (msR1_0 t) (hsR1_0 t) (msR1_1 t) (hsR1_1 t) (msR1_2 t) (hsR1_2 t) scMR1_0 (Memref.isWhole_whole _) (fun h => h0 ((hcondR1_0 t).mp h)) (fun h => h1 ((hcondR1_1 t).mp h)) (iblkR1 V c 0 t) (iblkR1 V c 1 t) (outsAtR1 V c (t.val - 1) (Nat.lt_of_le_of_lt (Nat.sub_le _ _) t.isLt)).2, soutR1_B_0 c (grid1.coords t) (msR1_0 t) (hsR1_0 t) (msR1_1 t) (hsR1_1 t) (msR1_2 t) (hsR1_2 t) scMR1_0 (Memref.isWhole_whole _) (fun h => h0 ((hcondR1_0 t).mp h)) (fun h => h1 ((hcondR1_1 t).mp h)) (iblkR1 V c 0 t) (iblkR1 V c 1 t) (outsAtR1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAtR1_C (c : Dev nD) (t : Fin cfg1.N) (h0 : ¬t.val % 4 = 0) (h1 : t.val % 4 = 3) :
    outsAtR1 V c t.val t.isLt = (outR1_C_2 c (grid1.coords t) (msR1_0 t) (hsR1_0 t) (msR1_1 t) (hsR1_1 t) (msR1_2 t) (hsR1_2 t) scMR1_0 (Memref.isWhole_whole _) (fun h => h0 ((hcondR1_0 t).mp h)) ((hcondR1_1 t).mpr h1) (iblkR1 V c 0 t) (iblkR1 V c 1 t) (outsAtR1 V c (t.val - 1) (Nat.lt_of_le_of_lt (Nat.sub_le _ _) t.isLt)).2, soutR1_C_0 c (grid1.coords t) (msR1_0 t) (hsR1_0 t) (msR1_1 t) (hsR1_1 t) (msR1_2 t) (hsR1_2 t) scMR1_0 (Memref.isWhole_whole _) (fun h => h0 ((hcondR1_0 t).mp h)) ((hcondR1_1 t).mpr h1) (iblkR1 V c 0 t) (iblkR1 V c 1 t) (outsAtR1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position n: the accumulator at what the point before left (at anything before the first point), the scoped
    buffers the region never touches, the generator register at some state. -/
def PhiSR1 (c : Dev nD) : (n : ℕ) → n ≤ cfg1.N → sProp 𝕄
  | 0, _ => iprop(iprop((∃ d, owns (c : Thread nD τ) scMR1_0 fullShare d) ∗ otherR1 c) ∗ (∃ r, prngReg c r))
  | n + 1, hn => iprop(iprop(owns (c : Thread nD τ) scMR1_0 fullShare ((outsAtR1 V c n hn).2) ∗ otherR1 c) ∗ (∃ r, prngReg c r))

theorem PhiSR1_zero (c : Dev nD) (n : ℕ) (h : n ≤ cfg1.N) (hz : n = 0) :
    PhiSR1 V c n h = iprop(iprop((∃ d, owns (c : Thread nD τ) scMR1_0 fullShare d) ∗ otherR1 c) ∗ (∃ r, prngReg c r)) := by
  subst hz; rfl

theorem PhiSR1_succ (c : Dev nD) (n : ℕ) (hn : n < cfg1.N) :
    PhiSR1 V c (n + 1) hn = iprop(iprop(owns (c : Thread nD τ) scMR1_0 fullShare ((outsAtR1 V c n hn).2) ∗ otherR1 c) ∗ (∃ r, prngReg c r)) := rfl

theorem PhiSR1_pos (c : Dev nD) (n : ℕ) (h : n ≤ cfg1.N) (hz : n ≠ 0) :
    PhiSR1 V c n h = iprop(iprop(owns (c : Thread nD τ) scMR1_0 fullShare ((outsAtR1 V c (n - 1) (by omega)).2) ∗ otherR1 c) ∗ (∃ r, prngReg c r)) := by
  cases n with
  | zero => exact absurd rfl hz
  | succ n => rfl

/-! ## The proof data -/

def datR1 (c : Dev nD) : Dat τ (Elt F) Unit ℕ (UR sig nD τ) ℕ cfg1 c where
  A w := V c (Pipeline.arrRef spec1 w)
  after w t := match w with
    | ⟨0, _⟩ => iblkR1 V c 0 t
    | ⟨1, _⟩ => iblkR1 V c 1 t
    | ⟨2, _⟩ => (outsAtR1 V c t.val t.isLt).1
  Φ t := PhiSR1 V c t.val (Nat.le_of_lt_succ t.isLt)
  q _ := fullShare
  owed _ := 0

theorem A_eqR1 (c : Dev nD) (w : Fin cfg1.W) : (datR1 V c).A w = V c (Pipeline.arrRef spec1 w) := by
  dsimp only [datR1]

theorem PhiSR1_castSucc (c : Dev nD) (t : Fin cfg1.N) :
    (datR1 V c).Φ t.castSucc = PhiSR1 V c t.val (Nat.le_of_lt t.isLt) := by
  dsimp only [datR1]; simp only [Fin.coe_castSucc]

theorem afterR1_0 (c : Dev nD) (t : Fin cfg1.N) : (datR1 V c).after 0 t = iblkR1 V c 0 t := by dsimp only [datR1]
theorem afterR1_1 (c : Dev nD) (t : Fin cfg1.N) : (datR1 V c).after 1 t = iblkR1 V c 1 t := by dsimp only [datR1]
theorem afterR1_2 (c : Dev nD) (t : Fin cfg1.N) : (datR1 V c).after 2 t = (outsAtR1 V c t.val t.isLt).1 := by dsimp only [datR1]

theorem beforeR1_0 (c : Dev nD) (t : Fin cfg1.N) (d) : (datR1 V c).before 0 t d = iblkR1 V c 0 t :=
  beforeR1_0_of V (datR1 V c) (A_eqR1 V c 0) (afterR1_0 V c) t d
theorem beforeR1_1 (c : Dev nD) (t : Fin cfg1.N) (d) : (datR1 V c).before 1 t d = iblkR1 V c 1 t :=
  beforeR1_1_of V (datR1 V c) (A_eqR1 V c 1) (afterR1_1 V c) t d

/-! ## The body obligation -/

def bodyPreR1 (c : Dev nD) (t : Fin cfg1.N) : sProp 𝕄 :=
  iprop((datR1 V c).Φ t.castSucc ∗ (datR1 V c).owesAt () t.castSucc
    ∗ (∃ d, owns (c : Thread nD τ) (msR1_0 t) fullShare ((datR1 V c).before 0 t d))
    ∗ (∃ d, owns (c : Thread nD τ) (msR1_1 t) fullShare ((datR1 V c).before 1 t d))
    ∗ (∃ d, owns (c : Thread nD τ) (msR1_2 t) fullShare ((datR1 V c).before 2 t d)))

def bodyPostR1 (c : Dev nD) (t : Fin cfg1.N) : sProp 𝕄 :=
  iprop((datR1 V c).Φ t.succ ∗ (datR1 V c).owesAt () t.succ
    ∗ (datR1 V c).leavesExact 0 t
    ∗ (datR1 V c).leavesExact 1 t
    ∗ (datR1 V c).leavesExact 2 t)

set_option maxHeartbeats 4800000 in
/-- The body at any point: the closed forms say which case the point is in; the invariant hands the run the accumulator
    at what the point before left (at anything at the first point) and takes it back at this point's contents. -/
theorem sound_bodyR1 (c : Dev nD) (t : Fin cfg1.N) :
    bodyPreR1 V c t ⊢ wp frame (wpE (defs₀ (F := F)) Variants.none c none) Set.univ (bodyAt1 t) (fun _ => bodyPostR1 V c t) := by
  unfold bodyPreR1 bodyPostR1 bodyAt1
  simp only [beforeR1_0, beforeR1_1]
  rw [show (datR1 V c).owesAt () t.succ = (datR1 V c).owesAt () t.castSucc from rfl]
  rw [show (datR1 V c).Φ t.succ = PhiSR1 V c (t.val + 1) t.isLt from rfl, PhiSR1_succ]
  have hN : t.val < 64 := lt_of_lt_of_eq t.isLt (show cfg1.N = 64 from N_1)
  rw [show (datR1 V c).leavesExact 0 t = owns (c : Thread nD τ) (msR1_0 t) fullShare ((datR1 V c).after 0 t) from by
    unfold Dat.leavesExact; rw [liveAtR1_0 t], afterR1_0]
  rw [show (datR1 V c).leavesExact 1 t = owns (c : Thread nD τ) (msR1_1 t) fullShare ((datR1 V c).after 1 t) from by
    unfold Dat.leavesExact; rw [liveAtR1_1 t], afterR1_1]
  by_cases h0 : t.val % 4 = 0
  · by_cases h1 : t.val % 4 = 3
    · exfalso; omega
    · rw [Dat.leavesExact_idle (datR1 V c) 2 t (idleAtR1_2_A t ((hcondR1_0 t).mpr h0) (fun h => h1 ((hcondR1_1 t).mp h))) (noFlushR1_2_A t ((hcondR1_0 t).mpr h0) (fun h => h1 ((hcondR1_1 t).mp h)))]
      rw [outsAtR1_A V c t h0 h1]
      unfold soutR1_A_0; (try dsimp only)
      by_cases hz : t.val = 0
      · rw [PhiSR1_castSucc V c t, PhiSR1_zero V c _ _ hz]
        iintro ⟨⟨⟨HS0, Hoth⟩, Hg⟩, Ho, ⟨%d0, H0⟩, ⟨%d1, H1⟩, ⟨%d2, H2⟩⟩
        iapply ((kernelRunR1_A c (grid1.coords t) _ _ _ _ _ _ _ _ ((hcondR1_0 t).mpr h0) (fun h => h1 ((hcondR1_1 t).mp h)) (iblkR1 V c 0 t) (iblkR1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverR1_A_0 c _ _ _ _ _ _ _ _ _ _ _ _ _)
            iexact Hoth
          iexact Hg
        isplitl [Ho]; · iexact Ho
        isplitl [H0]; · iexact H0
        isplitl [H1]; · iexact H1
        iexists _; iexact H2
      · rw [PhiSR1_castSucc V c t, PhiSR1_pos V c _ _ hz]
        iintro ⟨⟨⟨HS0, Hoth⟩, Hg⟩, Ho, ⟨%d0, H0⟩, ⟨%d1, H1⟩, ⟨%d2, H2⟩⟩
        iapply ((kernelRunR1_A c (grid1.coords t) _ _ _ _ _ _ _ _ ((hcondR1_0 t).mpr h0) (fun h => h1 ((hcondR1_1 t).mp h)) (iblkR1 V c 0 t) (iblkR1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scoverR1_A_0 c _ _ _ _ _ _ _ _ _ _ _ _ _)
            iexact Hoth
          iexact Hg
        isplitl [Ho]; · iexact Ho
        isplitl [H0]; · iexact H0
        isplitl [H1]; · iexact H1
        iexists _; iexact H2
  · have hz : t.val ≠ 0 := fun e => h0 (by rw [e])
    by_cases h1 : t.val % 4 = 3
    · rw [show (datR1 V c).leavesExact 2 t = owns (c : Thread nD τ) (msR1_2 t) fullShare ((datR1 V c).after 2 t) from by
        unfold Dat.leavesExact; rw [liveAtR1_2_C t (fun h => h0 ((hcondR1_0 t).mp h)) ((hcondR1_1 t).mpr h1)], afterR1_2]
      rw [outsAtR1_C V c t h0 h1]
      unfold outR1_C_2 soutR1_C_0; (try dsimp only)
      rw [PhiSR1_castSucc V c t, PhiSR1_pos V c _ _ hz]
      iintro ⟨⟨⟨HS0, Hoth⟩, Hg⟩, Ho, ⟨%d0, H0⟩, ⟨%d1, H1⟩, ⟨%d2, H2⟩⟩
      iapply ((kernelRunR1_C c (grid1.coords t) _ _ _ _ _ _ _ _ (fun h => h0 ((hcondR1_0 t).mp h)) ((hcondR1_1 t).mpr h1) (iblkR1 V c 0 t) (iblkR1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverR1_C_0 c _ _ _ _ _ _ _ _ _ _ _ _ _ _)
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (coverR1_C_2 c _ _ _ _ _ _ _ _ _ _ _ _ _ _)
    · rw [Dat.leavesExact_idle (datR1 V c) 2 t (idleAtR1_2_B t (fun h => h0 ((hcondR1_0 t).mp h)) (fun h => h1 ((hcondR1_1 t).mp h))) (noFlushR1_2_B t (fun h => h0 ((hcondR1_0 t).mp h)) (fun h => h1 ((hcondR1_1 t).mp h)))]
      rw [outsAtR1_B V c t h0 h1]
      unfold soutR1_B_0; (try dsimp only)
      rw [PhiSR1_castSucc V c t, PhiSR1_pos V c _ _ hz]
      iintro ⟨⟨⟨HS0, Hoth⟩, Hg⟩, Ho, ⟨%d0, H0⟩, ⟨%d1, H1⟩, ⟨%d2, H2⟩⟩
      iapply ((kernelRunR1_B c (grid1.coords t) _ _ _ _ _ _ _ _ (fun h => h0 ((hcondR1_0 t).mp h)) (fun h => h1 ((hcondR1_1 t).mp h)) (iblkR1 V c 0 t) (iblkR1 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scoverR1_B_0 c _ _ _ _ _ _ _ _ _ _ _ _ _ _)
          iexact Hoth
        iexact Hg
      isplitl [Ho]; · iexact Ho
      isplitl [H0]; · iexact H0
      isplitl [H1]; · iexact H1
      iexists _; iexact H2

theorem body_obligationR1 (c : Dev nD) : BodyObligation (datR1 (F := F) V c) (defs₀ (F := F)) Variants.none () Set.univ := fun t => by
  rw [bigSep_W1, bigSep_W1]
  exact sound_bodyR1 V c t

/-! ## Into the invariant and out of it -/

/-- What the region's entry hands over (the generator register, the scoped buffers no window stages) is the invariant
    before the first point. -/
theorem PhiR1_in (c : Dev nD) :
    iprop((∃ r, prngReg c r) ∗ (Pipeline.scopedRest (Ix := Unit) (Name := ℕ) (U := UR sig nD τ) (Lvl := ℕ) (Val := Elt F) spec1 c : sProp 𝕄))
      ⊢ (datR1 V c).Φ 0 := by
  rw [show (datR1 V c).Φ 0 = PhiSR1 V c 0 (Nat.zero_le _) from rfl, PhiSR1_zero V c 0 _ rfl]
  iintro ⟨Hp, Hr⟩
  ihave Hr' := (restR1_open c) $$ Hr
  isplitl [Hr']; · iexact Hr'
  iexact Hp

/-- After the last point the invariant gives them back: the accumulator's contents are forgotten. -/
theorem PhiR1_out (c : Dev nD) :
    (datR1 V c).Φ (Fin.last cfg1.N)
      ⊢ iprop((∃ r, prngReg c r) ∗ (Pipeline.scopedRest (Ix := Unit) (Name := ℕ) (U := UR sig nD τ) (Lvl := ℕ) (Val := Elt F) spec1 c : sProp 𝕄)) := by
  rw [show (datR1 V c).Φ (Fin.last cfg1.N) = PhiSR1 V c (Fin.last cfg1.N).val (Nat.le_of_lt_succ (Fin.last cfg1.N).isLt) from rfl,
    PhiSR1_pos V c _ _ (by rw [Fin.val_last]; have : cfg1.N = 64 := N_1; omega)]
  iintro ⟨⟨HS0, Hoth⟩, Hg⟩
  isplitl [Hg]; · iexact Hg
  iapply (restR1_close c)
  isplitl [HS0]; · iexists _; iexact HS0
  iexact Hoth

end Cert.KernelIdeal.Fr

end
-- ==== Proof.KernelIdeal.Launch.lean ====
/-
  The whole program as a run of four segments: the host stretch that transposes w and cuts it in two, the max half's
  region, the min half's region, and the host stretch that joins the two results.

  The contents of the core's unscoped buffers at each boundary are a fold from the launch memory: a host stretch
  applies its operations; a region leaves its arrays at what its write-backs leave and every other buffer as it was.
  The run's post says that every unscoped buffer ends at the last boundary's contents, from which both the frame claim
  (the arguments end as launched) and the value of the result are read.
-/
import proofs.«157227_j70145405878420_1_alg».proof.Proof.KernelIdeal.Region0
import proofs.«157227_j70145405878420_1_alg».proof.Proof.KernelIdeal.Region1

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 (c : Dev nD) : Valuation τ sig (Elt F) := fun b => m (c, b)
/-- After the first host stretch (region 0's entry). -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit. -/
def W2 (c : Dev nD) : Valuation τ sig (Elt F) :=
  Pipeline.withArrays spec0 c (W1 m c) fun w => (datR0 (V1 m) c).arrAt w cfg0.N
theorem W2_arr (c : Dev nD) (w : Fin cfg0.W) :
    W2 m c (Proc.devRef .tc (Pipeline.arrRef spec0 w)) = (datR0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (datR0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- At region 1's exit (no host operation stands between the two regions). -/
def W3 (c : Dev nD) : Valuation τ sig (Elt F) :=
  Pipeline.withArrays spec1 c (W2 m c) fun w => (datR1 (V2 m) c).arrAt w cfg1.N
theorem W3_arr (c : Dev nD) (w : Fin cfg1.W) :
    W3 m c (Proc.devRef .tc (Pipeline.arrRef spec1 w)) = (datR1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (datR1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the last host stretch: the end. -/
abbrev W4 (c : Dev nD) : Valuation τ sig (Elt F) := StableHlo.after hostOps2 (W3 m c)

/-! ## The arguments end as launched -/

/-- x is an input window's array of both regions and no host operation writes it. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg0) := (W3_arr m c 0).trans (((datR1 (V2 m) c).arrAt_in 0 rfl _).trans (A_eqR1 (V2 m) c 0))
    _ = W1 m c (Proc.devRef .tc main_arg0) := (W2_arr m c 0).trans (((datR0 (V1 m) c).arrAt_in 0 rfl _).trans (A_eqR0 (V1 m) c 0))
    _ = W0 m c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

/-- w is no window's array of either region and no host operation writes it. -/
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => datR0 (V1 m) c
  | ⟨1, _⟩ => fun c => datR1 (V2 m) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh : (hostOps0 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the generator register and the owes: every unscoped buffer at the end's contents. -/
abbrev Tₙ (c : Dev nD) : sProp 𝕄 := StableHlo.held (c : Thread nD τ) (Pipeline.ucRefs τ sig) (W4 m c)

/-! ## The regions as segments -/

set_option backward.isDefEq.respectTransparency.types false in
/-- Region 0 over the thread state: entered with every unscoped buffer at the boundary's contents, left with the
    region's arrays at what its write-backs leave and every other buffer as entered; the generator register and the
    scoped buffers no window stages go into the invariant and come back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligationR0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (datR0 (V1 m) c).Φ 0 from rfl]
    iintro ⟨Hp, -, Hr⟩
    iapply (PhiR0_in (V1 m) c)
    isplitl [Hp]; · iexact Hp
    iexact Hr
  hout c := by
    rw [Pipeline.ownSems0_none, show (pdats m 0 c).Φ (Fin.last _) = (datR0 (V1 m) c).Φ (Fin.last cfg0.N) from rfl]
    iintro H
    ihave H' := (PhiR0_out (V1 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the boundary's contents, left with the
    region's arrays at what its write-backs leave and every other buffer as entered; the generator register and the
    scoped buffers no window stages go into the invariant and come back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligationR1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (datR1 (V2 m) c).Φ 0 from rfl]
    iintro ⟨Hp, -, Hr⟩
    iapply (PhiR1_in (V2 m) c)
    isplitl [Hp]; · iexact Hp
    iexact Hr
  hout c := by
    rw [Pipeline.ownSems0_none, show (pdats m 1 c).Φ (Fin.last _) = (datR1 (V2 m) c).Φ (Fin.last cfg1.N) from rfl]
    iintro H
    ihave H' := (PhiR1_out (V2 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]

theorem main_run (c : Dev nD) : main (F := F) c = Pipeline.Seg.run (segs m) := (main_chain c).trans (by chain_rfl)

set_option backward.isDefEq.respectTransparency.types false in
/-- From any memory with zero counters every weakly fair execution of @main terminates, nothing faulting, and every
    unscoped buffer of every core ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨Hh, HSI⟩
      unfold Tₙ StableHlo.held
      imodintro
      iapply (pointsTo_read_all (Pipeline.ucRefs τ sig) (fun b => (((c : Thread nD τ)).1, b)) (W4 m c) s')
      isplitl [Hh] <;> iassumption)
    (hQ := fun s h c => h c)

/-- The frame claim at any instance: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m c),
     (h c _ (mem_uc main_arg1 (by decide))).trans (W4_main_arg1 m c)⟩) (run_all m ρ)

end Cert.KernelIdeal.Fr

end
-- ==== Proof.Spec.lean ====
/-
  The mathematics both programs compute, stated once over the argument arrays.

  For x : [2048, 512] and w : [512, 256] the result at (r, u) is, for u < 128, the maximum over the 512 features f of
  x[r, f] + w[f, u], taken from -inf; for u ≥ 128 the minimum of the same sums, taken from +inf (a max-plus / min-plus
  product). The two infinities are kept as the words the programs print; neither is ever evaluated.

  The kernel reaches a row's extremum tile by tile: it starts an accumulator at the infinity and, for each of the four
  tiles of 128 features, replaces it by its extremum with the tile's own. `fold_tiles` says that this is the fold over
  all 512 features, for any commutative, associative, idempotent operation; the proof is by the universal property of
  a maximum (a minimum is the maximum of the order dual).
-/
import Idealize.ShloMosaic.PureOps.Ideal.Laws
import Idealize.ShloMosaic.Lib.ValueIdx

noncomputable section

namespace Cert.Spec

open Idealize.ShloMosaic Idealize.ShloMosaic.ValueIdx

/-- The printed -inf and +inf. -/
abbrev negInf : Ideal .f32 := Ideal.ofBits .f32 0xFF800000#32
abbrev posInf : Ideal .f32 := Ideal.ofBits .f32 0x7F800000#32

abbrev SX : Shape := ⟨2, ![2048, 512]⟩
abbrev SW : Shape := ⟨2, ![512, 256]⟩
abbrev SO : Shape := ⟨2, ![2048, 256]⟩

/-- The sums a result entry ranges over: feature f of row r against column u. -/
def term (x : SX.Idx → Ideal .f32) (w : SW.Idx → Ideal .f32) (r : Fin 2048) (u : Fin 256) (f : Fin 512) : Ideal .f32 :=
  x (ix2 r f) + w (ix2 f u)

/-- The max-plus half (columns below 128) and the min-plus half (the others). -/
def pool (x : SX.Idx → Ideal .f32) (w : SW.Idx → Ideal .f32) : SO.Idx → Ideal .f32 := fun j =>
  if (j 1).val < 128 then (Finset.univ : Finset (Fin 512)).fold max negInf (term x w (j 0) (j 1))
  else (Finset.univ : Finset (Fin 512)).fold min posInf (term x w (j 0) (j 1))

section Tiles

variable {α : Type} [LinearOrder α]

/-- The extremum over the features below n. -/
def maxBelow (b : α) (g : Fin 512 → α) (n : ℕ) : α := (Finset.univ.filter fun f : Fin 512 => f.val < n).fold max b g
def minBelow (b : α) (g : Fin 512 → α) (n : ℕ) : α := (Finset.univ.filter fun f : Fin 512 => f.val < n).fold min b g

theorem maxBelow_zero (b : α) (g : Fin 512 → α) : maxBelow b g 0 = b := by
  unfold maxBelow
  rw [show (Finset.univ.filter fun f : Fin 512 => f.val < 0) = ∅ from Finset.filter_false_of_mem (fun f _ => Nat.not_lt_zero _)]
  exact Finset.fold_empty
theorem minBelow_zero (b : α) (g : Fin 512 → α) : minBelow b g 0 = b := by
  unfold minBelow
  rw [show (Finset.univ.filter fun f : Fin 512 => f.val < 0) = ∅ from Finset.filter_false_of_mem (fun f _ => Nat.not_lt_zero _)]
  exact Finset.fold_empty

theorem maxBelow_all (b : α) (g : Fin 512 → α) : maxBelow b g 512 = (Finset.univ : Finset (Fin 512)).fold max b g := by
  unfold maxBelow
  rw [Finset.filter_true_of_mem (fun f _ => f.isLt)]
theorem minBelow_all (b : α) (g : Fin 512 → α) : minBelow b g 512 = (Finset.univ : Finset (Fin 512)).fold min b g := by
  unfold minBelow
  rw [Finset.filter_true_of_mem (fun f _ => f.isLt)]

/-- One tile more: the extremum below 128 (j + 1) is the extremum below 128 j joined with tile j's own, whatever value
    `b'` the tile's own fold starts from, as long as it is no larger than the running one can see (here: b itself). -/
theorem maxBelow_tile (b : α) (g : Fin 512 → α) (j : ℕ) (hj : j < 4) (tile : Fin 128 → α)
    (htile : ∀ k : Fin 128, tile k = g ⟨128 * j + k.val, by omega⟩) :
    max (maxBelow b g (128 * j)) ((Finset.univ : Finset (Fin 128)).fold max b tile) = maxBelow b g (128 * (j + 1)) := by
  refine eq_of_forall_ge_iff fun c => ?_
  unfold maxBelow
  simp only [max_le_iff, Finset.fold_max_le, Finset.mem_filter, Finset.mem_univ, true_and]
  constructor
  · rintro ⟨⟨hb, h1⟩, -, h2⟩
    refine ⟨hb, fun f hf => ?_⟩
    by_cases hlt : f.val < 128 * j
    · exact h1 f hlt
    · have := h2 ⟨f.val - 128 * j, by omega⟩
      rw [htile] at this
      have e : (⟨128 * j + (f.val - 128 * j), by omega⟩ : Fin 512) = f := Fin.ext (by show 128 * j + (f.val - 128 * j) = f.val; omega)
      rw [e] at this
      exact this trivial
  · rintro ⟨hb, h⟩
    exact ⟨⟨hb, fun f hf => h f (by omega)⟩, hb, fun k _ => by rw [htile]; exact h _ (by show 128 * j + k.val < 128 * (j + 1); omega)⟩

theorem minBelow_tile (b : α) (g : Fin 512 → α) (j : ℕ) (hj : j < 4) (tile : Fin 128 → α)
    (htile : ∀ k : Fin 128, tile k = g ⟨128 * j + k.val, by omega⟩) :
    min (minBelow b g (128 * j)) ((Finset.univ : Finset (Fin 128)).fold min b tile) = minBelow b g (128 * (j + 1)) := by
  refine eq_of_forall_le_iff fun c => ?_
  unfold minBelow
  simp only [le_min_iff, Finset.le_fold_min, Finset.mem_filter, Finset.mem_univ, true_and]
  constructor
  · rintro ⟨⟨hb, h1⟩, -, h2⟩
    refine ⟨hb, fun f hf => ?_⟩
    by_cases hlt : f.val < 128 * j
    · exact h1 f hlt
    · have := h2 ⟨f.val - 128 * j, by omega⟩
      rw [htile] at this
      have e : (⟨128 * j + (f.val - 128 * j), by omega⟩ : Fin 512) = f := Fin.ext (by show 128 * j + (f.val - 128 * j) = f.val; omega)
      rw [e] at this
      exact this trivial
  · rintro ⟨hb, h⟩
    exact ⟨⟨hb, fun f hf => h f (by omega)⟩, hb, fun k _ => by rw [htile]; exact h _ (by show 128 * j + k.val < 128 * (j + 1); omega)⟩

end Tiles

end Cert.Spec

end
-- ==== Proof.Pay.lean ====
/-
  What one grid point's arithmetic computes, read at an entry.

  At a point the body has the x tile X : [128 rows, 128 features], the transposed w tile W : [128 units, 128 features]
  and the running accumulator A : [128 rows, 128 units]. It forms X[p, k] + W[q, k] for every row p, unit q and feature
  k of the tile, takes the extremum over k from the infinity, and joins that with A[p, q]. The first point of a row of
  the grid starts A at the infinity itself.
-/
import proofs.«157227_j70145405878420_1_alg».proof.Proof.Gen.KernelIdeal.Skeleton
import proofs.«157227_j70145405878420_1_alg».proof.Proof.Spec
import Idealize.ShloMosaic.PureOps.Ideal.Laws
import Idealize.ShloMosaic.Lib.ValueIdx
import Idealize.ShloMosaic.Lib.Pipeline.Value

noncomputable section

namespace Cert.KernelIdeal.Pay

open Idealize.ShloMosaic Idealize.ShloMosaic.ValueIdx Cert.KernelIdeal Cert.KernelIdeal.Gen

/-- The max half's accumulator starts at -inf everywhere. -/
theorem start_max (j : S128x128.Idx) : k0_pay1 (F := Ideal) j = Cert.Spec.negInf := by
  rfl

/-- The min half's accumulator starts at +inf everywhere. -/
theorem start_min (j : S128x128.Idx) : k1_pay1 (F := Ideal) j = Cert.Spec.posInf := by
  rfl

/-! ## The layout steps, each read at explicit coordinates -/

/-- [128, 128] viewed as [128, 1, 128]: entry (p, 0, k) is entry (p, k); both sit at row-major position 128 p + k. -/
private theorem castX (X : Vec Ideal S128x128 .f32) (p : Fin 128) (u : Fin 1) (k : Fin 128) :
    shapeCast S128x1x128 X shapeCasts_S128x128_S128x1x128 (ix3 p u k) = X (ix2 p k) :=
  shapeCast_apply X _ _ _ (by
    have hu : u.val = 0 := by omega
    rw [Shape.rowMajor_val_two, Shape.rowMajor_val_three]
    show p.val * 128 + k.val = (p.val * 1 + u.val) * 128 + k.val
    rw [hu]; omega)

/-- [128, 128] viewed as [1, 128, 128]: entry (0, q, k) is entry (q, k); both sit at row-major position 128 q + k. -/
private theorem castW (W : Vec Ideal S128x128 .f32) (u : Fin 1) (q : Fin 128) (k : Fin 128) :
    shapeCast S1x128x128 W shapeCasts_S128x128_S1x128x128 (ix3 u q k) = W (ix2 q k) :=
  shapeCast_apply W _ _ _ (by
    have hu : u.val = 0 := by omega
    rw [Shape.rowMajor_val_two, Shape.rowMajor_val_three]
    show q.val * 128 + k.val = (u.val * 128 + q.val) * 128 + k.val
    rw [hu]; omega)

/-- [128, 1, 128] repeated along its unit axis to [128, 128, 128]: entry (p, q, k) is the source's (p, 0, k). -/
private theorem bcX (V : FVec Ideal S128x1x128 .f32) (p q k : Fin 128) :
    broadcastTo S128x128x128 V broadcasts_S128x1x128_S128x128x128 (ix3 p q k) = V (ix3 p (0 : Fin 1) k) :=
  broadcastTo_apply V _ _ _ fun a => match a with
    | ⟨0, _⟩ => rfl | ⟨1, _⟩ => rfl | ⟨2, _⟩ => rfl

/-- [1, 128, 128] repeated along its unit axis to [128, 128, 128]: entry (p, q, k) is the source's (0, q, k). -/
private theorem bcW (V : FVec Ideal S1x128x128 .f32) (p q k : Fin 128) :
    broadcastTo S128x128x128 V broadcasts_S1x128x128_S128x128x128 (ix3 p q k) = V (ix3 (0 : Fin 1) q k) :=
  broadcastTo_apply V _ _ _ fun a => match a with
    | ⟨0, _⟩ => rfl | ⟨1, _⟩ => rfl | ⟨2, _⟩ => rfl

/-- The reduced entry (p, q) with the feature coordinate k put back on the last axis is (p, q, k). -/
private theorem lift_eq (p q k : Fin 128) :
    reduces_S128x128x128_S128x128.lift (ix2 p q) k = ix3 p q k := by
  funext a
  match a with
  | ⟨0, _⟩ => rfl
  | ⟨1, _⟩ => rfl
  | ⟨2, _⟩ => rfl

/-- The [128, 128, 128] array both reductions run over holds X[p, k] + W[q, k] at (p, q, k). -/
private theorem summand (X W : Vec Ideal S128x128 .f32) (p q k : Fin 128) :
    addf (F := Ideal) (φ := .f32)
        (broadcastTo S128x128x128 (shapeCast S128x1x128 X shapeCasts_S128x128_S128x1x128) broadcasts_S128x1x128_S128x128x128)
        (broadcastTo S128x128x128 (shapeCast S1x128x128 (shapeCast S128x128 W shapeCasts_S128x128_S128x128) shapeCasts_S128x128_S1x128x128) broadcasts_S1x128x128_S128x128x128)
      (ix3 p q k) = X (ix2 p k) + W (ix2 q k) := by
  rw [addf_apply, bcX, bcW, castX, shapeCast_self, castW]

/-- A minimum reduction over one axis, at the extended reals: the fold of `min` from the accumulator's value over that
    axis's coordinates (the indices dropping to j are exactly j with each coordinate of the axis inserted). -/
private theorem minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-! ## One grid point -/

/-- One point of the max half at (p, q): the accumulator joined with the tile's maximum of X[p, k] + W[q, k]. -/
theorem step_max (X W A : Vec Ideal S128x128 .f32) (p q : Fin 128) :
    k0_pay2 (F := Ideal) X W A (ix2 p q)
      = max (A (ix2 p q)) ((Finset.univ : Finset (Fin 128)).fold max Cert.Spec.negInf (fun k => X (ix2 p k) + W (ix2 q k))) := by
  unfold k0_pay2
  dsimp only
  rw [shapeCast_self, maximumf_apply]
  refine congrArg (max (A (ix2 p q))) ?_
  refine (Ideal.multiReduction_maximumf_single _ _ reduces_S128x128x128_S128x128 _ _ (ix2 p q)).trans ?_
  refine Finset.fold_congr fun (k : Fin 128) _ => ?_
  show _ = X (ix2 p k) + W (ix2 q k)
  have e := summand X W p q k
  rw [← lift_eq p q k] at e
  exact e

/-- One point of the min half at (p, q): the accumulator joined with the tile's minimum of X[p, k] + W[q, k]. -/
theorem step_min (X W A : Vec Ideal S128x128 .f32) (p q : Fin 128) :
    k1_pay2 (F := Ideal) X W A (ix2 p q)
      = min (A (ix2 p q)) ((Finset.univ : Finset (Fin 128)).fold min Cert.Spec.posInf (fun k => X (ix2 p k) + W (ix2 q k))) := by
  unfold k1_pay2
  dsimp only
  rw [shapeCast_self, minimumf_apply]
  refine congrArg (min (A (ix2 p q))) ?_
  refine (minimumf_single _ _ reduces_S128x128x128_S128x128 _ _ (ix2 p q)).trans ?_
  refine Finset.fold_congr fun (k : Fin 128) _ => ?_
  show _ = X (ix2 p k) + W (ix2 q k)
  have e := summand X W p q k
  rw [← lift_eq p q k] at e
  exact e

end Cert.KernelIdeal.Pay

end
-- ==== Proof.Value0.lean ====
/-
  Region 0's result, as values over the extended reals.

  Write X for the x array [2048, 512] and W for the region's cut of the transposed w [128 units, 512 features] as the
  region finds them. Point t works on row tile t / 4 and feature tile t % 4, and its blocks are
  X[128 (t/4) + p, 128 (t%4) + k] and W[q, 128 (t%4) + k]. The accumulator after point t holds, at (p, q), the maximum
  from -inf over the features below 128 (t%4 + 1) of X[128 (t/4) + p, f] + W[q, f]: at a first feature tile the reset
  value joined with the tile's own maximum, afterwards what the point before left joined with the tile's. At a last
  feature tile that is the maximum over all 512 features, which the body copies into the output block; the sixteen
  written-back blocks tile the result array, so row r, unit q of it is the maximum over f of X[r, f] + W[q, f].
-/
import proofs.«157227_j70145405878420_1_alg».proof.Proof.KernelIdeal.Region0
import proofs.«157227_j70145405878420_1_alg».proof.Proof.Pay
import proofs.«157227_j70145405878420_1_alg».proof.Proof.Spec
import Idealize.ShloMosaic.Lib.Pipeline.Value
import Idealize.ShloMosaic.Lib.ValueIdx

set_option maxRecDepth 16384

noncomputable section

namespace Cert.KernelIdeal.Val0

open Cert.KernelIdeal Cert.KernelIdeal.Gen Cert.KernelIdeal.Fr
open Idealize.ShloMosaic Idealize.ShloMosaic.TcCoe Idealize.ShloMosaic.Tactic Idealize.ShloMosaic.ValueIdx Idealize.SL.Sem
open Idealize.ShloMosaic.Pipeline (Dat)

theorem hz : (![0, 0] : Fin 2 → Nat) = fun _ => 0 := funext fun a => by fin_cases a <;> rfl

/-! ## What each case's stores leave, as the body's arithmetic of what it loaded -/

section Pieces

variable {F : FTy → Type} [FloatOps F]

theorem sout_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR0_0 i) (hc1 : ¬condR0_1 i)
    (x0 x1 : Vec F S128x128 .f32) :
    soutR0_A_0 c i arg2 harg2 arg3 harg3 arg4 harg4 arg5 harg5 hc0 hc1 x0 x1 = k0_pay2 x0 x1 k0_pay1 := by
  unfold soutR0_A_0
  rw [View.read_writes_eq_canon _ _ _ (scoverR0_A_0 c i arg2 harg2 arg3 harg3 arg4 harg4 arg5 harg5 hc0 hc1 x0 x1)]
  unfold kernelRunR0_A
  dsimp only
  sl_unfold_words
  rw [View.canon_cons_unit_zero (S := S128x128) hz, View.readCov_unit_zero (S := S128x128) _ hz]
  simp only [View.readAt_eq_ld, harg2.read_unread, harg3.read_unread, View.ld_unit_zero (S := S128x128) hz]

theorem sout_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : ¬condR0_1 i)
    (x0 x1 xs0 : Vec F S128x128 .f32) :
    soutR0_B_0 c i arg2 harg2 arg3 harg3 arg4 harg4 arg5 harg5 hc0 hc1 x0 x1 xs0 = k0_pay2 x0 x1 xs0 := by
  unfold soutR0_B_0
  rw [View.read_writes_eq_canon _ _ _ (scoverR0_B_0 c i arg2 harg2 arg3 harg3 arg4 harg4 arg5 harg5 hc0 hc1 x0 x1 xs0)]
  unfold kernelRunR0_B
  dsimp only
  sl_unfold_words
  rw [View.canon_unit_zero hz]
  simp only [View.readAt_eq_ld, harg2.read_unread, harg3.read_unread, harg5.read_unread, View.ld_unit_zero (S := S128x128) hz]

theorem sout_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 x1 xs0 : Vec F S128x128 .f32) :
    soutR0_C_0 c i arg2 harg2 arg3 harg3 arg4 harg4 arg5 harg5 hc0 hc1 x0 x1 xs0 = k0_pay2 x0 x1 xs0 := by
  unfold soutR0_C_0
  rw [View.read_writes_eq_canon _ _ _ (scoverR0_C_0 c i arg2 harg2 arg3 harg3 arg4 harg4 arg5 harg5 hc0 hc1 x0 x1 xs0)]
  unfold kernelRunR0_C
  dsimp only
  sl_unfold_words
  rw [View.canon_unit_zero hz]
  simp only [View.readAt_eq_ld, harg2.read_unread, harg3.read_unread, harg5.read_unread, View.ld_unit_zero (S := S128x128) hz]

/-- At a last feature tile the output block gets the accumulator's new contents. -/
theorem out_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR0_0 i) (hc1 : condR0_1 i)
    (x0 x1 xs0 : Vec F S128x128 .f32) :
    outR0_C_2 c i arg2 harg2 arg3 harg3 arg4 harg4 arg5 harg5 hc0 hc1 x0 x1 xs0 = k0_pay2 x0 x1 xs0 := by
  unfold outR0_C_2
  rw [View.read_writes_eq_canon _ _ _ (coverR0_C_2 c i arg2 harg2 arg3 harg3 arg4 harg4 arg5 harg5 hc0 hc1 x0 x1 xs0)]
  unfold kernelRunR0_C
  dsimp only
  sl_unfold_words
  rw [View.canon_unit_zero hz, View.readCov_unit_zero (S := S128x128) _ hz]
  simp only [View.readAt_eq_ld, harg2.read_unread, harg3.read_unread, harg5.read_unread, View.ld_unit_zero (S := S128x128) hz]

end Pieces

variable (V : (c : Dev nD) → (b : Ref sig .tc) → Buf (Elt Ideal) ((c : Thread nD τ).loc b))

/-! ## The blocks, by coordinates -/

/-- The windows' block indices over the grid: row tile t / 4, feature tile t % 4. -/
theorem idx_facts : ∀ t : Fin cfg0.N, win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0 :=
  (by decide +kernel : ∀ t : Fin grid0.N, _)

/-- The x block and the w block at a point, at their literal type. -/
abbrev xblk (c : Dev nD) (t : Fin cfg0.N) : Vec Ideal S128x128 .f32 := iblkR0 V c 0 t
abbrev wblk (c : Dev nD) (t : Fin cfg0.N) : Vec Ideal S128x128 .f32 := iblkR0 V c 1 t
/-- The x array and the region's cut of the transposed w, as the region finds them. -/
abbrev xArr (c : Dev nD) : Vec Ideal S2048x512 .f32 := V c main_arg0
abbrev wArr (c : Dev nD) : Vec Ideal S128x512 .f32 := V c main_v1

theorem xblk_apply (c : Dev nD) (t : Fin cfg0.N) (p k : Fin 128) (r : Fin 2048) (f : Fin 512)
    (hr : r.val = 128 * (t.val / 4) + p.val) (hf : f.val = 128 * (t.val % 4) + k.val) :
    xblk V c t (ix2 p k) = xArr V c (ix2 r f) := by
  obtain ⟨e0, e1, -, -, -, -⟩ := idx_facts t
  show iblkR0 V c 0 t (ix2 p k) = V c main_arg0 (ix2 r f)
  unfold iblkR0
  rw [View.read_apply]
  show V c main_arg0 _ = V c main_arg0 _
  refine congrArg (V c main_arg0) ?_
  funext a; apply Fin.ext
  match a with
  | ⟨0, _⟩ => show win0_0.index t (0 : Fin 2) * 128 + 1 * p.val = r.val; rw [e0, hr]; omega
  | ⟨1, _⟩ => show win0_0.index t (1 : Fin 2) * 128 + 1 * k.val = f.val; rw [e1, hf]; omega

theorem wblk_apply (c : Dev nD) (t : Fin cfg0.N) (q k : Fin 128) (f : Fin 512)
    (hf : f.val = 128 * (t.val % 4) + k.val) :
    wblk V c t (ix2 q k) = wArr V c (ix2 q f) := by
  obtain ⟨-, -, e2, e3, -, -⟩ := idx_facts t
  show iblkR0 V c 1 t (ix2 q k) = V c main_v1 (ix2 q f)
  unfold iblkR0
  rw [View.read_apply]
  show V c main_v1 _ = V c main_v1 _
  refine congrArg (V c main_v1) ?_
  funext a; apply Fin.ext
  match a with
  | ⟨0, _⟩ => show win0_1.index t (0 : Fin 2) * 128 + 1 * q.val = q.val; rw [e2]; omega
  | ⟨1, _⟩ => show win0_1.index t (1 : Fin 2) * 128 + 1 * k.val = f.val; rw [e3, hf]; omega

/-! ## The accumulator, point by point -/

/-- The sums row r and unit q range over. -/
def g (c : Dev nD) (r : Fin 2048) (q : Fin 128) : Fin 512 → Ideal .f32 := fun f => xArr V c (ix2 r f) + wArr V c (ix2 q f)

/-- One point's arithmetic extends the maximum by one feature tile. -/
theorem step_tile (X W A : Vec Ideal S128x128 .f32) (gg : Fin 512 → Ideal .f32) (j : ℕ) (hj : j < 4) (p q : Fin 128)
    (hA : A (ix2 p q) = Cert.Spec.maxBelow Cert.Spec.negInf gg (128 * j))
    (hXW : ∀ k : Fin 128, X (ix2 p k) + W (ix2 q k) = gg ⟨128 * j + k.val, by omega⟩) :
    k0_pay2 (F := Ideal) X W A (ix2 p q) = Cert.Spec.maxBelow Cert.Spec.negInf gg (128 * (j + 1)) := by
  rw [Cert.KernelIdeal.Pay.step_max, hA]
  exact Cert.Spec.maxBelow_tile _ _ j hj _ hXW

/-- The tile's sums at point n are the sums of the row and unit over feature tile n % 4. -/
theorem tile_sums (c : Dev nD) (t : Fin cfg0.N) (p q : Fin 128) (r : Fin 2048) (hr : r.val = 128 * (t.val / 4) + p.val)
    (k : Fin 128) :
    xblk V c t (ix2 p k) + wblk V c t (ix2 q k) = g V c r q ⟨128 * (t.val % 4) + k.val, by omega⟩ := by
  unfold g
  rw [xblk_apply V c t p k r ⟨128 * (t.val % 4) + k.val, by omega⟩ hr rfl,
    wblk_apply V c t q k ⟨128 * (t.val % 4) + k.val, by omega⟩ rfl]

/-- THE ACCUMULATOR after point n: the maximum over the features of the tiles done so far in the row of the grid. -/
theorem acc_eq (c : Dev nD) : ∀ (n : ℕ) (hn : n < cfg0.N) (p q : Fin 128) (r : Fin 2048), r.val = 128 * (n / 4) + p.val →
    (outsAtR0 V c n hn).2 (ix2 p q) = Cert.Spec.maxBelow Cert.Spec.negInf (g V c r q) (128 * (n % 4 + 1)) := by
  intro n
  induction n using Nat.strong_induction_on with
  | _ n ih =>
    intro hn p q r hr
    have hN : n < 64 := lt_of_lt_of_eq hn N_0
    show (outsAtR0 V c (⟨n, hn⟩ : Fin cfg0.N).val (⟨n, hn⟩ : Fin cfg0.N).isLt).2 (ix2 p q) = _
    by_cases h0 : n % 4 = 0
    · have h1 : ¬n % 4 = 3 := by omega
      rw [outsAtR0_A V c ⟨n, hn⟩ h0 h1]
      dsimp only
      rw [sout_A, h0]
      refine step_tile (xblk V c ⟨n, hn⟩) (wblk V c ⟨n, hn⟩) (k0_pay1 (F := Ideal)) (g V c r q) 0 (by omega) p q ?_ ?_
      · rw [Cert.KernelIdeal.Pay.start_max, Cert.Spec.maxBelow_zero]
      · intro k
        have := tile_sums V c ⟨n, hn⟩ p q r hr k
        simp only [h0] at this
        exact this
    · have hpos : n - 1 < n := by omega
      have hprev := ih (n - 1) hpos (by omega) p q r (by omega)
      have hmod : (n - 1) % 4 + 1 = n % 4 := by omega
      rw [hmod] at hprev
      by_cases h1 : n % 4 = 3
      · rw [outsAtR0_C V c ⟨n, hn⟩ h0 h1]
        dsimp only
        rw [sout_C]
        exact step_tile (xblk V c ⟨n, hn⟩) (wblk V c ⟨n, hn⟩) _ (g V c r q) (n % 4) (by omega) p q hprev
          (tile_sums V c ⟨n, hn⟩ p q r hr)
      · rw [outsAtR0_B V c ⟨n, hn⟩ h0 h1]
        dsimp only
        rw [sout_B]
        exact step_tile (xblk V c ⟨n, hn⟩) (wblk V c ⟨n, hn⟩) _ (g V c r q) (n % 4) (by omega) p q hprev
          (tile_sums V c ⟨n, hn⟩ p q r hr)

/-! ## The result array -/

/-- Row r, unit q of the region's result: the maximum from -inf over all features of X[r, f] + W[q, f]. -/
def G (c : Dev nD) : Vec Ideal S2048x128 .f32 := fun i =>
  (Finset.univ : Finset (Fin 512)).fold max Cert.Spec.negInf (g V c (i 0) (i 1))

/-- At a last feature tile the output block holds the finished rows. -/
theorem out_eq (c : Dev nD) (t : Fin cfg0.N) (h3 : t.val % 4 = 3) (y : S128x128.Idx) (i : S2048x128.Idx)
    (hi0 : (i 0).val = 128 * (t.val / 4) + (y 0).val) (hi1 : (i 1).val = (y 1).val) :
    (outsAtR0 V c t.val t.isLt).1 y = G V c i := by
  obtain ⟨p, q, rfl⟩ : ∃ (p q : Fin 128), y = ix2 p q := ⟨y 0, y 1, eq_ix2 y⟩
  have hN : t.val < 64 := lt_of_lt_of_eq t.isLt N_0
  have h0 : ¬t.val % 4 = 0 := by omega
  have hq : i 1 = q := Fin.ext hi1
  have hprev := acc_eq V c (t.val - 1) (by omega) p q (i 0) (by show (i 0).val = 128 * ((t.val - 1) / 4) + p.val; rw [hi0]; show 128 * (t.val / 4) + p.val = _; omega)
  have hmod : (t.val - 1) % 4 + 1 = t.val % 4 := by omega
  rw [hmod] at hprev
  rw [outsAtR0_C V c t h0 h3]
  dsimp only
  rw [out_C]
  unfold G
  rw [hq, ← Cert.Spec.maxBelow_all, show (512 : ℕ) = 128 * (t.val % 4 + 1) from by omega]
  exact step_tile (xblk V c t) (wblk V c t) _ (g V c (i 0) q) (t.val % 4) (by omega) p q hprev
    (tile_sums V c t p q (i 0) hi0)

/-- What a writing-back point writes back is its block of G. -/
theorem flushed_eq (c : Dev nD) (t : Fin cfg0.N) (hf : (cfg0.win 2).flush t = true) :
    (datR0 V c).flushed 2 t = ((cfg0.win 2).blk t).view.read (Elt Ideal) (G V c) := by
  have h3 : t.val % 4 = 3 := (flush0_2 t).mp hf
  obtain ⟨-, -, -, -, e4, e5⟩ := idx_facts t
  show (cfg0.win 2).cut (grid0.coords t) ((datR0 V c).after 2 t) = _
  rw [afterR0_2]
  funext j
  show (outsAtR0 V c t.val t.isLt).1 j = G V c (((cfg0.win 2).blk t).view.emb j)
  refine out_eq V c t h3 j _ ?_ ?_
  · show win0_2.index t (0 : Fin 2) * 128 + 1 * (j 0).val = 128 * (t.val / 4) + (j 0).val; rw [e4]; omega
  · show win0_2.index t (1 : Fin 2) * 128 + 1 * (j 1).val = (j 1).val; rw [e5]; omega

theorem mem_blk (t : Fin cfg0.N) (i : S2048x128.Idx) :
    i ∈ ((cfg0.win 2).blk t).view.set ↔ ∀ a : Fin 2, win0_2.index t a * S128x128.size a ≤ (i a).val ∧ (i a).val < win0_2.index t a * S128x128.size a + S128x128.size a := by
  show i ∈ ((View.whole main_v3).slice (win0_2.rect t)).set ↔ _
  rw [View.set_slice_whole, Rect.mem_set_unit]
  exact Iff.rfl

/-- Every entry of the result array is in the block some last-feature-tile point writes back. -/
theorem cover (i : S2048x128.Idx) :
    ∃ t : Fin cfg0.N, (cfg0.win 2).flush t = true ∧ i ∈ ((cfg0.win 2).blk t).view.set := by
  have hi0 : (i 0).val < 2048 := (i 0).isLt
  have hi1 : (i 1).val < 128 := (i 1).isLt
  have hlt : 4 * ((i 0).val / 128) + 3 < cfg0.N := by rw [show cfg0.N = 64 from N_0]; omega
  obtain ⟨-, -, -, -, e4, e5⟩ := idx_facts ⟨4 * ((i 0).val / 128) + 3, hlt⟩
  refine ⟨⟨4 * ((i 0).val / 128) + 3, hlt⟩, (flush0_2 _).mpr (by show (4 * ((i 0).val / 128) + 3) % 4 = 3; omega), ?_⟩
  rw [mem_blk]
  intro a
  match a with
  | ⟨0, _⟩ =>
    show win0_2.index ⟨4 * ((i 0).val / 128) + 3, hlt⟩ (0 : Fin 2) * 128 ≤ (i 0).val ∧ (i 0).val < win0_2.index ⟨4 * ((i 0).val / 128) + 3, hlt⟩ (0 : Fin 2) * 128 + 128
    rw [e4]; show (4 * ((i 0).val / 128) + 3) / 4 * 128 ≤ (i 0).val ∧ (i 0).val < (4 * ((i 0).val / 128) + 3) / 4 * 128 + 128; omega
  | ⟨1, _⟩ =>
    show win0_2.index ⟨4 * ((i 0).val / 128) + 3, hlt⟩ (1 : Fin 2) * 128 ≤ (i 1).val ∧ (i 1).val < win0_2.index ⟨4 * ((i 0).val / 128) + 3, hlt⟩ (1 : Fin 2) * 128 + 128
    rw [e5]; omega

/-- THE RESULT ARRAY after the region: G. -/
theorem final (c : Dev nD) : (datR0 V c).arrAt 2 cfg0.N = G V c :=
  (datR0 V c).arrAt_eq_of_cover 2 (G V c) (flushed_eq V c) cover

end Cert.KernelIdeal.Val0

end
-- ==== Proof.Value1.lean ====
/-
  Region 1's result, as values over the extended reals.

  Write X for the x array [2048, 512] and W for the region's cut of the transposed w [128 units, 512 features] as the
  region finds them. Point t works on row tile t / 4 and feature tile t % 4, and its blocks are
  X[128 (t/4) + p, 128 (t%4) + k] and W[q, 128 (t%4) + k]. The accumulator after point t holds, at (p, q), the minimum
  from +inf over the features below 128 (t%4 + 1) of X[128 (t/4) + p, f] + W[q, f]: at a first feature tile the reset
  value joined with the tile's own minimum, afterwards what the point before left joined with the tile's. At a last
  feature tile that is the minimum over all 512 features, which the body copies into the output block; the sixteen
  written-back blocks tile the result array, so row r, unit q of it is the minimum over f of X[r, f] + W[q, f].
-/
import proofs.«157227_j70145405878420_1_alg».proof.Proof.KernelIdeal.Region1
import proofs.«157227_j70145405878420_1_alg».proof.Proof.Pay
import proofs.«157227_j70145405878420_1_alg».proof.Proof.Spec
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.Tactic Idealize.ShloMosaic.ValueIdx Idealize.SL.Sem
open Idealize.ShloMosaic.Pipeline (Dat)

theorem hz : (![0, 0] : Fin 2 → Nat) = fun _ => 0 := funext fun a => by fin_cases a <;> rfl

/-! ## What each case's stores leave, as the body's arithmetic of what it loaded -/

section Pieces

variable {F : FTy → Type} [FloatOps F]

theorem sout_A (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : condR1_0 i) (hc1 : ¬condR1_1 i)
    (x0 x1 : Vec F S128x128 .f32) :
    soutR1_A_0 c i arg2 harg2 arg3 harg3 arg4 harg4 arg5 harg5 hc0 hc1 x0 x1 = k1_pay2 x0 x1 k1_pay1 := by
  unfold soutR1_A_0
  rw [View.read_writes_eq_canon _ _ _ (scoverR1_A_0 c i arg2 harg2 arg3 harg3 arg4 harg4 arg5 harg5 hc0 hc1 x0 x1)]
  unfold kernelRunR1_A
  dsimp only
  sl_unfold_words
  rw [View.canon_cons_unit_zero (S := S128x128) hz, View.readCov_unit_zero (S := S128x128) _ hz]
  simp only [View.readAt_eq_ld, harg2.read_unread, harg3.read_unread, View.ld_unit_zero (S := S128x128) hz]

theorem sout_B (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : ¬condR1_1 i)
    (x0 x1 xs0 : Vec F S128x128 .f32) :
    soutR1_B_0 c i arg2 harg2 arg3 harg3 arg4 harg4 arg5 harg5 hc0 hc1 x0 x1 xs0 = k1_pay2 x0 x1 xs0 := by
  unfold soutR1_B_0
  rw [View.read_writes_eq_canon _ _ _ (scoverR1_B_0 c i arg2 harg2 arg3 harg3 arg4 harg4 arg5 harg5 hc0 hc1 x0 x1 xs0)]
  unfold kernelRunR1_B
  dsimp only
  sl_unfold_words
  rw [View.canon_unit_zero hz]
  simp only [View.readAt_eq_ld, harg2.read_unread, harg3.read_unread, harg5.read_unread, View.ld_unit_zero (S := S128x128) hz]

theorem sout_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 x1 xs0 : Vec F S128x128 .f32) :
    soutR1_C_0 c i arg2 harg2 arg3 harg3 arg4 harg4 arg5 harg5 hc0 hc1 x0 x1 xs0 = k1_pay2 x0 x1 xs0 := by
  unfold soutR1_C_0
  rw [View.read_writes_eq_canon _ _ _ (scoverR1_C_0 c i arg2 harg2 arg3 harg3 arg4 harg4 arg5 harg5 hc0 hc1 x0 x1 xs0)]
  unfold kernelRunR1_C
  dsimp only
  sl_unfold_words
  rw [View.canon_unit_zero hz]
  simp only [View.readAt_eq_ld, harg2.read_unread, harg3.read_unread, harg5.read_unread, View.ld_unit_zero (S := S128x128) hz]

/-- At a last feature tile the output block gets the accumulator's new contents. -/
theorem out_C (c : Dev nD) (i : grid1.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (hc0 : ¬condR1_0 i) (hc1 : condR1_1 i)
    (x0 x1 xs0 : Vec F S128x128 .f32) :
    outR1_C_2 c i arg2 harg2 arg3 harg3 arg4 harg4 arg5 harg5 hc0 hc1 x0 x1 xs0 = k1_pay2 x0 x1 xs0 := by
  unfold outR1_C_2
  rw [View.read_writes_eq_canon _ _ _ (coverR1_C_2 c i arg2 harg2 arg3 harg3 arg4 harg4 arg5 harg5 hc0 hc1 x0 x1 xs0)]
  unfold kernelRunR1_C
  dsimp only
  sl_unfold_words
  rw [View.canon_unit_zero hz, View.readCov_unit_zero (S := S128x128) _ hz]
  simp only [View.readAt_eq_ld, harg2.read_unread, harg3.read_unread, harg5.read_unread, View.ld_unit_zero (S := S128x128) hz]

end Pieces

variable (V : (c : Dev nD) → (b : Ref sig .tc) → Buf (Elt Ideal) ((c : Thread nD τ).loc b))

/-! ## The blocks, by coordinates -/

/-- The windows' block indices over the grid: row tile t / 4, feature tile t % 4. -/
theorem idx_facts : ∀ t : Fin cfg1.N, win1_0.index t (0 : Fin 2) = t.val / 4 ∧ win1_0.index t (1 : Fin 2) = t.val % 4
    ∧ win1_1.index t (0 : Fin 2) = 0 ∧ win1_1.index t (1 : Fin 2) = t.val % 4
    ∧ win1_2.index t (0 : Fin 2) = t.val / 4 ∧ win1_2.index t (1 : Fin 2) = 0 :=
  (by decide +kernel : ∀ t : Fin grid1.N, _)

/-- The x block and the w block at a point, at their literal type. -/
abbrev xblk (c : Dev nD) (t : Fin cfg1.N) : Vec Ideal S128x128 .f32 := iblkR1 V c 0 t
abbrev wblk (c : Dev nD) (t : Fin cfg1.N) : Vec Ideal S128x128 .f32 := iblkR1 V c 1 t
/-- The x array and the region's cut of the transposed w, as the region finds them. -/
abbrev xArr (c : Dev nD) : Vec Ideal S2048x512 .f32 := V c main_arg0
abbrev wArr (c : Dev nD) : Vec Ideal S128x512 .f32 := V c main_v2

theorem xblk_apply (c : Dev nD) (t : Fin cfg1.N) (p k : Fin 128) (r : Fin 2048) (f : Fin 512)
    (hr : r.val = 128 * (t.val / 4) + p.val) (hf : f.val = 128 * (t.val % 4) + k.val) :
    xblk V c t (ix2 p k) = xArr V c (ix2 r f) := by
  obtain ⟨e0, e1, -, -, -, -⟩ := idx_facts t
  show iblkR1 V c 0 t (ix2 p k) = V c main_arg0 (ix2 r f)
  unfold iblkR1
  rw [View.read_apply]
  show V c main_arg0 _ = V c main_arg0 _
  refine congrArg (V c main_arg0) ?_
  funext a; apply Fin.ext
  match a with
  | ⟨0, _⟩ => show win1_0.index t (0 : Fin 2) * 128 + 1 * p.val = r.val; rw [e0, hr]; omega
  | ⟨1, _⟩ => show win1_0.index t (1 : Fin 2) * 128 + 1 * k.val = f.val; rw [e1, hf]; omega

theorem wblk_apply (c : Dev nD) (t : Fin cfg1.N) (q k : Fin 128) (f : Fin 512)
    (hf : f.val = 128 * (t.val % 4) + k.val) :
    wblk V c t (ix2 q k) = wArr V c (ix2 q f) := by
  obtain ⟨-, -, e2, e3, -, -⟩ := idx_facts t
  show iblkR1 V c 1 t (ix2 q k) = V c main_v2 (ix2 q f)
  unfold iblkR1
  rw [View.read_apply]
  show V c main_v2 _ = V c main_v2 _
  refine congrArg (V c main_v2) ?_
  funext a; apply Fin.ext
  match a with
  | ⟨0, _⟩ => show win1_1.index t (0 : Fin 2) * 128 + 1 * q.val = q.val; rw [e2]; omega
  | ⟨1, _⟩ => show win1_1.index t (1 : Fin 2) * 128 + 1 * k.val = f.val; rw [e3, hf]; omega

/-! ## The accumulator, point by point -/

/-- The sums row r and unit q range over. -/
def g (c : Dev nD) (r : Fin 2048) (q : Fin 128) : Fin 512 → Ideal .f32 := fun f => xArr V c (ix2 r f) + wArr V c (ix2 q f)

/-- One point's arithmetic extends the minimum by one feature tile. -/
theorem step_tile (X W A : Vec Ideal S128x128 .f32) (gg : Fin 512 → Ideal .f32) (j : ℕ) (hj : j < 4) (p q : Fin 128)
    (hA : A (ix2 p q) = Cert.Spec.minBelow Cert.Spec.posInf gg (128 * j))
    (hXW : ∀ k : Fin 128, X (ix2 p k) + W (ix2 q k) = gg ⟨128 * j + k.val, by omega⟩) :
    k1_pay2 (F := Ideal) X W A (ix2 p q) = Cert.Spec.minBelow Cert.Spec.posInf gg (128 * (j + 1)) := by
  rw [Cert.KernelIdeal.Pay.step_min, hA]
  exact Cert.Spec.minBelow_tile _ _ j hj _ hXW

/-- The tile's sums at point n are the sums of the row and unit over feature tile n % 4. -/
theorem tile_sums (c : Dev nD) (t : Fin cfg1.N) (p q : Fin 128) (r : Fin 2048) (hr : r.val = 128 * (t.val / 4) + p.val)
    (k : Fin 128) :
    xblk V c t (ix2 p k) + wblk V c t (ix2 q k) = g V c r q ⟨128 * (t.val % 4) + k.val, by omega⟩ := by
  unfold g
  rw [xblk_apply V c t p k r ⟨128 * (t.val % 4) + k.val, by omega⟩ hr rfl,
    wblk_apply V c t q k ⟨128 * (t.val % 4) + k.val, by omega⟩ rfl]

/-- THE ACCUMULATOR after point n: the minimum over the features of the tiles done so far in the row of the grid. -/
theorem acc_eq (c : Dev nD) : ∀ (n : ℕ) (hn : n < cfg1.N) (p q : Fin 128) (r : Fin 2048), r.val = 128 * (n / 4) + p.val →
    (outsAtR1 V c n hn).2 (ix2 p q) = Cert.Spec.minBelow Cert.Spec.posInf (g V c r q) (128 * (n % 4 + 1)) := by
  intro n
  induction n using Nat.strong_induction_on with
  | _ n ih =>
    intro hn p q r hr
    have hN : n < 64 := lt_of_lt_of_eq hn N_1
    show (outsAtR1 V c (⟨n, hn⟩ : Fin cfg1.N).val (⟨n, hn⟩ : Fin cfg1.N).isLt).2 (ix2 p q) = _
    by_cases h0 : n % 4 = 0
    · have h1 : ¬n % 4 = 3 := by omega
      rw [outsAtR1_A V c ⟨n, hn⟩ h0 h1]
      dsimp only
      rw [sout_A, h0]
      refine step_tile (xblk V c ⟨n, hn⟩) (wblk V c ⟨n, hn⟩) (k1_pay1 (F := Ideal)) (g V c r q) 0 (by omega) p q ?_ ?_
      · rw [Cert.KernelIdeal.Pay.start_min, Cert.Spec.minBelow_zero]
      · intro k
        have := tile_sums V c ⟨n, hn⟩ p q r hr k
        simp only [h0] at this
        exact this
    · have hpos : n - 1 < n := by omega
      have hprev := ih (n - 1) hpos (by omega) p q r (by omega)
      have hmod : (n - 1) % 4 + 1 = n % 4 := by omega
      rw [hmod] at hprev
      by_cases h1 : n % 4 = 3
      · rw [outsAtR1_C V c ⟨n, hn⟩ h0 h1]
        dsimp only
        rw [sout_C]
        exact step_tile (xblk V c ⟨n, hn⟩) (wblk V c ⟨n, hn⟩) _ (g V c r q) (n % 4) (by omega) p q hprev
          (tile_sums V c ⟨n, hn⟩ p q r hr)
      · rw [outsAtR1_B V c ⟨n, hn⟩ h0 h1]
        dsimp only
        rw [sout_B]
        exact step_tile (xblk V c ⟨n, hn⟩) (wblk V c ⟨n, hn⟩) _ (g V c r q) (n % 4) (by omega) p q hprev
          (tile_sums V c ⟨n, hn⟩ p q r hr)

/-! ## The result array -/

/-- Row r, unit q of the region's result: the minimum from +inf over all features of X[r, f] + W[q, f]. -/
def G (c : Dev nD) : Vec Ideal S2048x128 .f32 := fun i =>
  (Finset.univ : Finset (Fin 512)).fold min Cert.Spec.posInf (g V c (i 0) (i 1))

/-- At a last feature tile the output block holds the finished rows. -/
theorem out_eq (c : Dev nD) (t : Fin cfg1.N) (h3 : t.val % 4 = 3) (y : S128x128.Idx) (i : S2048x128.Idx)
    (hi0 : (i 0).val = 128 * (t.val / 4) + (y 0).val) (hi1 : (i 1).val = (y 1).val) :
    (outsAtR1 V c t.val t.isLt).1 y = G V c i := by
  obtain ⟨p, q, rfl⟩ : ∃ (p q : Fin 128), y = ix2 p q := ⟨y 0, y 1, eq_ix2 y⟩
  have hN : t.val < 64 := lt_of_lt_of_eq t.isLt N_1
  have h0 : ¬t.val % 4 = 0 := by omega
  have hq : i 1 = q := Fin.ext hi1
  have hprev := acc_eq V c (t.val - 1) (by omega) p q (i 0) (by show (i 0).val = 128 * ((t.val - 1) / 4) + p.val; rw [hi0]; show 128 * (t.val / 4) + p.val = _; omega)
  have hmod : (t.val - 1) % 4 + 1 = t.val % 4 := by omega
  rw [hmod] at hprev
  rw [outsAtR1_C V c t h0 h3]
  dsimp only
  rw [out_C]
  unfold G
  rw [hq, ← Cert.Spec.minBelow_all, show (512 : ℕ) = 128 * (t.val % 4 + 1) from by omega]
  exact step_tile (xblk V c t) (wblk V c t) _ (g V c (i 0) q) (t.val % 4) (by omega) p q hprev
    (tile_sums V c t p q (i 0) hi0)

/-- What a writing-back point writes back is its block of G. -/
theorem flushed_eq (c : Dev nD) (t : Fin cfg1.N) (hf : (cfg1.win 2).flush t = true) :
    (datR1 V c).flushed 2 t = ((cfg1.win 2).blk t).view.read (Elt Ideal) (G V c) := by
  have h3 : t.val % 4 = 3 := (flush1_2 t).mp hf
  obtain ⟨-, -, -, -, e4, e5⟩ := idx_facts t
  show (cfg1.win 2).cut (grid1.coords t) ((datR1 V c).after 2 t) = _
  rw [afterR1_2]
  funext j
  show (outsAtR1 V c t.val t.isLt).1 j = G V c (((cfg1.win 2).blk t).view.emb j)
  refine out_eq V c t h3 j _ ?_ ?_
  · show win1_2.index t (0 : Fin 2) * 128 + 1 * (j 0).val = 128 * (t.val / 4) + (j 0).val; rw [e4]; omega
  · show win1_2.index t (1 : Fin 2) * 128 + 1 * (j 1).val = (j 1).val; rw [e5]; omega

theorem mem_blk (t : Fin cfg1.N) (i : S2048x128.Idx) :
    i ∈ ((cfg1.win 2).blk t).view.set ↔ ∀ a : Fin 2, win1_2.index t a * S128x128.size a ≤ (i a).val ∧ (i a).val < win1_2.index t a * S128x128.size a + S128x128.size a := by
  show i ∈ ((View.whole main_v4).slice (win1_2.rect t)).set ↔ _
  rw [View.set_slice_whole, Rect.mem_set_unit]
  exact Iff.rfl

/-- Every entry of the result array is in the block some last-feature-tile point writes back. -/
theorem cover (i : S2048x128.Idx) :
    ∃ t : Fin cfg1.N, (cfg1.win 2).flush t = true ∧ i ∈ ((cfg1.win 2).blk t).view.set := by
  have hi0 : (i 0).val < 2048 := (i 0).isLt
  have hi1 : (i 1).val < 128 := (i 1).isLt
  have hlt : 4 * ((i 0).val / 128) + 3 < cfg1.N := by rw [show cfg1.N = 64 from N_1]; omega
  obtain ⟨-, -, -, -, e4, e5⟩ := idx_facts ⟨4 * ((i 0).val / 128) + 3, hlt⟩
  refine ⟨⟨4 * ((i 0).val / 128) + 3, hlt⟩, (flush1_2 _).mpr (by show (4 * ((i 0).val / 128) + 3) % 4 = 3; omega), ?_⟩
  rw [mem_blk]
  intro a
  match a with
  | ⟨0, _⟩ =>
    show win1_2.index ⟨4 * ((i 0).val / 128) + 3, hlt⟩ (0 : Fin 2) * 128 ≤ (i 0).val ∧ (i 0).val < win1_2.index ⟨4 * ((i 0).val / 128) + 3, hlt⟩ (0 : Fin 2) * 128 + 128
    rw [e4]; show (4 * ((i 0).val / 128) + 3) / 4 * 128 ≤ (i 0).val ∧ (i 0).val < (4 * ((i 0).val / 128) + 3) / 4 * 128 + 128; omega
  | ⟨1, _⟩ =>
    show win1_2.index ⟨4 * ((i 0).val / 128) + 3, hlt⟩ (1 : Fin 2) * 128 ≤ (i 1).val ∧ (i 1).val < win1_2.index ⟨4 * ((i 0).val / 128) + 3, hlt⟩ (1 : Fin 2) * 128 + 128
    rw [e5]; omega

/-- THE RESULT ARRAY after the region: G. -/
theorem final (c : Dev nD) : (datR1 V c).arrAt 2 cfg1.N = G V c :=
  (datR1 V c).arrAt_eq_of_cover 2 (G V c) (flushed_eq V c) cover

end Cert.KernelIdeal.Val1

end
-- ==== Proof.Layout.lean ====
/-
  The host-side layout operations of both programs, read at an index by coordinates.

  The kernel's program transposes w once ([512, 256] -> [256, 512]) and cuts the transposed array into its first and
  its last 128 rows, so that row q, column f of a cut is w[f, q] (first cut) or w[f, 128 + q] (second cut). Both programs
  end by joining two [2048, 128] arrays along the columns: column u of the result is column u of the first array for
  u < 128 and column u - 128 of the second otherwise.
-/
import Idealize.ShloMosaic.Lib.ValueIdx
import Idealize.ShloMosaic.Lib.Pipeline.Value

noncomputable section

namespace Cert.Layout

open Idealize.ShloMosaic Idealize.ShloMosaic.ValueIdx

variable {α : Type}

/-- Row q, column f of the first 128 rows of w's transpose is w[f, q]. -/
theorem wtLo_apply (w : (⟨2, ![512, 256]⟩ : Shape).Idx → α)
    (ht : (⟨2, ![512, 256]⟩ : Shape).Transposes [1, 0] ⟨2, ![256, 512]⟩)
    (hs : (⟨2, ![256, 512]⟩ : Shape).Slices ![0, 0] ⟨2, ![128, 512]⟩) (q : Fin 128) (f : Fin 512) :
    extractStridedSlice (⟨2, ![128, 512]⟩ : Shape) ![0, 0] (transpose (⟨2, ![256, 512]⟩ : Shape) [1, 0] w ht) hs (ix2 q f)
      = w (ix2 f ⟨q.val, by omega⟩) := by
  refine (extractStridedSlice_apply ![0, 0] _ hs (ix2 q f) (ix2 (⟨q.val, by omega⟩ : Fin 256) f) (fun a => match a with
    | ⟨0, _⟩ => by show q.val = 0 + q.val; omega
    | ⟨1, _⟩ => by show f.val = 0 + f.val; omega)).trans ?_
  exact transpose_apply [1, 0] w ht _ (ix2 f ⟨q.val, by omega⟩) (fun b => match b with
    | ⟨0, _⟩ => rfl
    | ⟨1, _⟩ => rfl)

/-- Row q, column f of the last 128 rows of w's transpose is w[f, 128 + q]. -/
theorem wtHi_apply (w : (⟨2, ![512, 256]⟩ : Shape).Idx → α)
    (ht : (⟨2, ![512, 256]⟩ : Shape).Transposes [1, 0] ⟨2, ![256, 512]⟩)
    (hs : (⟨2, ![256, 512]⟩ : Shape).Slices ![128, 0] ⟨2, ![128, 512]⟩) (q : Fin 128) (f : Fin 512) :
    extractStridedSlice (⟨2, ![128, 512]⟩ : Shape) ![128, 0] (transpose (⟨2, ![256, 512]⟩ : Shape) [1, 0] w ht) hs (ix2 q f)
      = w (ix2 f ⟨128 + q.val, by omega⟩) := by
  refine (extractStridedSlice_apply ![128, 0] _ hs (ix2 q f) (ix2 (⟨128 + q.val, by omega⟩ : Fin 256) f) (fun a => match a with
    | ⟨0, _⟩ => by show 128 + q.val = 128 + q.val; rfl
    | ⟨1, _⟩ => by show f.val = 0 + f.val; omega)).trans ?_
  exact transpose_apply [1, 0] w ht _ (ix2 f ⟨128 + q.val, by omega⟩) (fun b => match b with
    | ⟨0, _⟩ => rfl
    | ⟨1, _⟩ => rfl)

/-- Two [2048, 128] arrays joined along the columns, read at (r, u). -/
theorem concat_apply (a b : (⟨2, ![2048, 128]⟩ : Shape).Idx → α)
    (hc : Shape.Concatenates [(⟨2, ![2048, 128]⟩ : Shape), ⟨2, ![2048, 128]⟩] ⟨2, ![2048, 256]⟩ 1) (r : Fin 2048) (u : Fin 256) :
    concatenate (⟨2, ![2048, 256]⟩ : Shape) 1 [⟨(⟨2, ![2048, 128]⟩ : Shape), a⟩, ⟨(⟨2, ![2048, 128]⟩ : Shape), b⟩] hc (ix2 r u)
      = if h : u.val < 128 then a (ix2 r ⟨u.val, h⟩) else b (ix2 r ⟨u.val - 128, by omega⟩) := by
  by_cases h : u.val < 128
  · rw [dif_pos h]
    exact concatenate_pair_apply_left _ a b hc (ix2 r u) rfl (ix2 r ⟨u.val, h⟩) (fun c => match c with
      | ⟨0, _⟩ => rfl
      | ⟨1, _⟩ => rfl)
  · rw [dif_neg h]
    exact concatenate_pair_apply_right _ a b hc (ix2 r u) rfl rfl (ix2 r ⟨u.val - 128, by omega⟩)
      (fun c => match c with
        | ⟨0, _⟩ => fun _ => rfl
        | ⟨1, _⟩ => fun hne => absurd rfl hne)
      (by show u.val - 128 + 128 = u.val; omega)

end Cert.Layout

end
-- ==== Proof.Result.lean ====
/-
  The idealized kernel's result array, as a function of its two arguments.

  Region 0 is entered with x as launched and, for its w window, the first 128 rows of w's transpose; region 1 with x as
  launched (region 0 leaves it alone) and the last 128 rows. Each leaves, at row r and unit q, the extremum over the
  features f of x[r, f] + W[q, f], where W[q, f] is w[f, q] resp. w[f, 128 + q]. The last host operation joins the two
  along the columns, so column u of the result is the max-plus entry for u < 128 and the min-plus entry otherwise: the
  specification's function.
-/
import proofs.«157227_j70145405878420_1_alg».proof.Proof.KernelIdeal.Launch
import proofs.«157227_j70145405878420_1_alg».proof.Proof.Value0
import proofs.«157227_j70145405878420_1_alg».proof.Proof.Value1
import proofs.«157227_j70145405878420_1_alg».proof.Proof.Layout
import proofs.«157227_j70145405878420_1_alg».proof.Proof.Spec
import Idealize.ShloMosaic.Lib.StableHlo.Run

set_option maxRecDepth 16384

noncomputable section

namespace Cert.KernelIdeal.Result

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## What the regions are entered with -/

theorem V1_arg0 (c : Dev nD) : V1 m c main_arg0 = m ((c : Thread nD τ).loc main_arg0) := by
  show StableHlo.after hostOps0 (W0 m c) (Proc.devRef .tc main_arg0) = _
  after_results

theorem V1_v1 (c : Dev nD) : V1 m c main_v1
    = extractStridedSlice S128x512 ![0, 0] (transpose S256x512 [1, 0] (m ((c : Thread nD τ).loc main_arg1)) Facts₀.transposes_S512x256_S256x512_1_0) Facts₀.slices_S256x512_S128x512_0_0 := by
  show StableHlo.after hostOps0 (W0 m c) (Proc.devRef .tc main_v1) = _
  after_results

theorem V2_arg0 (c : Dev nD) : V2 m c main_arg0 = m ((c : Thread nD τ).loc main_arg0) :=
  ((W2_arr m c 0).trans (((datR0 (V1 m) c).arrAt_in 0 rfl _).trans (A_eqR0 (V1 m) c 0))).trans (V1_arg0 m c)

theorem V2_v2 (c : Dev nD) : V2 m c main_v2
    = extractStridedSlice S128x512 ![128, 0] (transpose S256x512 [1, 0] (m ((c : Thread nD τ).loc main_arg1)) Facts₀.transposes_S512x256_S256x512_1_0) Facts₀.slices_S256x512_S128x512_128_0 := by
  refine (W2_of_ne m c main_v2 (by decide)).trans ?_
  show StableHlo.after hostOps0 (W0 m c) (Proc.devRef .tc main_v2) = _
  after_results

/-- The same, over the arrays' names at their literal types. -/
theorem xArr0_eq (c : Dev nD) : Cert.KernelIdeal.Val0.xArr (V1 m) c = m ((c : Thread nD τ).loc main_arg0) := V1_arg0 m c
theorem wArr0_eq (c : Dev nD) : Cert.KernelIdeal.Val0.wArr (V1 m) c
    = extractStridedSlice S128x512 ![0, 0] (transpose S256x512 [1, 0] (m ((c : Thread nD τ).loc main_arg1)) Facts₀.transposes_S512x256_S256x512_1_0) Facts₀.slices_S256x512_S128x512_0_0 := V1_v1 m c
theorem xArr1_eq (c : Dev nD) : Cert.KernelIdeal.Val1.xArr (V2 m) c = m ((c : Thread nD τ).loc main_arg0) := V2_arg0 m c
theorem wArr1_eq (c : Dev nD) : Cert.KernelIdeal.Val1.wArr (V2 m) c
    = extractStridedSlice S128x512 ![128, 0] (transpose S256x512 [1, 0] (m ((c : Thread nD τ).loc main_arg1)) Facts₀.transposes_S512x256_S256x512_1_0) Facts₀.slices_S256x512_S128x512_128_0 := V2_v2 m c

/-! ## What they leave, and the join -/

theorem W3_v3 (c : Dev nD) : W3 m c (Proc.devRef .tc main_v3) = Cert.KernelIdeal.Val0.G (V1 m) c :=
  (W3_of_ne m c main_v3 (by decide)).trans ((W2_arr m c 2).trans (Cert.KernelIdeal.Val0.final (V1 m) c))

theorem W3_v4 (c : Dev nD) : W3 m c (Proc.devRef .tc main_v4) = Cert.KernelIdeal.Val1.G (V2 m) c :=
  (W3_arr m c 2).trans (Cert.KernelIdeal.Val1.final (V2 m) c)

theorem W4_v5 (c : Dev nD) : W4 m c (Proc.devRef .tc main_v5)
    = concatenate S2048x256 1 [⟨S2048x128, W3 m c (Proc.devRef .tc main_v3)⟩, ⟨S2048x128, W3 m c (Proc.devRef .tc main_v4)⟩] Facts₀.concatenates_S2048x128_S2048x128_S2048x256_d1 := by
  show StableHlo.after hostOps2 (W3 m c) (Proc.devRef .tc main_v5) = _
  after_results

/-- The max half's entry is the specification's fold. -/
theorem lo_eq (c : Dev nD) (r : Fin 2048) (u : Fin 256) (h : u.val < 128) :
    Cert.KernelIdeal.Val0.G (V1 m) c (ix2 r ⟨u.val, h⟩)
      = (Finset.univ : Finset (Fin 512)).fold max Cert.Spec.negInf (Cert.Spec.term (m ((c : Thread nD τ).loc main_arg0)) (m ((c : Thread nD τ).loc main_arg1)) r u) := by
  unfold Cert.KernelIdeal.Val0.G
  refine congrArg (fun gg => (Finset.univ : Finset (Fin 512)).fold max Cert.Spec.negInf gg) ?_
  funext f
  show Cert.KernelIdeal.Val0.xArr (V1 m) c (ix2 r f) + Cert.KernelIdeal.Val0.wArr (V1 m) c (ix2 ⟨u.val, h⟩ f) = _
  rw [xArr0_eq m c, wArr0_eq m c, Cert.Layout.wtLo_apply]
  rfl

/-- The min half's entry is the specification's fold. -/
theorem hi_eq (c : Dev nD) (r : Fin 2048) (u : Fin 256) (h : ¬u.val < 128) :
    Cert.KernelIdeal.Val1.G (V2 m) c (ix2 r ⟨u.val - 128, by omega⟩)
      = (Finset.univ : Finset (Fin 512)).fold min Cert.Spec.posInf (Cert.Spec.term (m ((c : Thread nD τ).loc main_arg0)) (m ((c : Thread nD τ).loc main_arg1)) r u) := by
  unfold Cert.KernelIdeal.Val1.G
  refine congrArg (fun gg => (Finset.univ : Finset (Fin 512)).fold min Cert.Spec.posInf gg) ?_
  funext f
  show Cert.KernelIdeal.Val1.xArr (V2 m) c (ix2 r f) + Cert.KernelIdeal.Val1.wArr (V2 m) c (ix2 ⟨u.val - 128, by omega⟩ f) = _
  rw [xArr1_eq m c, wArr1_eq m c, Cert.Layout.wtHi_apply]
  show Cert.Spec.term (m ((c : Thread nD τ).loc main_arg0)) (m ((c : Thread nD τ).loc main_arg1)) r ⟨128 + (u.val - 128), by omega⟩ f = _
  exact congrArg (fun j : Fin 256 => Cert.Spec.term (m ((c : Thread nD τ).loc main_arg0)) (m ((c : Thread nD τ).loc main_arg1)) r j f)
    (Fin.ext (by show 128 + (u.val - 128) = u.val; omega))

/-- THE RESULT: the specification's function of the arguments. -/
theorem result_eq (c : Dev nD) : W4 m c (Proc.devRef .tc main_v5)
    = Cert.Spec.pool (m ((c : Thread nD τ).loc main_arg0)) (m ((c : Thread nD τ).loc main_arg1)) := by
  rw [W4_v5, W3_v3, W3_v4]
  funext j
  obtain ⟨r, u, rfl⟩ : ∃ (r : Fin 2048) (u : Fin 256), j = ix2 r u := ⟨j 0, j 1, eq_ix2 j⟩
  rw [Cert.Layout.concat_apply]
  unfold Cert.Spec.pool
  by_cases h : u.val < 128
  · rw [dif_pos h, if_pos (show ((ix2 r u : Cert.Spec.SO.Idx) 1).val < 128 from h)]
    exact lo_eq m c r u h
  · rw [dif_neg h, if_neg (show ¬((ix2 r u : Cert.Spec.SO.Idx) 1).val < 128 from h)]
    exact hi_eq m c r u h

/-- The run, read: the result at the specification's function of the arguments, the arguments unchanged. -/
theorem run_value : θ_run defs (onTc (τ := τ) (main (F := Ideal))) ⟨m, fun _ => 0, ρ⟩ (fun r => ∀ c : Dev nD,
      r.2.mem ((c.tc : Thread nD τ).loc main_v5) = Cert.Spec.pool (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v5 (by decide))).trans (result_eq m c),
     (h c _ (mem_uc main_arg0 (by decide))).trans (W4_main_arg0 m c),
     (h c _ (mem_uc main_arg1 (by decide))).trans (W4_main_arg1 m c)⟩) (run_all m ρ)

end Cert.KernelIdeal.Result

end
-- ==== Proof.RefValue.lean ====
/-
  The reference's result, read off its run one operation at a time, is the max-plus / min-plus product of the
  specification: it broadcasts x over the units and the chosen half of w's columns over the rows, adds, and reduces over
  the features with a maximum from -inf (first half) or a minimum from +inf (second half), then joins the halves.
-/
import proofs.«157227_j70145405878420_1_alg».proof.Proof.Gen.ReferenceIdeal.Read
import proofs.«157227_j70145405878420_1_alg».proof.Proof.Spec
import proofs.«157227_j70145405878420_1_alg».proof.Proof.Layout
import Idealize.ShloMosaic.PureOps.Ideal.Laws
import Idealize.ShloMosaic.Lib.ValueIdx
import Idealize.ShloMosaic.Lib.Pipeline.Value

noncomputable section

namespace Cert.ReferenceIdeal.RefValue

open Idealize.ShloMosaic Idealize.ShloMosaic.ValueIdx Cert.ReferenceIdeal Cert.ReferenceIdeal.Gen

/-- The three-axis array [2048, 512, 128] with its feature axis dropped is [2048, 128]. -/
private theorem hred : S2048x512x128.Reduces [1] S2048x128 := by decide

/-- Inserting feature f into (r, q) on the dropped axis gives (r, f, q). -/
private theorem lift_eq (r : Fin 2048) (q : Fin 128) (f : Fin 512) :
    hred.lift (ix2 r q) f = ix3 r f q := by
  funext c
  match c with
  | ⟨0, _⟩ => exact Fin.ext rfl
  | ⟨1, _⟩ => exact Fin.ext rfl
  | ⟨2, _⟩ => exact Fin.ext rfl

/-- Entry (r, f, q) of the first half's sums is x[r, f] + w[f, q]. -/
private theorem v5_at (x : (⟨S2048x512, .f32⟩ : BufTy).Contents (Elt Ideal)) (w : (⟨S512x256, .f32⟩ : BufTy).Contents (Elt Ideal))
    (r : Fin 2048) (f : Fin 512) (q : Fin 128) :
    Read.val_main_v5 (F := Ideal) x w (ix3 r f q) = Cert.Spec.term x w r ⟨q.val, by omega⟩ f := by
  rw [Read.val_main_v5_apply, Read.val_main_v3_apply, Read.val_main_v0_apply, Read.val_main_v4_apply,
    Read.val_main_v2_apply, Read.val_main_v1_apply]
  have ex : Read.idx_main_v0 (Read.idx_main_v3 (ix3 r f q)) = ix2 r f := by
    funext a
    match a with
    | ⟨0, _⟩ => rfl
    | ⟨1, _⟩ => rfl
  have ew : Read.idx_main_v1 (Read.idx_main_v2 (Read.idx_main_v4 (ix3 r f q))) = ix2 f (⟨q.val, by omega⟩ : Fin 256) := by
    funext a
    match a with
    | ⟨0, _⟩ => rfl
    | ⟨1, _⟩ => rfl
  rw [ex, ew]
  rfl

/-- Entry (r, f, q) of the second half's sums is x[r, f] + w[f, 128 + q]. -/
private theorem v11_at (x : (⟨S2048x512, .f32⟩ : BufTy).Contents (Elt Ideal)) (w : (⟨S512x256, .f32⟩ : BufTy).Contents (Elt Ideal))
    (r : Fin 2048) (f : Fin 512) (q : Fin 128) :
    Read.val_main_v11 (F := Ideal) x w (ix3 r f q) = Cert.Spec.term x w r ⟨128 + q.val, by omega⟩ f := by
  rw [Read.val_main_v11_apply, Read.val_main_v9_apply, Read.val_main_v6_apply, Read.val_main_v10_apply,
    Read.val_main_v8_apply, Read.val_main_v7_apply]
  have ex : Read.idx_main_v6 (Read.idx_main_v9 (ix3 r f q)) = ix2 r f := by
    funext a
    match a with
    | ⟨0, _⟩ => rfl
    | ⟨1, _⟩ => rfl
  have ew : Read.idx_main_v7 (Read.idx_main_v8 (Read.idx_main_v10 (ix3 r f q))) = ix2 f (⟨128 + q.val, by omega⟩ : Fin 256) := by
    funext a
    match a with
    | ⟨0, _⟩ => rfl
    | ⟨1, _⟩ => rfl
  rw [ex, ew]
  rfl

/-- The first half at (r, q): the maximum from -inf over the features of the sums of row r against column q. -/
private theorem v12_at (x : (⟨S2048x512, .f32⟩ : BufTy).Contents (Elt Ideal)) (w : (⟨S512x256, .f32⟩ : BufTy).Contents (Elt Ideal))
    (r : Fin 2048) (q : Fin 128) :
    Read.val_main_v12 (F := Ideal) x w (ix2 r q)
      = (Finset.univ : Finset (Fin 512)).fold max Cert.Spec.negInf (Cert.Spec.term x w r ⟨q.val, by omega⟩) := by
  unfold Read.val_main_v12
  refine (Host.reduce_eq_fold_single (FloatOps.maximumf (F := Ideal) (φ := .f32)) _ _
    reducesTo_S2048x512x128_S2048x128_d1 hred h_S_ (ix2 r q)).trans ?_
  have e : (Read.val_main_v5 (F := Ideal) x w ∘ hred.lift (ix2 r q)) = Cert.Spec.term x w r ⟨q.val, by omega⟩ :=
    funext fun f : Fin 512 => (congrArg (Read.val_main_v5 (F := Ideal) x w) (lift_eq r q f)).trans (v5_at x w r f q)
  rw [e]
  rfl

/-- The second half at (r, q): the minimum from +inf over the features of the sums of row r against column 128 + q. -/
private theorem v13_at (x : (⟨S2048x512, .f32⟩ : BufTy).Contents (Elt Ideal)) (w : (⟨S512x256, .f32⟩ : BufTy).Contents (Elt Ideal))
    (r : Fin 2048) (q : Fin 128) :
    Read.val_main_v13 (F := Ideal) x w (ix2 r q)
      = (Finset.univ : Finset (Fin 512)).fold min Cert.Spec.posInf (Cert.Spec.term x w r ⟨128 + q.val, by omega⟩) := by
  unfold Read.val_main_v13
  refine (Host.reduce_eq_fold_single (FloatOps.minimumf (F := Ideal) (φ := .f32)) _ _
    reducesTo_S2048x512x128_S2048x128_d1 hred h_S_ (ix2 r q)).trans ?_
  have e : (Read.val_main_v11 (F := Ideal) x w ∘ hred.lift (ix2 r q)) = Cert.Spec.term x w r ⟨128 + q.val, by omega⟩ :=
    funext fun f : Fin 512 => (congrArg (Read.val_main_v11 (F := Ideal) x w) (lift_eq r q f)).trans (v11_at x w r f q)
  rw [e]
  rfl

/-- The reference's last stage is the specification's function of the two argument arrays. -/
theorem ref_eq (x : (⟨S2048x512, .f32⟩ : BufTy).Contents (Elt Ideal)) (w : (⟨S512x256, .f32⟩ : BufTy).Contents (Elt Ideal)) :
    Cert.ReferenceIdeal.Read.val_main_v14 (F := Ideal) x w = Cert.Spec.pool x w := by
  funext j
  obtain ⟨r, u, rfl⟩ : ∃ r u, j = ix2 r u := ⟨j 0, j 1, eq_ix2 j⟩
  unfold Read.val_main_v14
  refine (Cert.Layout.concat_apply _ _ concatenates_S2048x128_S2048x128_S2048x256_d1 r u).trans ?_
  show _ = if u.val < 128 then (Finset.univ : Finset (Fin 512)).fold max Cert.Spec.negInf (Cert.Spec.term x w r u)
      else (Finset.univ : Finset (Fin 512)).fold min Cert.Spec.posInf (Cert.Spec.term x w r u)
  by_cases h : u.val < 128
  · rw [dif_pos h, if_pos h, v12_at]
  · rw [dif_neg h, if_neg h, v13_at]
    have eu : (⟨128 + (u.val - 128), by omega⟩ : Fin 256) = u := Fin.ext (by show 128 + (u.val - 128) = u.val; omega)
    rw [eu]

end Cert.ReferenceIdeal.RefValue

end
-- ==== Proof.lean ====
/-
  The certificate's claims.

  The kernel is a max-plus / min-plus product tiled over a grid: for x : [2048, 512] and w : [512, 256], entry (r, u) of
  the result is the maximum over the features f of x[r, f] + w[f, u] for u < 128 and the minimum for u ≥ 128. It runs as
  two pipelined regions (one per half), each walking 16 row tiles by 4 feature tiles and carrying an accumulator across
  the feature tiles of a row tile, between a host stretch that transposes and cuts w and one that joins the two halves.

  Frames: each region's body is run once per control case and the accumulator's contents are tracked point by point;
  the regions and the host stretches compose into the run of the whole program, whose post names every buffer's final
  contents, the arguments' being their launch contents. The reference has no kernel: its frame is its run.
  Preserves: the ideal pass rewrote nothing.
  Algebraic: over the extended reals the kernel's tile-by-tile extremum from the infinity is the extremum over all 512
  features (a maximum joined with -inf, or a minimum with +inf, is itself; extrema commute and associate), which is
  what the reference's reduction computes on the same sums; no finiteness of the inputs is needed.
-/
import proofs.«157227_j70145405878420_1_alg».proof.Defs
import proofs.«157227_j70145405878420_1_alg».proof.Proof.Gen.Kernel
import proofs.«157227_j70145405878420_1_alg».proof.Proof.Gen.KernelIdeal
import proofs.«157227_j70145405878420_1_alg».proof.Proof.Gen.ReferenceIdeal
import proofs.«157227_j70145405878420_1_alg».proof.Proof.Gen.Pre_finite_inputs
import proofs.«157227_j70145405878420_1_alg».proof.Proof.Gen.ReferenceIdeal.Run
import proofs.«157227_j70145405878420_1_alg».proof.Proof.Gen.ReferenceIdeal.Read
import proofs.«157227_j70145405878420_1_alg».proof.Proof.Kernel.Launch
import proofs.«157227_j70145405878420_1_alg».proof.Proof.KernelIdeal.Launch
import proofs.«157227_j70145405878420_1_alg».proof.Proof.Result
import proofs.«157227_j70145405878420_1_alg».proof.Proof.RefValue

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Fr.frame m ρ

theorem frame_ki : Cert.frame_KernelIdeal (hKernelIdeal := Cert.KernelIdeal.Gen.facts) (hPre_finite_inputs := Cert.Pre_finite_inputs.Gen.facts) :=
  fun m ρ _ => Cert.KernelIdeal.Fr.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end at the specification's function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.pool (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
